-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x20 : Shape := ⟨2, ![80000, 20]⟩
abbrev S200000x64 : Shape := ⟨2, ![200000, 64]⟩
abbrev S80000x64 : Shape := ⟨2, ![80000, 64]⟩
abbrev S64x20 : Shape := ⟨2, ![64, 20]⟩
abbrev S64 : Shape := ⟨1, ![64]⟩
abbrev S64x64 : Shape := ⟨2, ![64, 64]⟩
abbrev S2x1250000 : Shape := ⟨2, ![2, 1250000]⟩
abbrev S2x500000 : Shape := ⟨2, ![2, 500000]⟩
abbrev S_ : Shape := ⟨0, ![]⟩
abbrev S1x1250000 : Shape := ⟨2, ![1, 1250000]⟩
abbrev S1250000 : Shape := ⟨1, ![1250000]⟩
abbrev S1x500000 : Shape := ⟨2, ![1, 500000]⟩
abbrev S500000 : Shape := ⟨1, ![500000]⟩

class Facts : Prop where
  bcast_S_S80000x20 : S_.BroadcastsInDim S80000x20 (![] : Fin 0 → Fin S80000x20.rank)
  reducesTo_S80000x20_S_d0_1 : S80000x20.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S80000x64 : S_.BroadcastsInDim S80000x64 (![] : Fin 0 → Fin S80000x64.rank)
  reducesTo_S80000x64_S_d0_1 : S80000x64.ReducesTo [0, 1] S_
  bcast_S_S64x20 : S_.BroadcastsInDim S64x20 (![] : Fin 0 → Fin S64x20.rank)
  reducesTo_S64x20_S_d0_1 : S64x20.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x1250000_S1x1250000_0_0 : S2x1250000.Slices ![0, 0] S1x1250000
  shapeCasts_S1x1250000_S1250000 : S1x1250000.ShapeCasts S1250000
  bcast_S_S1250000 : S_.BroadcastsInDim S1250000 (![] : Fin 0 → Fin S1250000.rank)
  reducesTo_S1250000_S_d0 : S1250000.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_
  slices_S2x500000_S1x500000_1_0 : S2x500000.Slices ![1, 0] S1x500000

variable [Facts]

def fn_part4 {F : FTy → Type} [FloatOps F] (main_arg12 : IVec S2x500000 32) (main_v64 : IVec S_ 1) (main_v68 : IVec S500000 1) (main_v69 : IVec S1x500000 32) : IVec S_ 1 :=
  let main_v70 : IVec S500000 32 := shapeCast S500000 main_v69 shapeCasts_S1x500000_S500000
  let main_c_24 : IVec S_ 32 := constantI S_ 32 200000#32
  let main_v71 : IVec S500000 32 := broadcastInDim S500000 ![] bcast_S_S500000 main_c_24
  let main_v72 : IVec S500000 1 := cmpi .slt main_v70 main_v71
  let main_v73 : IVec S500000 1 := andi main_v68 main_v72
  let main_c_25 : IVec S_ 1 := constantI S_ 1 1#1
  let main_v74 : IVec S_ 1 := (fun x v => Host.reduce IntOp.andi x v reducesTo_S500000_S_d0 h_S_) main_v73 main_c_25
  let main_v75 : IVec S_ 1 := andi main_v64 main_v74
  let main_v76 : IVec S1x500000 32 := (extractStridedSlice S1x500000 ![1, 0] · slices_S2x500000_S1x500000_1_0) main_arg12
  let main_v77 : IVec S500000 32 := shapeCast S500000 main_v76 shapeCasts_S1x500000_S500000
  let main_c_26 : IVec S_ 32 := constantI S_ 32 0#32
  let main_v78 : IVec S500000 32 := broadcastInDim S500000 ![] bcast_S_S500000 main_c_26
  let main_v79 : IVec S500000 1 := cmpi .sge main_v77 main_v78
  let main_v80 : IVec S1x500000 32 := (extractStridedSlice S1x500000 ![1, 0] · slices_S2x500000_S1x500000_1_0) main_arg12
  let main_v81 : IVec S500000 32 := shapeCast S500000 main_v80 shapeCasts_S1x500000_S500000
  let main_c_27 : IVec S_ 32 := constantI S_ 32 80000#32
  let main_v82 : IVec S500000 32 := broadcastInDim S500000 ![] bcast_S_S500000 main_c_27
  let main_v83 : IVec S500000 1 := cmpi .slt main_v81 main_v82
  let main_v84 : IVec S500000 1 := andi main_v79 main_v83
  let main_c_28 : IVec S_ 1 := constantI S_ 1 1#1
  let main_v85 : IVec S_ 1 := (fun x v => Host.reduce IntOp.andi x v reducesTo_S500000_S_d0 h_S_) main_v84 main_c_28
  let main_v86 : IVec S_ 1 := andi main_v75 main_v85
  main_v86

def fn_part3 {F : FTy → Type} [FloatOps F] (main_arg11 : IVec S2x1250000 32) (main_arg12 : IVec S2x500000 32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : IVec S1x1250000 32 := (extractStridedSlice S1x1250000 ![0, 0] · slices_S2x1250000_S1x1250000_0_0) main_arg11
  let main_v55 : IVec S1250000 32 := shapeCast S1250000 main_v54 shapeCasts_S1x1250000_S1250000
  let main_c_20 : IVec S_ 32 := constantI S_ 32 0#32
  let main_v56 : IVec S1250000 32 := broadcastInDim S1250000 ![] bcast_S_S1250000 main_c_20
  let main_v57 : IVec S1250000 1 := cmpi .sge main_v55 main_v56
  let main_v58 : IVec S1x1250000 32 := (extractStridedSlice S1x1250000 ![0, 0] · slices_S2x1250000_S1x1250000_0_0) main_arg11
  let main_v59 : IVec S1250000 32 := shapeCast S1250000 main_v58 shapeCasts_S1x1250000_S1250000
  let main_c_21 : IVec S_ 32 := constantI S_ 32 280000#32
  let main_v60 : IVec S1250000 32 := broadcastInDim S1250000 ![] bcast_S_S1250000 main_c_21
  let main_v61 : IVec S1250000 1 := cmpi .slt main_v59 main_v60
  let main_v62 : IVec S1250000 1 := andi main_v57 main_v61
  let main_c_22 : IVec S_ 1 := constantI S_ 1 1#1
  let main_v63 : IVec S_ 1 := (fun x v => Host.reduce IntOp.andi x v reducesTo_S1250000_S_d0 h_S_) main_v62 main_c_22
  let main_v64 : IVec S_ 1 := andi main_v53 main_v63
  let main_v65 : IVec S1x500000 32 := (extractStridedSlice S1x500000 ![0, 0] · slices_S2x500000_S1x500000_0_0) main_arg12
  let main_v66 : IVec S500000 32 := shapeCast S500000 main_v65 shapeCasts_S1x500000_S500000
  let main_c_23 : IVec S_ 32 := constantI S_ 32 0#32
  let main_v67 : IVec S500000 32 := broadcastInDim S500000 ![] bcast_S_S500000 main_c_23
  let main_v68 : IVec S500000 1 := cmpi .sge main_v66 main_v67
  let main_v69 : IVec S1x500000 32 := (extractStridedSlice S1x500000 ![0, 0] · slices_S2x500000_S1x500000_0_0) main_arg12
  fn_part4 (F := F) main_arg12 main_v64 main_v68 main_v69

def fn_part2 {F : FTy → Type} [FloatOps F] (main_arg7 : FVec F S64x64 .f32) (main_arg8 : FVec F S64x64 .f32) (main_arg9 : FVec F S64 .f32) (main_arg10 : FVec F S64x64 .f32) (main_arg11 : IVec S2x1250000 32) (main_arg12 : IVec S2x500000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : IVec S2x1250000 32) (main_arg12 : IVec S2x500000 32) (main_v13 : IVec S_ 1) (main_v16 : IVec S64x20 1) : IVec S_ 1 :=
  let main_c_5 : IVec S_ 1 := constantI S_ 1 1#1
  let main_v17 : IVec S_ 1 := (fun x v => Host.reduce IntOp.andi x v reducesTo_S64x20_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S80000x20 .f32) (main_arg1 : FVec F S200000x64 .f32) (main_arg2 : FVec F S80000x64 .f32) (main_arg3 : FVec F S64x20 .f32) (main_arg4 : FVec F S64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : IVec S2x1250000 32) (main_arg12 : IVec S2x500000 32) : IVec S_ 1 :=
  let main_v0 : FVec F S80000x20 .f32 := Host.absf main_arg0
  let main_cst : FVec F S_ .f32 := constant S_ .f32 0x7F800000#32
  let main_v1 : FVec F S80000x20 .f32 := broadcastInDim S80000x20 ![] bcast_S_S80000x20 main_cst
  let main_v2 : IVec S80000x20 1 := cmpf .olt main_v0 main_v1
  let main_c : IVec S_ 1 := constantI S_ 1 1#1
  let main_v3 : IVec S_ 1 := (fun x v => Host.reduce IntOp.andi x v reducesTo_S80000x20_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S80000x64 .f32 := Host.absf main_arg2
  let main_cst_2 : FVec F S_ .f32 := constant S_ .f32 0x7F800000#32
  let main_v10 : FVec F S80000x64 .f32 := broadcastInDim S80000x64 ![] bcast_S_S80000x64 main_cst_2
  let main_v11 : IVec S80000x64 1 := cmpf .olt main_v9 main_v10
  let main_c_3 : IVec S_ 1 := constantI S_ 1 1#1
  let main_v12 : IVec S_ 1 := (fun x v => Host.reduce IntOp.andi x v reducesTo_S80000x64_S_d0_1 h_S_) main_v11 main_c_3
  let main_v13 : IVec S_ 1 := andi main_v8 main_v12
  let main_v14 : FVec F S64x20 .f32 := Host.absf main_arg3
  let main_cst_4 : FVec F S_ .f32 := constant S_ .f32 0x7F800000#32
  let main_v15 : FVec F S64x20 .f32 := broadcastInDim S64x20 ![] bcast_S_S64x20 main_cst_4
  let main_v16 : IVec S64x20 1 := cmpf .olt main_v14 main_v15
  fn_part1 (F := F) main_arg4 main_arg5 main_arg6 main_arg7 main_arg8 main_arg9 main_arg10 main_arg11 main_arg12 main_v13 main_v16
-- ==== Kernel.lean ====
abbrev S80000x20 : Shape := ⟨2, ![80000, 20]⟩
abbrev S200000x64 : Shape := ⟨2, ![200000, 64]⟩
abbrev S80000x64 : Shape := ⟨2, ![80000, 64]⟩
abbrev S64x20 : Shape := ⟨2, ![64, 20]⟩
abbrev S64 : Shape := ⟨1, ![64]⟩
abbrev S64x64 : Shape := ⟨2, ![64, 64]⟩
abbrev S2x1250000 : Shape := ⟨2, ![2, 1250000]⟩
abbrev S2x500000 : Shape := ⟨2, ![2, 500000]⟩
abbrev S20x64 : Shape := ⟨2, ![20, 64]⟩
abbrev S1x64 : Shape := ⟨2, ![1, 64]⟩
abbrev S8000x20 : Shape := ⟨2, ![8000, 20]⟩
abbrev S8000x64 : Shape := ⟨2, ![8000, 64]⟩
abbrev S280000x64 : Shape := ⟨2, ![280000, 64]⟩
abbrev S1x1250000 : Shape := ⟨2, ![1, 1250000]⟩
abbrev S1250000 : Shape := ⟨1, ![1250000]⟩
abbrev S_ : Shape := ⟨0, ![]⟩
abbrev S280000 : Shape := ⟨1, ![280000]⟩
abbrev S1250000x1 : Shape := ⟨2, ![1250000, 1]⟩
abbrev S280000x1 : Shape := ⟨2, ![280000, 1]⟩
abbrev S1 : Shape := ⟨1, ![1]⟩
abbrev S1x1 : Shape := ⟨2, ![1, 1]⟩
abbrev S1250000x64 : Shape := ⟨2, ![1250000, 64]⟩
abbrev S8000x1 : Shape := ⟨2, ![8000, 1]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 144
  | .vmem => 36
  | .smem => 0
  | _ => 0

abbrev hbmTy0_0 (i : Nat) : BufTy := match i % 128 with
  | 0 => ⟨S80000x20, .f32⟩
  | 1 => ⟨S200000x64, .f32⟩
  | 2 => ⟨S80000x64, .f32⟩
  | 3 => ⟨S64x20, .f32⟩
  | 4 => ⟨S64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S2x1250000, .i32⟩
  | 12 => ⟨S2x500000, .i32⟩
  | 13 => ⟨S20x64, .f32⟩
  | 14 => ⟨S1x64, .f32⟩
  | 15 => ⟨S80000x64, .f32⟩
  | 16 => ⟨S280000x64, .f32⟩
  | 17 => ⟨S1x1250000, .i32⟩
  | 18 => ⟨S1250000, .i32⟩
  | 19 => ⟨S1x1250000, .i32⟩
  | 20 => ⟨S1250000, .i32⟩
  | 21 => ⟨S_, .f32⟩
  | 22 => ⟨S1250000, .f32⟩
  | 23 => ⟨S_, .f32⟩
  | 24 => ⟨S280000, .f32⟩
  | 25 => ⟨S1250000x1, .i32⟩
  | 26 => ⟨S280000, .f32⟩
  | 27 => ⟨S280000x1, .f32⟩
  | 28 => ⟨S64x64, .f32⟩
  | 29 => ⟨S64x64, .f32⟩
  | 30 => ⟨S64x64, .f32⟩
  | 31 => ⟨S64x64, .f32⟩
  | 32 => ⟨S1x64, .f32⟩
  | 33 => ⟨S1x64, .f32⟩
  | 34 => ⟨S_, .i32⟩
  | 35 => ⟨S1250000, .i32⟩
  | 36 => ⟨S1250000, .i1⟩
  | 37 => ⟨S_, .i32⟩
  | 38 => ⟨S1250000, .i32⟩
  | 39 => ⟨S1250000, .i32⟩
  | 40 => ⟨S1250000, .i32⟩
  | 41 => ⟨S1250000x1, .i32⟩
  | 42 => ⟨S1, .i32⟩
  | 43 => ⟨S_, .i32⟩
  | 44 => ⟨S1250000x1, .i32⟩
  | 45 => ⟨S1250000x1, .i1⟩
  | 46 => ⟨S1x1, .i32⟩
  | 47 => ⟨S1250000x1, .i32⟩
  | 48 => ⟨S1250000x1, .i1⟩
  | 49 => ⟨S1250000x1, .i1⟩
  | 50 => ⟨S_, .i1⟩
  | 51 => ⟨S1250000, .i1⟩
  | 52 => ⟨S1250000x64, .f32⟩
  | 53 => ⟨S1250000x64, .i1⟩
  | 54 => ⟨S_, .f32⟩
  | 55 => ⟨S1250000x64, .f32⟩
  | 56 => ⟨S1250000x64, .f32⟩
  | 57 => ⟨S_, .f32⟩
  | 58 => ⟨S280000x64, .f32⟩
  | 59 => ⟨S1250000x1, .i32⟩
  | 60 => ⟨S280000x64, .f32⟩
  | 61 => ⟨S280000x64, .f32⟩
  | 62 => ⟨S_, .i32⟩
  | 63 => ⟨S1250000, .i32⟩
  | 64 => ⟨S1250000, .i1⟩
  | 65 => ⟨S_, .i32⟩
  | 66 => ⟨S1250000, .i32⟩
  | 67 => ⟨S1250000, .i32⟩
  | 68 => ⟨S1250000, .i32⟩
  | 69 => ⟨S1250000x1, .i32⟩
  | 70 => ⟨S1, .i32⟩
  | 71 => ⟨S_, .i32⟩
  | 72 => ⟨S1250000x1, .i32⟩
  | 73 => ⟨S1250000x1, .i1⟩
  | 74 => ⟨S1x1, .i32⟩
  | 75 => ⟨S1250000x1, .i32⟩
  | 76 => ⟨S1250000x1, .i1⟩
  | 77 => ⟨S1250000x1, .i1⟩
  | 78 => ⟨S_, .i1⟩
  | 79 => ⟨S1250000, .i1⟩
  | 80 => ⟨S1250000x64, .f32⟩
  | 81 => ⟨S1250000x64, .i1⟩
  | 82 => ⟨S_, .f32⟩
  | 83 => ⟨S1250000x64, .f32⟩
  | 84 => ⟨S1250000x64, .f32⟩
  | 85 => ⟨S_, .f32⟩
  | 86 => ⟨S280000x64, .f32⟩
  | 87 => ⟨S1250000x1, .i32⟩
  | 88 => ⟨S280000x64, .f32⟩
  | 89 => ⟨S280000x64, .f32⟩
  | 90 => ⟨S200000x64, .f32⟩
  | 91 => ⟨S80000x64, .f32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S1, .i32⟩
  | 103 => ⟨S_, .i32⟩
  | 104 => ⟨S500000x1, .i32⟩
  | 105 => ⟨S500000x1, .i1⟩
  | 106 => ⟨S1x1, .i32⟩
  | 107 => ⟨S500000x1, .i32⟩
  | 108 => ⟨S500000x1, .i1⟩
  | 109 => ⟨S500000x1, .i1⟩
  | 110 => ⟨S_, .i1⟩
  | 111 => ⟨S500000, .i1⟩
  | 112 => ⟨S500000x64, .f32⟩
  | 113 => ⟨S500000x64, .i1⟩
  | 114 => ⟨S_, .f32⟩
  | 115 => ⟨S500000x64, .f32⟩
  | 116 => ⟨S500000x64, .f32⟩
  | 117 => ⟨S1x500000, .i32⟩
  | 118 => ⟨S500000, .i32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S1, .i32⟩
  | _ => ⟨S80000x20, .f32⟩

abbrev hbmTy0_1 (i : Nat) : BufTy := match i % 128 with
  | 0 => ⟨S_, .i32⟩
  | 1 => ⟨S500000x1, .i32⟩
  | 2 => ⟨S500000x1, .i1⟩
  | 3 => ⟨S1x1, .i32⟩
  | 4 => ⟨S500000x1, .i32⟩
  | 5 => ⟨S500000x1, .i1⟩
  | 6 => ⟨S500000x1, .i1⟩
  | 7 => ⟨S_, .i1⟩
  | 8 => ⟨S500000, .i1⟩
  | 9 => ⟨S500000x64, .f32⟩
  | 10 => ⟨S500000x64, .i1⟩
  | 11 => ⟨S_, .f32⟩
  | 12 => ⟨S500000x64, .f32⟩
  | 13 => ⟨S500000x64, .f32⟩
  | 14 => ⟨S500000x1, .f32⟩
  | 15 => ⟨S500000, .f32⟩
  | _ => ⟨S80000x20, .f32⟩

abbrev hbmTy (i : Nat) : BufTy := match i / 128 with
  | 0 => hbmTy0_0 i
  | 1 => hbmTy0_1 i
  | _ => ⟨S80000x20, .f32⟩

abbrev bufTy : (tb : Table) → Fin (tcTables nBuf tb) → BufTy
  | .hbm, ⟨i, _⟩ => hbmTy i
  | .local _ .vmem, ⟨0, _⟩ => ⟨S8000x20, .f32⟩
  | .local _ .vmem, ⟨1, _⟩ => ⟨S8000x20, .f32⟩
  | .local _ .vmem, ⟨2, _⟩ => ⟨S20x64, .f32⟩
  | .local _ .vmem, ⟨3, _⟩ => ⟨S1x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x1, .f32⟩
  | .local _ .vmem, ⟨11, _⟩ => ⟨S8000x1, .f32⟩
  | .local _ .vmem, ⟨12, _⟩ => ⟨S8000x64, .f32⟩
  | .local _ .vmem, ⟨13, _⟩ => ⟨S8000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x1, .f32⟩
  | .local _ .vmem, ⟨22, _⟩ => ⟨S8000x1, .f32⟩
  | .local _ .vmem, ⟨23, _⟩ => ⟨S8000x64, .f32⟩
  | .local _ .vmem, ⟨24, _⟩ => ⟨S8000x64, .f32⟩
  | .local _ .vmem, ⟨25, _⟩ => ⟨S64x64, .f32⟩
  | .local _ .vmem, ⟨26, _⟩ => ⟨S1x64, .f32⟩
  | .local _ .vmem, ⟨27, _⟩ => ⟨S64x64, .f32⟩
  | .local _ .vmem, ⟨28, _⟩ => ⟨S8000x64, .f32⟩
  | .local _ .vmem, ⟨29, _⟩ => ⟨S8000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x1, .f32⟩
  | .local _ .vmem, ⟨35, _⟩ => ⟨S10000x1, .f32⟩
  | _, _ => ⟨S80000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v19 : Ref sig .tc := ⟨.hbm, 56, rfl⟩
abbrev main_cst_1 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v24 : Ref sig .tc := ⟨.hbm, 84, rfl⟩
abbrev main_cst_2 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_call3_c : Ref sig .tc := ⟨.hbm, 119, rfl⟩
abbrev main_call3_v0 : Ref sig .tc := ⟨.hbm, 120, rfl⟩
abbrev main_call3_v1 : Ref sig .tc := ⟨.hbm, 121, rfl⟩
abbrev main_call3_c_0 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_c_1 : Ref sig .tc := ⟨.hbm, 127, rfl⟩
abbrev main_call3_c_2 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_call3_c_3 : Ref sig .tc := ⟨.hbm, 135, rfl⟩
abbrev main_call3_v12 : Ref sig .tc := ⟨.hbm, 136, rfl⟩
abbrev main_call3_v13 : Ref sig .tc := ⟨.hbm, 137, rfl⟩
abbrev main_call3_v14 : Ref sig .tc := ⟨.hbm, 138, rfl⟩
abbrev main_call3_cst : Ref sig .tc := ⟨.hbm, 139, rfl⟩
abbrev main_call3_v15 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![35], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![35], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S64x20_S20x64_1_0 : S64x20.Transposes [1, 0] S20x64
  shapeCasts_S64_S1x64 : S64.ShapeCasts S1x64
  inb_S8000x20_S8000x20_0_0 : ∀ a, (![0, 0] : Fin 2 → Nat) a + S8000x20.size a ≤ S8000x20.size a
  h_S8000x20 : 0 < S8000x20.numel
  bitsLt_bf16_f32 : FTy.bits .bf16 < FTy.bits .f32
  inb_S20x64_S20x64_0_0 : ∀ a, (![0, 0] : Fin 2 → Nat) a + S20x64.size a ≤ S20x64.size a
  h_S20x64 : 0 < S20x64.numel
  shapeCasts_S20x64_S20x64 : S20x64.ShapeCasts S20x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  concatenates_S200000x64_S80000x64_S280000x64_d0 : Shape.Concatenates [S200000x64, S80000x64] S280000x64 0
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S280000 : S_.BroadcastsInDim S280000 (![] : Fin 0 → Fin S280000.rank)
  bcast_S1250000_S1250000x1_0 : S1250000.BroadcastsInDim S1250000x1 (![0] : Fin 1 → Fin S1250000x1.rank)
  shapeCasts_S280000_S280000x1 : S280000.ShapeCasts S280000x1
  transposes_S64x64_S64x64_1_0 : S64x64.Transposes [1, 0] S64x64
  bcast_S_S1250000x1 : S_.BroadcastsInDim S1250000x1 (![] : Fin 0 → Fin S1250000x1.rank)
  bcast_S1_S1x1_1 : S1.BroadcastsInDim S1x1 (![1] : Fin 1 → Fin S1x1.rank)
  bcast_S1x1_S1250000x1_0_1 : S1x1.BroadcastsInDim S1250000x1 (![0, 1] : Fin 2 → Fin S1250000x1.rank)
  reducesTo_S1250000x1_S1250000_d1 : S1250000x1.ReducesTo [1] S1250000
  h_S_ : 0 < S_.numel
  bcast_S1250000_S1250000x64_0 : S1250000.BroadcastsInDim S1250000x64 (![0] : Fin 1 → Fin S1250000x64.rank)
  bcast_S_S1250000x64 : S_.BroadcastsInDim S1250000x64 (![] : Fin 0 → Fin S1250000x64.rank)
  bcast_S_S280000x64 : S_.BroadcastsInDim S280000x64 (![] : Fin 0 → Fin S280000x64.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  shapeCasts_S8000x64_S8000x64 : S8000x64.ShapeCasts S8000x64
  broadcasts_S8000x1_S8000x64 : S8000x1.Broadcasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S280000x64_S200000x64_0_0 : S280000x64.Slices ![0, 0] S200000x64
  slices_S280000x64_S80000x64_200000_0 : S280000x64.Slices ![200000, 0] S80000x64
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x64_0 : S500000.BroadcastsInDim S500000x64 (![0] : Fin 1 → Fin S500000x64.rank)
  bcast_S_S500000x64 : S_.BroadcastsInDim S500000x64 (![] : Fin 0 → Fin S500000x64.rank)
  slices_S2x500000_S1x500000_1_0 : S2x500000.Slices ![1, 0] S1x500000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  dot_S8000x20_S20x64_S8000x64_1_0_0_1_n_n_wf : DotDims.WF S8000x20 S20x64 S8000x64 [1] [0] [0] [1] [] []
  scatter_S280000_S1250000x1_S1250000_n_0_0_1_wf : ScatterDims.WF S280000 S1250000x1 S1250000 [] [0] [0] 1
  gather_S280000x64_S1250000x1_S1250000x64_1_0_n_n_0_1_164_wf : GatherDims.WF S280000x64 S1250000x1 S1250000x64 [1] [0] [] [0] [] 1 ![1, 64]
  scatter_S280000x64_S1250000x1_S1250000x64_1_0_0_1_wf : ScatterDims.WF S280000x64 S1250000x1 S1250000x64 [1] [0] [0] 1
  dot_S8000x64_S64x64_S8000x64_1_0_0_1_n_n_wf : DotDims.WF S8000x64 S64x64 S8000x64 [1] [0] [0] [1] [] []
  gather_S200000x64_S500000x1_S500000x64_1_0_n_n_0_1_164_wf : GatherDims.WF S200000x64 S500000x1 S500000x64 [1] [0] [] [0] [] 1 ![1, 64]
  gather_S80000x64_S500000x1_S500000x64_1_0_n_n_0_1_164_wf : GatherDims.WF S80000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x20.size a ≤ S80000x20.size a
  hwx0_0 : ∀ i : grid0.Coords, EltTy.bits .f32 = 32 ∨ (Rect.block (s := S80000x20) S8000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x64.size a ≤ S20x64.size a
  hwx0_1 : ∀ i : grid0.Coords, EltTy.bits .f32 = 32 ∨ (Rect.block (s := S20x64) S20x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S80000x64.size a
  hwx0_3 : ∀ i : grid0.Coords, EltTy.bits .f32 = 32 ∨ (Rect.block (s := S80000x64) S8000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S80000x64.size a
  hwx0_4 : ∀ i : grid0.Coords, EltTy.bits .f32 = 32 ∨ (Rect.block (s := S80000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S280000x64.size a
  hwx1_0 : ∀ i : grid1.Coords, EltTy.bits .f32 = 32 ∨ (Rect.block (s := S280000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S280000x1.size a
  hwx1_1 : ∀ i : grid1.Coords, EltTy.bits .f32 = 32 ∨ (Rect.block (s := S280000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S280000x64.size a
  hwx1_2 : ∀ i : grid1.Coords, EltTy.bits .f32 = 32 ∨ (Rect.block (s := S280000x64) S8000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x64.size a ≤ S280000x64.size a
  hwx1_6 : ∀ i : grid1.Coords, EltTy.bits .f32 = 32 ∨ (Rect.block (s := S280000x64) S8000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S280000x64.size a
  hwx2_0 : ∀ i : grid2.Coords, EltTy.bits .f32 = 32 ∨ (Rect.block (s := S280000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S280000x1.size a
  hwx2_1 : ∀ i : grid2.Coords, EltTy.bits .f32 = 32 ∨ (Rect.block (s := S280000x1) S8000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S280000x64.size a
  hwx2_2 : ∀ i : grid2.Coords, EltTy.bits .f32 = 32 ∨ (Rect.block (s := S280000x64) S8000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x64.size a ≤ S280000x64.size a
  hwx2_6 : ∀ i : grid2.Coords, EltTy.bits .f32 = 32 ∨ (Rect.block (s := S280000x64) S8000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S500000x64.size a
  hwx3_0 : ∀ i : grid3.Coords, EltTy.bits .f32 = 32 ∨ (Rect.block (s := S500000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S500000x64.size a
  hwx3_1 : ∀ i : grid3.Coords, EltTy.bits .f32 = 32 ∨ (Rect.block (s := S500000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S500000x1.size a
  hwx3_2 : ∀ i : grid3.Coords, EltTy.bits .f32 = 32 ∨ (Rect.block (s := S500000x1) S10000x1.size (cc3_transform_2 i) (hinb3_2 i)).WholeWords (EltTy.packing .f32)

variable [Facts₀]

def dot_S8000x20_S20x64_S8000x64_1_0_0_1_n_n : DotDims S8000x20 S20x64 S8000x64 where
  lhsContracting := [1]
  rhsContracting := [0]
  lhsNonContracting := [0]
  rhsNonContracting := [1]
  lhsBatch := []
  rhsBatch := []
  wf := dot_S8000x20_S20x64_S8000x64_1_0_0_1_n_n_wf
def scatter_S280000_S1250000x1_S1250000_n_0_0_1 : ScatterDims S280000 S1250000x1 S1250000 where
  updateWindowDims := []
  insertedWindowDims := [0]
  scatterDimsToOperandDims := [0]
  indexVectorDim := 1
  wf := scatter_S280000_S1250000x1_S1250000_n_0_0_1_wf
def gather_S280000x64_S1250000x1_S1250000x64_1_0_n_n_0_1_164 : GatherDims S280000x64 S1250000x1 S1250000x64 where
  offsetDims := [1]
  collapsedSliceDims := [0]
  operandBatchingDims := []
  startIndicesBatchingDims := []
  startIndexMap := [0]
  indexVectorDim := 1
  sliceSizes := ![1, 64]
  wf := gather_S280000x64_S1250000x1_S1250000x64_1_0_n_n_0_1_164_wf
def scatter_S280000x64_S1250000x1_S1250000x64_1_0_0_1 : ScatterDims S280000x64 S1250000x1 S1250000x64 where
  updateWindowDims := [1]
  insertedWindowDims := [0]
  scatterDimsToOperandDims := [0]
  indexVectorDim := 1
  wf := scatter_S280000x64_S1250000x1_S1250000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def gather_S80000x64_S500000x1_S500000x64_1_0_n_n_0_1_164 : GatherDims S80000x64 S500000x1 S500000x64 where
  offsetDims := [1]
  collapsedSliceDims := [0]
  operandBatchingDims := []
  startIndicesBatchingDims := []
  startIndexMap := [0]
  indexVectorDim := 1
  sliceSizes := ![1, 64]
  wf := gather_S80000x64_S500000x1_S500000x64_1_0_n_n_0_1_164_wf

abbrev win0_0 : Pipeline.Window sig grid0 :=
  Pipeline.Window.ofSpec (Memref.whole main_arg0) S8000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S8000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S8000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v27) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S8000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v33) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S80000x20 : Shape := ⟨2, ![80000, 20]⟩
abbrev S200000x64 : Shape := ⟨2, ![200000, 64]⟩
abbrev S80000x64 : Shape := ⟨2, ![80000, 64]⟩
abbrev S64x20 : Shape := ⟨2, ![64, 20]⟩
abbrev S64 : Shape := ⟨1, ![64]⟩
abbrev S64x64 : Shape := ⟨2, ![64, 64]⟩
abbrev S2x1250000 : Shape := ⟨2, ![2, 1250000]⟩
abbrev S2x500000 : Shape := ⟨2, ![2, 500000]⟩
abbrev S20x64 : Shape := ⟨2, ![20, 64]⟩
abbrev S1x64 : Shape := ⟨2, ![1, 64]⟩
abbrev S280000x64 : Shape := ⟨2, ![280000, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S280000 : Shape := ⟨1, ![280000]⟩
abbrev S280000x1 : Shape := ⟨2, ![280000, 1]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩

abbrev nBuf : Space → Nat
  | .hbm => 120
  | .vmem => 0
  | .smem => 0
  | _ => 0

abbrev bufTy : (tb : Table) → Fin (tcTables nBuf tb) → BufTy
  | .hbm, ⟨0, _⟩ => ⟨S80000x20, .f32⟩
  | .hbm, ⟨1, _⟩ => ⟨S200000x64, .f32⟩
  | .hbm, ⟨2, _⟩ => ⟨S80000x64, .f32⟩
  | .hbm, ⟨3, _⟩ => ⟨S64x20, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S2x1250000, .i32⟩
  | .hbm, ⟨12, _⟩ => ⟨S2x500000, .i32⟩
  | .hbm, ⟨13, _⟩ => ⟨S20x64, .f32⟩
  | .hbm, ⟨14, _⟩ => ⟨S80000x64, .f32⟩
  | .hbm, ⟨15, _⟩ => ⟨S1x64, .f32⟩
  | .hbm, ⟨16, _⟩ => ⟨S80000x64, .f32⟩
  | .hbm, ⟨17, _⟩ => ⟨S80000x64, .f32⟩
  | .hbm, ⟨18, _⟩ => ⟨S80000x64, .f32⟩
  | .hbm, ⟨19, _⟩ => ⟨S280000x64, .f32⟩
  | .hbm, ⟨20, _⟩ => ⟨S1x1250000, .i32⟩
  | .hbm, ⟨21, _⟩ => ⟨S1250000, .i32⟩
  | .hbm, ⟨22, _⟩ => ⟨S1x1250000, .i32⟩
  | .hbm, ⟨23, _⟩ => ⟨S1250000, .i32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000x64, .f32⟩
  | .hbm, ⟨33, _⟩ => ⟨S_, .f32⟩
  | .hbm, ⟨34, _⟩ => ⟨S280000x64, .f32⟩
  | .hbm, ⟨35, _⟩ => ⟨S1250000x1, .i32⟩
  | .hbm, ⟨36, _⟩ => ⟨S280000x64, .f32⟩
  | .hbm, ⟨37, _⟩ => ⟨S_, .f32⟩
  | .hbm, ⟨38, _⟩ => ⟨S1250000, .f32⟩
  | .hbm, ⟨39, _⟩ => ⟨S_, .f32⟩
  | .hbm, ⟨40, _⟩ => ⟨S280000, .f32⟩
  | .hbm, ⟨41, _⟩ => ⟨S1250000x1, .i32⟩
  | .hbm, ⟨42, _⟩ => ⟨S280000, .f32⟩
  | .hbm, ⟨43, _⟩ => ⟨S_, .f32⟩
  | .hbm, ⟨44, _⟩ => ⟨S280000, .f32⟩
  | .hbm, ⟨45, _⟩ => ⟨S280000, .f32⟩
  | .hbm, ⟨46, _⟩ => ⟨S280000x1, .f32⟩
  | .hbm, ⟨47, _⟩ => ⟨S280000x64, .f32⟩
  | .hbm, ⟨48, _⟩ => ⟨S280000x64, .f32⟩
  | .hbm, ⟨49, _⟩ => ⟨S64x64, .f32⟩
  | .hbm, ⟨50, _⟩ => ⟨S280000x64, .f32⟩
  | .hbm, ⟨51, _⟩ => ⟨S1x64, .f32⟩
  | .hbm, ⟨52, _⟩ => ⟨S280000x64, .f32⟩
  | .hbm, ⟨53, _⟩ => ⟨S280000x64, .f32⟩
  | .hbm, ⟨54, _⟩ => ⟨S64x64, .f32⟩
  | .hbm, ⟨55, _⟩ => ⟨S280000x64, .f32⟩
  | .hbm, ⟨56, _⟩ => ⟨S280000x64, .f32⟩
  | .hbm, ⟨57, _⟩ => ⟨S_, .f32⟩
  | .hbm, ⟨58, _⟩ => ⟨S280000x64, .f32⟩
  | .hbm, ⟨59, _⟩ => ⟨S280000x64, .f32⟩
  | .hbm, ⟨60, _⟩ => ⟨S_, .i32⟩
  | .hbm, ⟨61, _⟩ => ⟨S1250000, .i32⟩
  | .hbm, ⟨62, _⟩ => ⟨S1250000, .i1⟩
  | .hbm, ⟨63, _⟩ => ⟨S_, .i32⟩
  | .hbm, ⟨64, _⟩ => ⟨S1250000, .i32⟩
  | .hbm, ⟨65, _⟩ => ⟨S1250000, .i32⟩
  | .hbm, ⟨66, _⟩ => ⟨S1250000, .i32⟩
  | .hbm, ⟨67, _⟩ => ⟨S1250000x1, .i32⟩
  | .hbm, ⟨68, _⟩ => ⟨S1250000x64, .f32⟩
  | .hbm, ⟨69, _⟩ => ⟨S_, .f32⟩
  | .hbm, ⟨70, _⟩ => ⟨S280000x64, .f32⟩
  | .hbm, ⟨71, _⟩ => ⟨S1250000x1, .i32⟩
  | .hbm, ⟨72, _⟩ => ⟨S280000x64, .f32⟩
  | .hbm, ⟨73, _⟩ => ⟨S_, .f32⟩
  | .hbm, ⟨74, _⟩ => ⟨S1250000, .f32⟩
  | .hbm, ⟨75, _⟩ => ⟨S_, .f32⟩
  | .hbm, ⟨76, _⟩ => ⟨S280000, .f32⟩
  | .hbm, ⟨77, _⟩ => ⟨S1250000x1, .i32⟩
  | .hbm, ⟨78, _⟩ => ⟨S280000, .f32⟩
  | .hbm, ⟨79, _⟩ => ⟨S_, .f32⟩
  | .hbm, ⟨80, _⟩ => ⟨S280000, .f32⟩
  | .hbm, ⟨81, _⟩ => ⟨S280000, .f32⟩
  | .hbm, ⟨82, _⟩ => ⟨S280000x1, .f32⟩
  | .hbm, ⟨83, _⟩ => ⟨S280000x64, .f32⟩
  | .hbm, ⟨84, _⟩ => ⟨S280000x64, .f32⟩
  | .hbm, ⟨85, _⟩ => ⟨S64x64, .f32⟩
  | .hbm, ⟨86, _⟩ => ⟨S280000x64, .f32⟩
  | .hbm, ⟨87, _⟩ => ⟨S1x64, .f32⟩
  | .hbm, ⟨88, _⟩ => ⟨S280000x64, .f32⟩
  | .hbm, ⟨89, _⟩ => ⟨S280000x64, .f32⟩
  | .hbm, ⟨90, _⟩ => ⟨S64x64, .f32⟩
  | .hbm, ⟨91, _⟩ => ⟨S280000x64, .f32⟩
  | .hbm, ⟨92, _⟩ => ⟨S280000x64, .f32⟩
  | .hbm, ⟨93, _⟩ => ⟨S200000x64, .f32⟩
  | .hbm, ⟨94, _⟩ => ⟨S80000x64, .f32⟩
  | .hbm, ⟨95, _⟩ => ⟨S1x500000, .i32⟩
  | .hbm, ⟨96, _⟩ => ⟨S500000, .i32⟩
  | .hbm, ⟨97, _⟩ => ⟨S_, .i32⟩
  | .hbm, ⟨98, _⟩ => ⟨S500000, .i32⟩
  | .hbm, ⟨99, _⟩ => ⟨S500000, .i1⟩
  | .hbm, ⟨100, _⟩ => ⟨S_, .i32⟩
  | .hbm, ⟨101, _⟩ => ⟨S500000, .i32⟩
  | .hbm, ⟨102, _⟩ => ⟨S500000, .i32⟩
  | .hbm, ⟨103, _⟩ => ⟨S500000, .i32⟩
  | .hbm, ⟨104, _⟩ => ⟨S500000x1, .i32⟩
  | .hbm, ⟨105, _⟩ => ⟨S500000x64, .f32⟩
  | .hbm, ⟨106, _⟩ => ⟨S1x500000, .i32⟩
  | .hbm, ⟨107, _⟩ => ⟨S500000, .i32⟩
  | .hbm, ⟨108, _⟩ => ⟨S_, .i32⟩
  | .hbm, ⟨109, _⟩ => ⟨S500000, .i32⟩
  | .hbm, ⟨110, _⟩ => ⟨S500000, .i1⟩
  | .hbm, ⟨111, _⟩ => ⟨S_, .i32⟩
  | .hbm, ⟨112, _⟩ => ⟨S500000, .i32⟩
  | .hbm, ⟨113, _⟩ => ⟨S500000, .i32⟩
  | .hbm, ⟨114, _⟩ => ⟨S500000, .i32⟩
  | .hbm, ⟨115, _⟩ => ⟨S500000x1, .i32⟩
  | .hbm, ⟨116, _⟩ => ⟨S500000x64, .f32⟩
  | .hbm, ⟨117, _⟩ => ⟨S500000x64, .f32⟩
  | .hbm, ⟨118, _⟩ => ⟨S_, .f32⟩
  | .hbm, ⟨119, _⟩ => ⟨S500000, .f32⟩
  | _, _ => ⟨S80000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_c_4 : Ref sig .tc := ⟨.hbm, 60, rfl⟩
abbrev main_v39 : Ref sig .tc := ⟨.hbm, 61, rfl⟩
abbrev main_v40 : Ref sig .tc := ⟨.hbm, 62, rfl⟩
abbrev main_c_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_10 : Ref sig .tc := ⟨.hbm, 97, rfl⟩
abbrev main_v70 : Ref sig .tc := ⟨.hbm, 98, rfl⟩
abbrev main_v71 : Ref sig .tc := ⟨.hbm, 99, rfl⟩
abbrev main_c_11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_12 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_14 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  transposes_S64x20_S20x64_1_0 : S64x20.Transposes [1, 0] S20x64
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  concatenates_S200000x64_S80000x64_S280000x64_d0 : Shape.Concatenates [S200000x64, S80000x64] S280000x64 0
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S280000x64 : S_.BroadcastsInDim S280000x64 (![] : Fin 0 → Fin S280000x64.rank)
  bcast_S_S280000 : S_.BroadcastsInDim S280000 (![] : Fin 0 → Fin S280000.rank)
  bcast_S280000_S280000x1_0 : S280000.BroadcastsInDim S280000x1 (![0] : Fin 1 → Fin S280000x1.rank)
  bcast_S280000x1_S280000x64_0_1 : S280000x1.BroadcastsInDim S280000x64 (![0, 1] : Fin 2 → Fin S280000x64.rank)
  transposes_S64x64_S64x64_1_0 : S64x64.Transposes [1, 0] S64x64
  bcast_S1x64_S280000x64_0_1 : S1x64.BroadcastsInDim S280000x64 (![0, 1] : Fin 2 → Fin S280000x64.rank)
  slices_S280000x64_S200000x64_0_0 : S280000x64.Slices ![0, 0] S200000x64
  slices_S280000x64_S80000x64_200000_0 : S280000x64.Slices ![200000, 0] S80000x64
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x64_S500000_d1 : S500000x64.ReducesTo [1] S500000
  h_S_ : 0 < S_.numel
  dot_S80000x20_S20x64_S80000x64_1_0_0_1_n_n_wf : DotDims.WF S80000x20 S20x64 S80000x64 [1] [0] [0] [1] [] []
  gather_S280000x64_S1250000x1_S1250000x64_1_0_n_n_0_1_164_wf : GatherDims.WF S280000x64 S1250000x1 S1250000x64 [1] [0] [] [0] [] 1 ![1, 64]
  scatter_S280000x64_S1250000x1_S1250000x64_1_0_0_1_wf : ScatterDims.WF S280000x64 S1250000x1 S1250000x64 [1] [0] [0] 1
  scatter_S280000_S1250000x1_S1250000_n_0_0_1_wf : ScatterDims.WF S280000 S1250000x1 S1250000 [] [0] [0] 1
  dot_S280000x64_S64x64_S280000x64_1_0_0_1_n_n_wf : DotDims.WF S280000x64 S64x64 S280000x64 [1] [0] [0] [1] [] []
  gather_S200000x64_S500000x1_S500000x64_1_0_n_n_0_1_164_wf : GatherDims.WF S200000x64 S500000x1 S500000x64 [1] [0] [] [0] [] 1 ![1, 64]
  gather_S80000x64_S500000x1_S500000x64_1_0_n_n_0_1_164_wf : GatherDims.WF S80000x64 S500000x1 S500000x64 [1] [0] [] [0] [] 1 ![1, 64]

variable [Facts₀]

def dot_S80000x20_S20x64_S80000x64_1_0_0_1_n_n : DotDims S80000x20 S20x64 S80000x64 where
  lhsContracting := [1]
  rhsContracting := [0]
  lhsNonContracting := [0]
  rhsNonContracting := [1]
  lhsBatch := []
  rhsBatch := []
  wf := dot_S80000x20_S20x64_S80000x64_1_0_0_1_n_n_wf
def gather_S280000x64_S1250000x1_S1250000x64_1_0_n_n_0_1_164 : GatherDims S280000x64 S1250000x1 S1250000x64 where
  offsetDims := [1]
  collapsedSliceDims := [0]
  operandBatchingDims := []
  startIndicesBatchingDims := []
  startIndexMap := [0]
  indexVectorDim := 1
  sliceSizes := ![1, 64]
  wf := gather_S280000x64_S1250000x1_S1250000x64_1_0_n_n_0_1_164_wf
def scatter_S280000x64_S1250000x1_S1250000x64_1_0_0_1 : ScatterDims S280000x64 S1250000x1 S1250000x64 where
  updateWindowDims := [1]
  insertedWindowDims := [0]
  scatterDimsToOperandDims := [0]
  indexVectorDim := 1
  wf := scatter_S280000x64_S1250000x1_S1250000x64_1_0_0_1_wf
def scatter_S280000_S1250000x1_S1250000_n_0_0_1 : ScatterDims S280000 S1250000x1 S1250000 where
  updateWindowDims := []
  insertedWindowDims := [0]
  scatterDimsToOperandDims := [0]
  indexVectorDim := 1
  wf := scatter_S280000_S1250000x1_S1250000_n_0_0_1_wf
def dot_S280000x64_S64x64_S280000x64_1_0_0_1_n_n : DotDims S280000x64 S64x64 S280000x64 where
  lhsContracting := [1]
  rhsContracting := [0]
  lhsNonContracting := [0]
  rhsNonContracting := [1]
  lhsBatch := []
  rhsBatch := []
  wf := dot_S280000x64_S64x64_S280000x64_1_0_0_1_n_n_wf
def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def gather_S80000x64_S500000x1_S500000x64_1_0_n_n_0_1_164 : GatherDims S80000x64 S500000x1 S500000x64 where
  offsetDims := [1]
  collapsedSliceDims := [0]
  operandBatchingDims := []
  startIndicesBatchingDims := []
  startIndexMap := [0]
  indexVectorDim := 1
  sliceSizes := ![1, 64]
  wf := gather_S80000x64_S500000x1_S500000x64_1_0_n_n_0_1_164_wf

class Facts : Prop extends Facts₀ where

variable [Facts]
-- ==== Proof.Spec.lean ====
/-
  What the four dense stages of the two-layer neighbourhood-mean network compute, index by index, on the extended reals.

  * the movie encoder: row `p` of the movie features against the transposed weight, plus the bias row, plus the movie
    embedding: `(Σ_k mx[p,k] · wT[k,q]) + b[0,q] + emb[p,q]`;
  * one neighbourhood-mean layer: the aggregated row divided by `max(deg, 1)` against the transposed left weight, plus the
    bias row, plus the node's own row against the transposed right weight:
    `(Σ_k (agg[p,k] / max(deg[p,0], 1)) · wl[k,q]) + bl[0,q] + Σ_k x[p,k] · wr[k,q]`, the first layer followed by `max(·, 0)`
    (the constants 1 and 0 are kept as the float words both programs print, `0x3F800000` and `0x00000000`);
  * the edge score: the inner product of a user row and a movie row, `Σ_k u[e,k] · v[e,k]`.

  Every sum is a finite sum over the contracted axis; addition and multiplication are those of the extended reals, the
  quotient is the ideal quotient `Ideal.div`. No law of arithmetic is used anywhere: both programs compute these very terms.
-/
import Idealize.ShloMosaic.PureOps.Ideal
import Idealize.ShloMosaic.Lib.ValueIdx

noncomputable section

namespace Cert.Sage

open Idealize.ShloMosaic Idealize.ShloMosaic.ValueIdx

/-- A rank-2 array of extended reals with literal extents. -/
abbrev Mat (a b : Nat) : Type := (⟨2, ![a, b]⟩ : Shape).Idx → EReal

/-- The movie encoder at row `p`, column `q`. -/
def encodeAt (mx : Mat 80000 20) (wT : Mat 20 64) (b : Mat 1 64) (emb : Mat 80000 64) (p : Fin 80000) (q : Fin 64) : EReal :=
  ((∑ k : Fin 20, mx (ix2 p k) * wT (ix2 k q)) + b (ix2 (0 : Fin 1) q)) + emb (ix2 p q)

/-- The movie encoder as one array. -/
def encodeRows (mx : Mat 80000 20) (wT : Mat 20 64) (b : Mat 1 64) (emb : Mat 80000 64) : Mat 80000 64 :=
  fun i => encodeAt mx wT b emb ⟨(i 0).val, (i 0).isLt⟩ ⟨(i 1).val, (i 1).isLt⟩

theorem encodeRows_apply (mx : Mat 80000 20) (wT : Mat 20 64) (b : Mat 1 64) (emb : Mat 80000 64) (p : Fin 80000) (q : Fin 64) :
    encodeRows mx wT b emb (ix2 p q) = encodeAt mx wT b emb p q := rfl

/-- One neighbourhood-mean layer, before any activation, at row `p`, column `q`. -/
def combineAt (agg : Mat 280000 64) (deg : Mat 280000 1) (x : Mat 280000 64) (wl : Mat 64 64) (bl : Mat 1 64) (wr : Mat 64 64)
    (p : Fin 280000) (q : Fin 64) : EReal :=
  ((∑ k : Fin 64, Ideal.div (agg (ix2 p k)) (max (deg (ix2 p (0 : Fin 1))) (Ideal.ofBits .f32 0x3F800000#32)) * wl (ix2 k q)) + bl (ix2 (0 : Fin 1) q))
    + ∑ k : Fin 64, x (ix2 p k) * wr (ix2 k q)

/-- The second layer as one array: no activation. -/
def combine (agg : Mat 280000 64) (deg : Mat 280000 1) (x : Mat 280000 64) (wl : Mat 64 64) (bl : Mat 1 64) (wr : Mat 64 64) :
    Mat 280000 64 :=
  fun i => combineAt agg deg x wl bl wr ⟨(i 0).val, (i 0).isLt⟩ ⟨(i 1).val, (i 1).isLt⟩

theorem combine_apply (agg : Mat 280000 64) (deg : Mat 280000 1) (x : Mat 280000 64) (wl : Mat 64 64) (bl : Mat 1 64) (wr : Mat 64 64)
    (p : Fin 280000) (q : Fin 64) : combine agg deg x wl bl wr (ix2 p q) = combineAt agg deg x wl bl wr p q := rfl

/-- The first layer as one array: the layer followed by `max(·, 0)`. -/
def combineRelu (agg : Mat 280000 64) (deg : Mat 280000 1) (x : Mat 280000 64) (wl : Mat 64 64) (bl : Mat 1 64) (wr : Mat 64 64) :
    Mat 280000 64 :=
  fun i => max (combineAt agg deg x wl bl wr ⟨(i 0).val, (i 0).isLt⟩ ⟨(i 1).val, (i 1).isLt⟩) (Ideal.ofBits .f32 0x00000000#32)

theorem combineRelu_apply (agg : Mat 280000 64) (deg : Mat 280000 1) (x : Mat 280000 64) (wl : Mat 64 64) (bl : Mat 1 64) (wr : Mat 64 64)
    (p : Fin 280000) (q : Fin 64) : combineRelu agg deg x wl bl wr (ix2 p q) = max (combineAt agg deg x wl bl wr p q) (Ideal.ofBits .f32 0x00000000#32) := rfl

/-- The edge score at edge `e`: the inner product of the two gathered rows. -/
def scoreAt (u v : Mat 500000 64) (e : Fin 500000) : EReal := ∑ k : Fin 64, u (ix2 e k) * v (ix2 e k)

/-- The edge scores as a one-column array. -/
def scoreCol (u v : Mat 500000 64) : Mat 500000 1 := fun i => scoreAt u v ⟨(i 0).val, (i 0).isLt⟩

theorem scoreCol_apply (u v : Mat 500000 64) (e : Fin 500000) : scoreCol u v (ix2 e (0 : Fin 1)) = scoreAt u v e := rfl

end Cert.Sage

end
-- ==== Proof.KVal.lean ====
/-
  The values the kernel's program computes, as functions of its thirteen argument arrays, at the extended reals:
  its host operations as printed, each dense stage as the array of Spec.lean. Nothing is proved here: these are the
  names the reading of the run and the comparison with the reference meet at.

  The nodes are the users' embedding rows followed by the encoded movie rows. A layer looks up the source node's row for
  every edge, adds the rows up per destination node, and combines the sum, the in-degree and the node's own row. The
  scores are the inner products of the looked-up user and movie rows of the last layer, one per label edge.
-/
import proofs.«415384_j6571299963070_2_alg».proof.Proof.Gen.KernelIdeal
import proofs.«415384_j6571299963070_2_alg».proof.Proof.Spec

noncomputable section

namespace Cert.Sage.KVal

open Idealize.ShloMosaic Cert.KernelIdeal Cert.KernelIdeal.Gen Cert.Sage

/-- The edges' source words: row 0 of the edge table. -/
def src (a11 : IVec S2x1250000 32) : IVec S1250000 32 :=
  shapeCast S1250000 (extractStridedSlice S1x1250000 ![0, 0] a11 slices_S2x1250000_S1x1250000_0_0) shapeCasts_S1x1250000_S1250000

/-- The edges' destination words: row 1 of the edge table. -/
def dst (a11 : IVec S2x1250000 32) : IVec S1250000 32 :=
  shapeCast S1250000 (extractStridedSlice S1x1250000 ![1, 0] a11 slices_S2x1250000_S1x1250000_1_0) shapeCasts_S1x1250000_S1250000

/-- The label edges' user words and movie words: rows 0 and 1 of the label table. -/
def lab0 (a12 : IVec S2x500000 32) : IVec S500000 32 :=
  shapeCast S500000 (extractStridedSlice S1x500000 ![0, 0] a12 slices_S2x500000_S1x500000_0_0) shapeCasts_S1x500000_S500000
def lab1 (a12 : IVec S2x500000 32) : IVec S500000 32 :=
  shapeCast S500000 (extractStridedSlice S1x500000 ![1, 0] a12 slices_S2x500000_S1x500000_1_0) shapeCasts_S1x500000_S500000

/-- The in-degree of every node: ones added up per destination word, from zero. -/
def degree (a11 : IVec S2x1250000 32) : FVec Ideal S280000 .f32 :=
  Host.scatterAdd scatter_S280000_S1250000x1_S1250000_n_0_0_1
    (broadcastInDim S280000 ![] bcast_S_S280000 (constant (F := Ideal) S_ .f32 0x00000000#32))
    (broadcastInDim S1250000x1 ![0] bcast_S1250000_S1250000x1_0 (dst a11))
    (broadcastInDim S1250000 ![] bcast_S_S1250000 (constant (F := Ideal) S_ .f32 0x3F800000#32))

/-- The in-degrees as a one-column array. -/
def degCol (a11 : IVec S2x1250000 32) : FVec Ideal S280000x1 .f32 :=
  shapeCast S280000x1 (degree a11) shapeCasts_S280000_S280000x1

/-- Rows added up per destination word, from zero. -/
def aggregate (msg : FVec Ideal S1250000x64 .f32) (a11 : IVec S2x1250000 32) : FVec Ideal S280000x64 .f32 :=
  Host.scatterAdd scatter_S280000x64_S1250000x1_S1250000x64_1_0_0_1
    (broadcastInDim S280000x64 ![] bcast_S_S280000x64 (constant (F := Ideal) S_ .f32 0x00000000#32))
    (broadcastInDim S1250000x1 ![0] bcast_S1250000_S1250000x1_0 (dst a11)) msg

/-- A source word as a start index of a 280000-row table: a negative word has 280000 added. -/
def wrap280000 (s : IVec S1250000 32) : IVec S1250000x1 32 :=
  broadcastInDim S1250000x1 ![0] bcast_S1250000_S1250000x1_0
    (select (cmpi .slt s (broadcastInDim S1250000 ![] bcast_S_S1250000 (constantI S_ 32 0#32)))
      (addi s (broadcastInDim S1250000 ![] bcast_S_S1250000 (constantI S_ 32 280000#32))) s)

/-- Rows of a 280000-row table looked up at the words `s` as the kernel's program does it: the looked-up rows where the
    wrapped word lies in `[0, 279999]`, the fill word `0x7FC00000` elsewhere. -/
def takeNodes (x : FVec Ideal S280000x64 .f32) (s : IVec S1250000 32) : FVec Ideal S1250000x64 .f32 :=
  select
    (broadcastInDim S1250000x64 ![0] bcast_S1250000_S1250000x64_0
      (Host.reduce IntOp.andi
        (andi (cmpi .sge (wrap280000 s) (broadcastInDim S1250000x1 ![] bcast_S_S1250000x1 (constantI S_ 32 0#32)))
          (cmpi .sle (wrap280000 s) (broadcastInDim S1250000x1 ![0, 1] bcast_S1x1_S1250000x1_0_1 (broadcastInDim S1x1 ![1] bcast_S1_S1x1_1 (constantI S1 32 279999#32)))))
        (constantI S_ 1 1#1) reducesTo_S1250000x1_S1250000_d1 h_S_))
    (Host.gather gather_S280000x64_S1250000x1_S1250000x64_1_0_n_n_0_1_164 x (wrap280000 s))
    (broadcastInDim S1250000x64 ![] bcast_S_S1250000x64 (constant (F := Ideal) S_ .f32 0x7FC00000#32))

/-- A user word as a start index of the 200000 user rows: a negative word has 200000 added. -/
def wrap200000 (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 200000#32))) s)

/-- Rows of a 200000-row table looked up at the words `s` as the kernel's program does it: the looked-up rows where the
    wrapped word lies in `[0, 199999]`, the fill word `0x7FC00000` elsewhere. -/
def takeUsers (x : FVec Ideal S200000x64 .f32) (s : IVec S500000 32) : FVec Ideal S500000x64 .f32 :=
  select
    (broadcastInDim S500000x64 ![0] bcast_S500000_S500000x64_0
      (Host.reduce IntOp.andi
        (andi (cmpi .sge (wrap200000 s) (broadcastInDim S500000x1 ![] bcast_S_S500000x1 (constantI S_ 32 0#32)))
          (cmpi .sle (wrap200000 s) (broadcastInDim S500000x1 ![0, 1] bcast_S1x1_S500000x1_0_1 (broadcastInDim S1x1 ![1] bcast_S1_S1x1_1 (constantI S1 32 199999#32)))))
        (constantI S_ 1 1#1) reducesTo_S500000x1_S500000_d1 h_S_))
    (Host.gather gather_S200000x64_S500000x1_S500000x64_1_0_n_n_0_1_164 x (wrap200000 s))
    (broadcastInDim S500000x64 ![] bcast_S_S500000x64 (constant (F := Ideal) S_ .f32 0x7FC00000#32))

/-- A movie word as a start index of the 80000 movie rows: a negative word has 80000 added. -/
def wrap80000 (s : IVec S500000 32) : IVec S500000x1 32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 80000#32))) s)

/-- Rows of a 80000-row table looked up at the words `s` as the kernel's program does it: the looked-up rows where the
    wrapped word lies in `[0, 79999]`, the fill word `0x7FC00000` elsewhere. -/
def takeMovies (x : FVec Ideal S80000x64 .f32) (s : IVec S500000 32) : FVec Ideal S500000x64 .f32 :=
  select
    (broadcastInDim S500000x64 ![0] bcast_S500000_S500000x64_0
      (Host.reduce IntOp.andi
        (andi (cmpi .sge (wrap80000 s) (broadcastInDim S500000x1 ![] bcast_S_S500000x1 (constantI S_ 32 0#32)))
          (cmpi .sle (wrap80000 s) (broadcastInDim S500000x1 ![0, 1] bcast_S1x1_S500000x1_0_1 (broadcastInDim S1x1 ![1] bcast_S1_S1x1_1 (constantI S1 32 79999#32)))))
        (constantI S_ 1 1#1) reducesTo_S500000x1_S500000_d1 h_S_))
    (Host.gather gather_S80000x64_S500000x1_S500000x64_1_0_n_n_0_1_164 x (wrap80000 s))
    (broadcastInDim S500000x64 ![] bcast_S_S500000x64 (constant (F := Ideal) S_ .f32 0x7FC00000#32))

section Values

variable (a0 : FVec Ideal S80000x20 .f32) (a1 : FVec Ideal S200000x64 .f32) (a2 : FVec Ideal S80000x64 .f32) (a3 : FVec Ideal S64x20 .f32)
  (a4 : FVec Ideal S64 .f32) (a5 : FVec Ideal S64x64 .f32) (a6 : FVec Ideal S64 .f32) (a7 : FVec Ideal S64x64 .f32) (a8 : FVec Ideal S64x64 .f32)
  (a9 : FVec Ideal S64 .f32) (a10 : FVec Ideal S64x64 .f32) (a11 : IVec S2x1250000 32) (a12 : IVec S2x500000 32)

/-- The encoded movie rows. -/
def movie : FVec Ideal S80000x64 .f32 :=
  encodeRows a0 (transpose S20x64 [1, 0] a3 transposes_S64x20_S20x64_1_0) (shapeCast S1x64 a4 shapeCasts_S64_S1x64) a2

/-- The nodes' rows before the first layer: the users' embedding rows, then the encoded movie rows. -/
def nodes0 : FVec Ideal S280000x64 .f32 :=
  concatenate S280000x64 0 [⟨S200000x64, a1⟩, ⟨S80000x64, movie a0 a2 a3 a4⟩] concatenates_S200000x64_S80000x64_S280000x64_d0

/-- The nodes' rows after the first layer. -/
def nodes1 : FVec Ideal S280000x64 .f32 :=
  combineRelu (aggregate (takeNodes (nodes0 a0 a1 a2 a3 a4) (src a11)) a11) (degCol a11) (nodes0 a0 a1 a2 a3 a4)
    (transpose S64x64 [1, 0] a5 transposes_S64x64_S64x64_1_0) (shapeCast S1x64 a6 shapeCasts_S64_S1x64)
    (transpose S64x64 [1, 0] a7 transposes_S64x64_S64x64_1_0)

/-- The nodes' rows after the second layer. -/
def nodes2 : FVec Ideal S280000x64 .f32 :=
  combine (aggregate (takeNodes (nodes1 a0 a1 a2 a3 a4 a5 a6 a7 a11) (src a11)) a11) (degCol a11) (nodes1 a0 a1 a2 a3 a4 a5 a6 a7 a11)
    (transpose S64x64 [1, 0] a8 transposes_S64x64_S64x64_1_0) (shapeCast S1x64 a9 shapeCasts_S64_S1x64)
    (transpose S64x64 [1, 0] a10 transposes_S64x64_S64x64_1_0)

/-- The user rows and the movie rows of the last layer. -/
def users : FVec Ideal S200000x64 .f32 :=
  extractStridedSlice S200000x64 ![0, 0] (nodes2 a0 a1 a2 a3 a4 a5 a6 a7 a8 a9 a10 a11) slices_S280000x64_S200000x64_0_0
def movies : FVec Ideal S80000x64 .f32 :=
  extractStridedSlice S80000x64 ![200000, 0] (nodes2 a0 a1 a2 a3 a4 a5 a6 a7 a8 a9 a10 a11) slices_S280000x64_S80000x64_200000_0

/-- The scores, one per label edge: what the kernel's program returns. -/
def out : FVec Ideal S500000 .f32 :=
  shapeCast S500000
    (scoreCol (takeUsers (users a0 a1 a2 a3 a4 a5 a6 a7 a8 a9 a10 a11) (lab0 a12)) (takeMovies (movies a0 a1 a2 a3 a4 a5 a6 a7 a8 a9 a10 a11) (lab1 a12)))
    shapeCasts_S500000x1_S500000

end Values

end Cert.Sage.KVal

end
-- ==== Proof.Encode.lean ====
/- The movie encoder's launch: what one block's body stores, and the array the ten blocks leave. -/
import proofs.«415384_j6571299963070_2_alg».proof.Proof.Gen.KernelIdeal.Frame
import proofs.«415384_j6571299963070_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.Encode

open Idealize.ShloMosaic Idealize.ShloMosaic.TcCoe Idealize.ShloMosaic.ValueIdx Idealize.SL.Sem
open Cert.KernelIdeal Cert.KernelIdeal.Gen Cert.Sage

variable (V : (c : Dev nD) → (b : Ref sig .tc) → Buf (Elt Ideal) ((c : Thread nD τ).loc b))

/-- Row axis of the left operand of the block product: the output's row. -/
theorem lhs_axis0 (i : S8000x64.Idx) (q : dot_S8000x20_S20x64_S8000x64_1_0_0_1_n_n.contr.Idx) :
    (dot_S8000x20_S20x64_S8000x64_1_0_0_1_n_n.lhsIdx i q 0).val = (i 0).val := by
  unfold DotDims.lhsIdx
  rw [dif_neg (show ¬(0 : Fin S8000x20.rank) ∈ dot_S8000x20_S20x64_S8000x64_1_0_0_1_n_n.lhsBatch by decide), dif_pos (show (0 : Fin S8000x20.rank) ∈ dot_S8000x20_S20x64_S8000x64_1_0_0_1_n_n.lhsNonContracting by decide)]
  rfl
/-- Column axis of the left operand: the contracted coordinate. -/
theorem lhs_axis1 (i : S8000x64.Idx) (q : dot_S8000x20_S20x64_S8000x64_1_0_0_1_n_n.contr.Idx) :
    (dot_S8000x20_S20x64_S8000x64_1_0_0_1_n_n.lhsIdx i q 1).val = (q ⟨0, by decide⟩).val :=
  dot_S8000x20_S20x64_S8000x64_1_0_0_1_n_n.lhsIdx_val_of_single rfl i q
/-- Row axis of the right operand: the contracted coordinate. -/
theorem rhs_axis0 (i : S8000x64.Idx) (q : dot_S8000x20_S20x64_S8000x64_1_0_0_1_n_n.contr.Idx) :
    (dot_S8000x20_S20x64_S8000x64_1_0_0_1_n_n.rhsIdx i q 0).val = (q ⟨0, by decide⟩).val :=
  dot_S8000x20_S20x64_S8000x64_1_0_0_1_n_n.rhsIdx_val_of_single rfl i q
/-- Column axis of the right operand: the output's column. -/
theorem rhs_axis1 (i : S8000x64.Idx) (q : dot_S8000x20_S20x64_S8000x64_1_0_0_1_n_n.contr.Idx) :
    (dot_S8000x20_S20x64_S8000x64_1_0_0_1_n_n.rhsIdx i q 1).val = (i 1).val := by
  unfold DotDims.rhsIdx
  rw [dif_neg (show ¬(1 : Fin S20x64.rank) ∈ dot_S8000x20_S20x64_S8000x64_1_0_0_1_n_n.rhsBatch by decide), dif_pos (show (1 : Fin S20x64.rank) ∈ dot_S8000x20_S20x64_S8000x64_1_0_0_1_n_n.rhsNonContracting by decide)]
  rfl

/-- The block product into a zero accumulator, at row `p`, column `q`: the sum over the twenty contracted positions. -/
theorem product_apply (a : FVec Ideal S8000x20 .bf16) (b : FVec Ideal S20x64 .bf16) (p : Fin 8000) (q : Fin 64) :
    matmul dot_S8000x20_S20x64_S8000x64_1_0_0_1_n_n none a b (constant (F := Ideal) S8000x64 .f32 0x00000000#32) (ix2 p q)
      = ∑ k : Fin 20, a (ix2 p k) * b (ix2 k q) := by
  simp only [matmul]
  rw [Ideal.matmul_constant_zero_apply, ← Equiv.sum_comp (contrEquiv1 dot_S8000x20_S20x64_S8000x64_1_0_0_1_n_n 20 rfl rfl).symm]
  refine Finset.sum_congr rfl fun k _ => ?_
  have hk := contrEquiv1_symm_val dot_S8000x20_S20x64_S8000x64_1_0_0_1_n_n 20 rfl rfl k
  have el : dot_S8000x20_S20x64_S8000x64_1_0_0_1_n_n.lhsIdx (ix2 p q) ((contrEquiv1 dot_S8000x20_S20x64_S8000x64_1_0_0_1_n_n 20 rfl rfl).symm k) = ix2 p k := funext fun a => Fin.ext (by
    match a with
    | ⟨0, _⟩ => exact lhs_axis0 _ _
    | ⟨1, _⟩ => exact (lhs_axis1 _ _).trans hk)
  have er : dot_S8000x20_S20x64_S8000x64_1_0_0_1_n_n.rhsIdx (ix2 p q) ((contrEquiv1 dot_S8000x20_S20x64_S8000x64_1_0_0_1_n_n 20 rfl rfl).symm k) = ix2 k q := funext fun a => Fin.ext (by
    match a with
    | ⟨0, _⟩ => exact (rhs_axis0 _ _).trans hk
    | ⟨1, _⟩ => exact rhs_axis1 _ _)
  rw [el, er]

/-- The bias row spread over the block's rows, at row `p`, column `q`: the row's entry in column `q`. -/
theorem bias_apply (x2 : Vec Ideal S1x64 .f32) (p : Fin 8000) (q : Fin 64) :
    broadcastTo S8000x64 (shapeCast S1x64 x2 shapeCasts_S1x64_S1x64) broadcasts_S1x64_S8000x64 (ix2 p q) = x2 (ix2 (0 : Fin 1) q) := by
  rw [shapeCast_self]
  refine broadcastTo_apply x2 broadcasts_S1x64_S8000x64 (ix2 p q) (ix2 (0 : Fin 1) q) fun a => ?_
  match a with
  | ⟨0, _⟩ => rfl
  | ⟨1, _⟩ => rfl

/-- The body's stored value at row `p`, column `q` of a block: the block's feature row against the weight, plus the bias
    row, plus the embedding entry. -/
theorem payload_apply (x0 : Vec Ideal S8000x20 .f32) (x1 : Vec Ideal S20x64 .f32) (x2 : Vec Ideal S1x64 .f32) (x3 : Vec Ideal S8000x64 .f32)
    (p : Fin 8000) (q : Fin 64) :
    k0_pay1 (F := Ideal) x0 x1 x2 x3 (ix2 p q)
      = ((∑ k : Fin 20, x0 (ix2 p k) * x1 (ix2 k q)) + x2 (ix2 (0 : Fin 1) q)) + x3 (ix2 p q) := by
  unfold k0_pay1
  rw [addf_apply, addf_apply, product_apply, bias_apply]
  simp only [truncf_apply, shapeCast_self]

/-- The all-zero offset of a whole-block access. -/
theorem zero_offsets : (![0, 0] : Fin 2 → Nat) = fun _ => 0 := funext fun a => by fin_cases a <;> rfl

/-- Where each window's block sits at grid point `t`: the features, the embedding and the output move down one block
    of rows per point; the weight and the bias row stay at the first block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One entry of a block's result is the encoder's entry of the whole arrays, once each loaded block is known to be
    the rows `n·8000 …` of its array (the weight and the bias row: the whole array). -/
theorem block_entry (mx : Mat 80000 20) (wT : Mat 20 64) (b : Mat 1 64) (emb : Mat 80000 64)
    (x0 : Vec Ideal S8000x20 .f32) (x1 : Vec Ideal S20x64 .f32) (x2 : Vec Ideal S1x64 .f32) (x3 : Vec Ideal S8000x64 .f32)
    (n : Nat)
    (h0 : ∀ (y : S8000x20.Idx) (i : S80000x20.Idx), (i 0).val = n * 8000 + (y 0).val → (i 1).val = (y 1).val → x0 y = mx i)
    (h1 : ∀ y : S20x64.Idx, x1 y = wT y)
    (h2 : ∀ y : S1x64.Idx, x2 y = b y)
    (h3 : ∀ (y : S8000x64.Idx) (i : S80000x64.Idx), (i 0).val = n * 8000 + (y 0).val → (i 1).val = (y 1).val → x3 y = emb i)
    (y : S8000x64.Idx) (i : S80000x64.Idx) (hi0 : (i 0).val = n * 8000 + (y 0).val) (hi1 : (i 1).val = (y 1).val) :
    k0_pay1 (F := Ideal) x0 x1 x2 x3 y = encodeRows mx wT b emb i := by
  obtain ⟨p, q, rfl⟩ : ∃ (p : Fin 8000) (q : Fin 64), y = ix2 p q := ⟨y 0, y 1, eq_ix2 y⟩
  obtain ⟨r, s, rfl⟩ : ∃ (r : Fin 80000) (s : Fin 64), i = ix2 r s := ⟨i 0, i 1, eq_ix2 i⟩
  have hs : s = q := Fin.ext hi1
  subst hs
  rw [payload_apply, encodeRows_apply]
  unfold encodeAt
  congr 1
  · congr 1
    · refine Finset.sum_congr rfl fun k _ => ?_
      rw [h0 (ix2 p k) (ix2 r k) hi0 rfl, h1]
    · exact h2 _
  · exact h3 _ _ hi0 rfl

/-- The feature block at point `t` is rows `8000·t …` of the feature array. -/
theorem features_block (c : Dev nD) (t : Fin cfg0.N) (y : S8000x20.Idx) (i : S80000x20.Idx)
    (hi0 : (i 0).val = t.val * 8000 + (y 0).val) (hi1 : (i 1).val = (y 1).val) :
    (iblk0 V c 0 t : Vec Ideal S8000x20 .f32) y = V c main_arg0 i := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 8000 + 1 * (y 0).val = (i 0).val; omega
  | ⟨1, _⟩ => show win0_0.index t (1 : Fin 2) * 20 + 1 * (y 1).val = (i 1).val; omega

/-- The weight block at every point is the whole weight array. -/
theorem weight_block (c : Dev nD) (t : Fin cfg0.N) (y : S20x64.Idx) :
    (iblk0 V c 1 t : Vec Ideal S20x64 .f32) y = V c main_v0 y := by
  obtain ⟨-, -, e2, e3, -⟩ := block_index t
  unfold iblk0
  rw [View.read_apply]
  show V c main_v0 _ = V c main_v0 _
  congr 1
  funext a
  apply Fin.ext
  match a with
  | ⟨0, _⟩ => show win0_1.index t (0 : Fin 2) * 20 + 1 * (y 0).val = (y 0).val; omega
  | ⟨1, _⟩ => show win0_1.index t (1 : Fin 2) * 64 + 1 * (y 1).val = (y 1).val; omega

/-- The bias block at every point is the whole bias row. -/
theorem bias_block (c : Dev nD) (t : Fin cfg0.N) (y : S1x64.Idx) :
    (iblk0 V c 2 t : Vec Ideal S1x64 .f32) y = V c main_v1 y := by
  obtain ⟨-, -, -, -, e4, e5, -⟩ := block_index t
  unfold iblk0
  rw [View.read_apply]
  show V c main_v1 _ = V c main_v1 _
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The embedding block at point `t` is rows `8000·t …` of the embedding array. -/
theorem embedding_block (c : Dev nD) (t : Fin cfg0.N) (y : S8000x64.Idx) (i : S80000x64.Idx)
    (hi0 : (i 0).val = t.val * 8000 + (y 0).val) (hi1 : (i 1).val = (y 1).val) :
    (iblk0 V c 3 t : Vec Ideal S8000x64 .f32) y = V c main_arg2 i := by
  obtain ⟨-, -, -, -, -, -, e6, e7, -⟩ := block_index t
  unfold iblk0
  rw [View.read_apply]
  show V c main_arg2 _ = V c main_arg2 _
  congr 1
  funext a
  apply Fin.ext
  match a with
  | ⟨0, _⟩ => show win0_3.index t (0 : Fin 2) * 8000 + 1 * (y 0).val = (i 0).val; omega
  | ⟨1, _⟩ => show win0_3.index t (1 : Fin 2) * 64 + 1 * (y 1).val = (i 1).val; omega

/-- What point `t` writes back is block `t` of the encoder of the four arrays as the launch finds them. -/
theorem written_block (c : Dev nD) (t : Fin cfg0.N) :
    (dat0 (F := Ideal) V c).flushed 4 t
      = ((cfg0.win 4).blk t).view.read (Elt Ideal) (encodeRows (V c main_arg0) (V c main_v0) (V c main_v1) (V c main_arg2)) := by
  show (cfg0.win 4).cut (grid0.coords t) ((dat0 (F := Ideal) V c).after 4 t) = _
  rw [after0_4]
  unfold out0_4
  rw [View.canon_unit_zero zero_offsets]
  simp only [View.ld_unit_zero (S := S8000x20) zero_offsets, View.ld_unit_zero (S := S20x64) zero_offsets,
    View.ld_unit_zero (S := S1x64) zero_offsets, View.ld_unit_zero (S := S8000x64) zero_offsets]
  obtain ⟨-, -, -, -, -, -, -, -, e8, e9⟩ := block_index t
  funext j
  rw [View.read_apply]
  refine block_entry (V c main_arg0) (V c main_v0) (V c main_v1) (V c main_arg2)
    (iblk0 V c 0 t) (iblk0 V c 1 t) (iblk0 V c 2 t) (iblk0 V c 3 t) t.val
    (fun y i h0 h1 => features_block V c t y i h0 h1) (fun y => weight_block V c t y) (fun y => bias_block V c t y)
    (fun y i h0 h1 => embedding_block V c t y i h0 h1) j (((cfg0.win 4).blk t).view.emb j) ?_ ?_
  · show win0_4.index t (0 : Fin 2) * 8000 + 1 * (j 0).val = t.val * 8000 + (j 0).val; omega
  · show win0_4.index t (1 : Fin 2) * 64 + 1 * (j 1).val = (j 1).val; omega

/-- An index of the output array is in point `t`'s block iff each coordinate is in the block's range on its axis. -/
theorem mem_block (t : Fin cfg0.N) (i : S80000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v2).slice (win0_4.rect t)).set ↔ _
  rw [View.set_slice_whole, Rect.mem_set_unit]
  exact Iff.rfl

/-- Every row of the output lies in one of the ten blocks: row `r` in block `r / 8000`. -/
theorem covered (i : S80000x64.Idx) :
    ∃ t : Fin cfg0.N, (cfg0.win 4).flush t = true ∧ i ∈ ((cfg0.win 4).blk t).view.set := by
  have hi0 : (i 0).val < 80000 := idx2_lt0 i
  have hi1 : (i 1).val < 64 := idx2_lt1 i
  have hlt : (i 0).val / 8000 < 10 := by omega
  obtain ⟨t, ht⟩ : ∃ t : Fin cfg0.N, t.val = (i 0).val / 8000 := ⟨⟨(i 0).val / 8000, lt_of_lt_of_eq hlt N_0.symm⟩, rfl⟩
  refine ⟨t, flush0_4 t, ?_⟩
  rw [mem_block]
  obtain ⟨-, -, -, -, -, -, -, -, e8, e9⟩ := block_index t
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 64 ≤ (i 1).val ∧ (i 1).val < win0_4.index t (1 : Fin 2) * 64 + 64; omega

/-- The output array after the launch is the encoder of the four input arrays as the launch finds them. -/
theorem final (c : Dev nD) :
    (dat0 (F := Ideal) V c).arrAt 4 cfg0.N
      = encodeRows (V c main_arg0) (V c main_v0) (V c main_v1) (V c main_arg2) :=
  (dat0 (F := Ideal) V c).arrAt_eq_of_cover 4 (encodeRows (V c main_arg0) (V c main_v0) (V c main_v1) (V c main_arg2))
    (fun t _ => written_block V c t) covered

end Cert.Sage.Encode

end
-- ==== Proof.Layer1.lean ====
/- The first layer's launch: what one block's body stores, and the array the thirty-five blocks leave. -/
import proofs.«415384_j6571299963070_2_alg».proof.Proof.Gen.KernelIdeal.Frame
import proofs.«415384_j6571299963070_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.Layer1

open Idealize.ShloMosaic Idealize.ShloMosaic.TcCoe Idealize.ShloMosaic.ValueIdx Idealize.SL.Sem
open Cert.KernelIdeal Cert.KernelIdeal.Gen Cert.Sage

variable (V : (c : Dev nD) → (b : Ref sig .tc) → Buf (Elt Ideal) ((c : Thread nD τ).loc b))

/-! ## One block's body, entry by entry -/

/-- A column of height `a` spread over `b` lanes reads, at row `p` and any lane, the column's entry of row `p`. -/
theorem column_spread_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The rows-by-features times features-by-features product: on the left operand the output's row and the
    contracted coordinate, -/
theorem prod_left_row (i : S8000x64.Idx) (k : dot_S8000x64_S64x64_S8000x64_1_0_0_1_n_n.contr.Idx) :
    (dot_S8000x64_S64x64_S8000x64_1_0_0_1_n_n.lhsIdx i k 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem prod_left_col (i : S8000x64.Idx) (k : dot_S8000x64_S64x64_S8000x64_1_0_0_1_n_n.contr.Idx) :
    (dot_S8000x64_S64x64_S8000x64_1_0_0_1_n_n.lhsIdx i k 1).val = (k ⟨0, by decide⟩).val :=
  dot_S8000x64_S64x64_S8000x64_1_0_0_1_n_n.lhsIdx_val_of_single rfl i k
/-- on the right operand the contracted coordinate and the output's column. -/
theorem prod_right_row (i : S8000x64.Idx) (k : dot_S8000x64_S64x64_S8000x64_1_0_0_1_n_n.contr.Idx) :
    (dot_S8000x64_S64x64_S8000x64_1_0_0_1_n_n.rhsIdx i k 0).val = (k ⟨0, by decide⟩).val :=
  dot_S8000x64_S64x64_S8000x64_1_0_0_1_n_n.rhsIdx_val_of_single rfl i k
theorem prod_right_col (i : S8000x64.Idx) (k : dot_S8000x64_S64x64_S8000x64_1_0_0_1_n_n.contr.Idx) :
    (dot_S8000x64_S64x64_S8000x64_1_0_0_1_n_n.rhsIdx i k 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of rows against a square weight, accumulated from zero: entry `(p, q)` is `Σ_k l[p,k] · r[k,q]`. -/
theorem rows_times_weight_apply (l : FVec Ideal S8000x64 .bf16) (r : FVec Ideal S64x64 .bf16) (p : Fin 8000) (q : Fin 64) :
    matmul dot_S8000x64_S64x64_S8000x64_1_0_0_1_n_n none l r (constant (F := Ideal) S8000x64 .f32 0x00000000#32) (ix2 p q)
      = ∑ k : Fin 64, l (ix2 p k) * r (ix2 k q) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact prod_left_row _ _
    | ⟨1, _⟩ => exact (prod_left_col _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (prod_right_row _ _).trans hk
    | ⟨1, _⟩ => exact prod_right_col _ _)
  rw [el, er]

/-- The body's stored value at row `p`, column `q` of a block (the loads in the body's order: degree column, aggregated
    rows, own rows, left weight, right weight, bias row). -/
theorem payload_apply (d : Vec Ideal S8000x1 .f32) (a : Vec Ideal S8000x64 .f32) (x : Vec Ideal S8000x64 .f32) (wl : Vec Ideal S64x64 .f32)
    (wr : Vec Ideal S64x64 .f32) (bl : Vec Ideal S1x64 .f32) (p : Fin 8000) (q : Fin 64) :
    k1_pay1 (F := Ideal) d a x wl wr bl (ix2 p q)
      = max (((∑ k : Fin 64, Ideal.div (a (ix2 p k)) (max (d (ix2 p (0 : Fin 1))) (Ideal.ofBits .f32 0x3F800000#32)) * wl (ix2 k q)) + bl (ix2 (0 : Fin 1) q))
          + ∑ k : Fin 64, x (ix2 p k) * wr (ix2 k q)) (Ideal.ofBits .f32 0x00000000#32) := by
  unfold k1_pay1
  simp only [maximumf_apply, addf_apply, broadcast_apply, rows_times_weight_apply, truncf_apply, divf_apply, shapeCast_self,
    column_spread_apply, broadcastTo_1b_ab_apply]
  rfl

/-! ## From the thirty-five blocks to the array -/

theorem zero_offsets : (![0, 0] : Fin 2 → Nat) = fun _ => 0 := funext fun a => by fin_cases a <;> rfl

/-- Where the blocks sit at grid point `t`: the aggregated rows, the degree column, the node's own rows and the output are
    at block row `t`, block column 0; the two weights and the bias row stay at block (0, 0). -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block `t` of the aggregated rows is rows `8000 t … 8000 t + 7999` of the array. -/
theorem agg_block_apply (c : Dev nD) (t : Fin cfg1.N) (y : S8000x64.Idx) (i : S280000x64.Idx)
    (h0 : (i 0).val = 8000 * t.val + (y 0).val) (h1 : (i 1).val = (y 1).val) :
    (iblk1 V c 0 t : Vec Ideal S8000x64 .f32) y = (V c main_v22 : S280000x64.Idx → Elt Ideal .f32) i := by
  obtain ⟨e0, e1, -⟩ := block_positions t
  unfold iblk1
  rw [View.read_apply]
  show V c main_v22 _ = V c main_v22 _
  congr 1
  funext a
  apply Fin.ext
  match a with
  | ⟨0, _⟩ => show win1_0.index t (0 : Fin 2) * 8000 + 1 * (y 0).val = (i 0).val; omega
  | ⟨1, _⟩ => show win1_0.index t (1 : Fin 2) * 64 + 1 * (y 1).val = (i 1).val; omega

/-- Block `t` of the degree column is rows `8000 t … 8000 t + 7999` of the column. -/
theorem deg_block_apply (c : Dev nD) (t : Fin cfg1.N) (y : S8000x1.Idx) (i : S280000x1.Idx)
    (h0 : (i 0).val = 8000 * t.val + (y 0).val) (h1 : (i 1).val = (y 1).val) :
    (iblk1 V c 1 t : Vec Ideal S8000x1 .f32) y = (V c main_v12 : S280000x1.Idx → Elt Ideal .f32) i := by
  obtain ⟨-, -, e0, e1, -⟩ := block_positions t
  unfold iblk1
  rw [View.read_apply]
  show V c main_v12 _ = V c main_v12 _
  congr 1
  funext a
  apply Fin.ext
  match a with
  | ⟨0, _⟩ => show win1_1.index t (0 : Fin 2) * 8000 + 1 * (y 0).val = (i 0).val; omega
  | ⟨1, _⟩ => show win1_1.index t (1 : Fin 2) * 1 + 1 * (y 1).val = (i 1).val; omega

/-- Block `t` of the node's own rows is rows `8000 t … 8000 t + 7999` of the array. -/
theorem own_block_apply (c : Dev nD) (t : Fin cfg1.N) (y : S8000x64.Idx) (i : S280000x64.Idx)
    (h0 : (i 0).val = 8000 * t.val + (y 0).val) (h1 : (i 1).val = (y 1).val) :
    (iblk1 V c 2 t : Vec Ideal S8000x64 .f32) y = (V c main_v3 : S280000x64.Idx → Elt Ideal .f32) i := by
  obtain ⟨-, -, -, -, e0, e1, -⟩ := block_positions t
  unfold iblk1
  rw [View.read_apply]
  show V c main_v3 _ = V c main_v3 _
  congr 1
  funext a
  apply Fin.ext
  match a with
  | ⟨0, _⟩ => show win1_2.index t (0 : Fin 2) * 8000 + 1 * (y 0).val = (i 0).val; omega
  | ⟨1, _⟩ => show win1_2.index t (1 : Fin 2) * 64 + 1 * (y 1).val = (i 1).val; omega

/-- The left weight's one block is the whole weight, at every point. -/
theorem left_weight_block_eq (c : Dev nD) (t : Fin cfg1.N) :
    (iblk1 V c 3 t : Vec Ideal S64x64 .f32) = (V c main_v13 : S64x64.Idx → Elt Ideal .f32) := by
  obtain ⟨-, -, -, -, -, -, e0, e1, -⟩ := block_positions t
  funext y
  unfold iblk1
  rw [View.read_apply]
  show V c main_v13 _ = V c main_v13 _
  congr 1
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The bias row's one block is the whole row, at every point. -/
theorem bias_block_eq (c : Dev nD) (t : Fin cfg1.N) :
    (iblk1 V c 4 t : Vec Ideal S1x64 .f32) = (V c main_v17 : S1x64.Idx → Elt Ideal .f32) := by
  obtain ⟨-, -, -, -, -, -, -, -, e0, e1, -⟩ := block_positions t
  funext y
  unfold iblk1
  rw [View.read_apply]
  show V c main_v17 _ = V c main_v17 _
  congr 1
  funext a
  apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The right weight's one block is the whole weight, at every point. -/
theorem right_weight_block_eq (c : Dev nD) (t : Fin cfg1.N) :
    (iblk1 V c 5 t : Vec Ideal S64x64 .f32) = (V c main_v14 : S64x64.Idx → Elt Ideal .f32) := by
  obtain ⟨-, -, -, -, -, -, -, -, -, -, e0, e1, -⟩ := block_positions t
  funext y
  unfold iblk1
  rw [View.read_apply]
  show V c main_v14 _ = V c main_v14 _
  congr 1
  funext a
  apply Fin.ext
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- The body on blocks that are rows `8000 n …` of three arrays, with the whole weights and bias, stores at a block entry
    the layer's value at the array entry the block entry stands for: the body's term and the layer's are one term. -/
theorem block_value (agg : Mat 280000 64) (deg : Mat 280000 1) (x : Mat 280000 64) (wl : Mat 64 64) (bl : Mat 1 64) (wr : Mat 64 64)
    (d : Vec Ideal S8000x1 .f32) (a : Vec Ideal S8000x64 .f32) (xb : Vec Ideal S8000x64 .f32) (wlb : Vec Ideal S64x64 .f32)
    (wrb : Vec Ideal S64x64 .f32) (blb : Vec Ideal S1x64 .f32) (n : Nat)
    (hd : ∀ (y : S8000x1.Idx) (i : S280000x1.Idx), (i 0).val = 8000 * n + (y 0).val → (i 1).val = (y 1).val → d y = deg i)
    (ha : ∀ (y : S8000x64.Idx) (i : S280000x64.Idx), (i 0).val = 8000 * n + (y 0).val → (i 1).val = (y 1).val → a y = agg i)
    (hx : ∀ (y : S8000x64.Idx) (i : S280000x64.Idx), (i 0).val = 8000 * n + (y 0).val → (i 1).val = (y 1).val → xb y = x i)
    (hwl : wlb = wl) (hwr : wrb = wr) (hbl : blb = bl)
    (j : S8000x64.Idx) (i : S280000x64.Idx) (hi0 : (i 0).val = 8000 * n + (j 0).val) (hi1 : (i 1).val = (j 1).val) :
    k1_pay1 (F := Ideal) d a xb wlb wrb blb j = combineRelu agg deg x wl bl wr i := by
  obtain ⟨p, q, rfl⟩ : ∃ (p : Fin 8000) (q : Fin 64), j = ix2 p q := ⟨j 0, j 1, eq_ix2 j⟩
  obtain ⟨r, s, rfl⟩ : ∃ (r : Fin 280000) (s : Fin 64), i = ix2 r s := ⟨i 0, i 1, eq_ix2 i⟩
  obtain rfl : s = q := Fin.ext hi1
  subst hwl hwr hbl
  have e1 : d (ix2 p (0 : Fin 1)) = deg (ix2 r (0 : Fin 1)) := hd _ _ hi0 rfl
  have e2 : ∀ k : Fin 64, a (ix2 p k) = agg (ix2 r k) := fun k => ha _ _ hi0 rfl
  have e3 : ∀ k : Fin 64, xb (ix2 p k) = x (ix2 r k) := fun k => hx _ _ hi0 rfl
  rw [payload_apply, combineRelu_apply]
  unfold combineAt
  simp only [e1, e2, e3]

/-- What point `t` writes back is block `t` of the layer of the six arrays as the launch finds them. -/
theorem written_back_eq (c : Dev nD) (t : Fin cfg1.N) :
    (dat1 (F := Ideal) V c).flushed 6 t
      = ((cfg1.win 6).blk t).view.read (Elt Ideal)
          (combineRelu (V c main_v22) (V c main_v12) (V c main_v3) (V c main_v13) (V c main_v17) (V c main_v14)) := by
  show (cfg1.win 6).cut (grid1.coords t) ((dat1 V c).after 6 t) = _
  rw [after1_6]
  unfold out1_6
  rw [View.canon_unit_zero zero_offsets]
  simp only [View.ld_unit_zero (S := S8000x64) zero_offsets, View.ld_unit_zero (S := S8000x1) zero_offsets,
    View.ld_unit_zero (S := S64x64) zero_offsets, View.ld_unit_zero (S := S1x64) zero_offsets]
  obtain ⟨-, -, -, -, -, -, -, -, -, -, -, -, e0, e1⟩ := block_positions t
  funext j
  show k1_pay1 (F := Ideal) (iblk1 V c 1 t) (iblk1 V c 0 t) (iblk1 V c 2 t) (iblk1 V c 3 t) (iblk1 V c 5 t) (iblk1 V c 4 t) j
      = combineRelu (V c main_v22) (V c main_v12) (V c main_v3) (V c main_v13) (V c main_v17) (V c main_v14)
          (((cfg1.win 6).blk t).view.emb j)
  exact block_value (V c main_v22) (V c main_v12) (V c main_v3) (V c main_v13) (V c main_v17) (V c main_v14)
    (iblk1 V c 1 t) (iblk1 V c 0 t) (iblk1 V c 2 t) (iblk1 V c 3 t) (iblk1 V c 5 t) (iblk1 V c 4 t) t.val
    (fun y i h0 h1 => deg_block_apply V c t y i h0 h1) (fun y i h0 h1 => agg_block_apply V c t y i h0 h1)
    (fun y i h0 h1 => own_block_apply V c t y i h0 h1)
    (left_weight_block_eq V c t) (right_weight_block_eq V c t) (bias_block_eq V c t)
    j (((cfg1.win 6).blk t).view.emb j)
    (by show win1_6.index t (0 : Fin 2) * 8000 + 1 * (j 0).val = 8000 * t.val + (j 0).val; omega)
    (by show win1_6.index t (1 : Fin 2) * 64 + 1 * (j 1).val = (j 1).val; omega)

/-- An index of the array is in point `t`'s block iff each coordinate is in the block's range on its axis. -/
theorem mem_block (t : Fin cfg1.N) (i : S280000x64.Idx) :
    i ∈ ((cfg1.win 6).blk t).view.set ↔ ∀ a : Fin 2, win1_6.index t a * S8000x64.size a ≤ (i a).val ∧ (i a).val < win1_6.index t a * S8000x64.size a + S8000x64.size a := by
  show i ∈ ((View.whole main_v23).slice (win1_6.rect t)).set ↔ _
  rw [View.set_slice_whole, Rect.mem_set_unit]
  exact Iff.rfl

/-- Row `r` of the output lies in the block of point `r / 8000`, and every point writes its block back. -/
theorem every_row_covered (i : S280000x64.Idx) :
    ∃ t : Fin cfg1.N, (cfg1.win 6).flush t = true ∧ i ∈ ((cfg1.win 6).blk t).view.set := by
  have hi0 : (i 0).val < 280000 := (i 0).isLt
  have hi1 : (i 1).val < 64 := (i 1).isLt
  have hN : cfg1.N = 35 := N_1
  obtain ⟨t, ht⟩ : ∃ t : Fin cfg1.N, t.val = (i 0).val / 8000 := ⟨⟨(i 0).val / 8000, by rw [hN]; omega⟩, rfl⟩
  obtain ⟨-, -, -, -, -, -, -, -, -, -, -, -, e0, e1⟩ := block_positions t
  refine ⟨t, flush1_6 t, ?_⟩
  rw [mem_block]
  intro a
  match a with
  | ⟨0, _⟩ => show win1_6.index t (0 : Fin 2) * 8000 ≤ (i 0).val ∧ (i 0).val < win1_6.index t (0 : Fin 2) * 8000 + 8000; omega
  | ⟨1, _⟩ => show win1_6.index t (1 : Fin 2) * 64 ≤ (i 1).val ∧ (i 1).val < win1_6.index t (1 : Fin 2) * 64 + 64; omega

/-- The output array after the launch is the layer of the six input arrays as the launch finds them. -/
theorem final (c : Dev nD) :
    (dat1 (F := Ideal) V c).arrAt 6 cfg1.N
      = combineRelu (V c main_v22) (V c main_v12) (V c main_v3) (V c main_v13) (V c main_v17) (V c main_v14) :=
  (dat1 (F := Ideal) V c).arrAt_eq_of_cover 6
    (combineRelu (V c main_v22) (V c main_v12) (V c main_v3) (V c main_v13) (V c main_v17) (V c main_v14))
    (fun t _ => written_back_eq V c t) every_row_covered

end Cert.Sage.Layer1

end
-- ==== Proof.Layer2.lean ====
/- The second layer's launch: what one block's body stores, and the array the thirty-five blocks leave. -/
import proofs.«415384_j6571299963070_2_alg».proof.Proof.Gen.KernelIdeal.Frame
import proofs.«415384_j6571299963070_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.Layer2

open Idealize.ShloMosaic Idealize.ShloMosaic.TcCoe Idealize.ShloMosaic.ValueIdx Idealize.SL.Sem
open Cert.KernelIdeal Cert.KernelIdeal.Gen Cert.Sage

variable (V : (c : Dev nD) → (b : Ref sig .tc) → Buf (Elt Ideal) ((c : Thread nD τ).loc b))

/-! ## One block's body, entry by entry -/

/-- A column of height `a` spread over `b` lanes reads, at row `p` and any lane, the column's entry of row `p`. -/
theorem column_spread_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The rows-by-features times features-by-features product: on the left operand the output's row and the
    contracted coordinate, -/
theorem prod_left_row (i : S8000x64.Idx) (k : dot_S8000x64_S64x64_S8000x64_1_0_0_1_n_n.contr.Idx) :
    (dot_S8000x64_S64x64_S8000x64_1_0_0_1_n_n.lhsIdx i k 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem prod_left_col (i : S8000x64.Idx) (k : dot_S8000x64_S64x64_S8000x64_1_0_0_1_n_n.contr.Idx) :
    (dot_S8000x64_S64x64_S8000x64_1_0_0_1_n_n.lhsIdx i k 1).val = (k ⟨0, by decide⟩).val :=
  dot_S8000x64_S64x64_S8000x64_1_0_0_1_n_n.lhsIdx_val_of_single rfl i k
/-- on the right operand the contracted coordinate and the output's column. -/
theorem prod_right_row (i : S8000x64.Idx) (k : dot_S8000x64_S64x64_S8000x64_1_0_0_1_n_n.contr.Idx) :
    (dot_S8000x64_S64x64_S8000x64_1_0_0_1_n_n.rhsIdx i k 0).val = (k ⟨0, by decide⟩).val :=
  dot_S8000x64_S64x64_S8000x64_1_0_0_1_n_n.rhsIdx_val_of_single rfl i k
theorem prod_right_col (i : S8000x64.Idx) (k : dot_S8000x64_S64x64_S8000x64_1_0_0_1_n_n.contr.Idx) :
    (dot_S8000x64_S64x64_S8000x64_1_0_0_1_n_n.rhsIdx i k 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block of rows against a square weight, accumulated from zero: entry `(p, q)` is `Σ_k l[p,k] · r[k,q]`. -/
theorem rows_times_weight_apply (l : FVec Ideal S8000x64 .bf16) (r : FVec Ideal S64x64 .bf16) (p : Fin 8000) (q : Fin 64) :
    matmul dot_S8000x64_S64x64_S8000x64_1_0_0_1_n_n none l r (constant (F := Ideal) S8000x64 .f32 0x00000000#32) (ix2 p q)
      = ∑ k : Fin 64, l (ix2 p k) * r (ix2 k q) := by
  simp only [matmul]
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 p q) ((contrEquiv1 dot_S8000x64_S64x64_S8000x64_1_0_0_1_n_n 64 rfl rfl).symm k) = ix2 p k := funext fun a => Fin.ext (by
    match a with
    | ⟨0, _⟩ => exact prod_left_row _ _
    | ⟨1, _⟩ => exact (prod_left_col _ _).trans hk)
  have er : dot_S8000x64_S64x64_S8000x64_1_0_0_1_n_n.rhsIdx (ix2 p q) ((contrEquiv1 dot_S8000x64_S64x64_S8000x64_1_0_0_1_n_n 64 rfl rfl).symm k) = ix2 k q := funext fun a => Fin.ext (by
    match a with
    | ⟨0, _⟩ => exact (prod_right_row _ _).trans hk
    | ⟨1, _⟩ => exact prod_right_col _ _)
  rw [el, er]

/-- The body's stored value at row `p`, column `q` of a block (the loads in the body's order: degree column, aggregated
    rows, own rows, left weight, right weight, bias row). -/
theorem payload_apply (d : Vec Ideal S8000x1 .f32) (a : Vec Ideal S8000x64 .f32) (x : Vec Ideal S8000x64 .f32) (wl : Vec Ideal S64x64 .f32)
    (wr : Vec Ideal S64x64 .f32) (bl : Vec Ideal S1x64 .f32) (p : Fin 8000) (q : Fin 64) :
    k2_pay1 (F := Ideal) d a x wl wr bl (ix2 p q)
      = ((∑ k : Fin 64, Ideal.div (a (ix2 p k)) (max (d (ix2 p (0 : Fin 1))) (Ideal.ofBits .f32 0x3F800000#32)) * wl (ix2 k q)) + bl (ix2 (0 : Fin 1) q))
          + ∑ k : Fin 64, x (ix2 p k) * wr (ix2 k q) := by
  unfold k2_pay1
  simp only [maximumf_apply, addf_apply, broadcast_apply, rows_times_weight_apply, truncf_apply, divf_apply, shapeCast_self,
    column_spread_apply, broadcastTo_1b_ab_apply]
  rfl

/-! ## From the thirty-five blocks to the array -/

theorem zero_offsets : (![0, 0] : Fin 2 → Nat) = fun _ => 0 := funext fun a => by fin_cases a <;> rfl

/-- Where the blocks sit at grid point `t`: the aggregated rows, the degree column, the node's own rows and the output are
    at block row `t`, block column 0; the two weights and the bias row stay at block (0, 0). -/
theorem block_positions : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Block `t` of the aggregated rows is rows `8000 t … 8000 t + 7999` of the array. -/
theorem agg_block_apply (c : Dev nD) (t : Fin cfg2.N) (y : S8000x64.Idx) (i : S280000x64.Idx)
    (h0 : (i 0).val = 8000 * t.val + (y 0).val) (h1 : (i 1).val = (y 1).val) :
    (iblk2 V c 0 t : Vec Ideal S8000x64 .f32) y = (V c main_v27 : S280000x64.Idx → Elt Ideal .f32) i := by
  obtain ⟨e0, e1, -⟩ := block_positions t
  unfold iblk2
  rw [View.read_apply]
  show V c main_v27 _ = V c main_v27 _
  congr 1
  funext a
  apply Fin.ext
  match a with
  | ⟨0, _⟩ => show win2_0.index t (0 : Fin 2) * 8000 + 1 * (y 0).val = (i 0).val; omega
  | ⟨1, _⟩ => show win2_0.index t (1 : Fin 2) * 64 + 1 * (y 1).val = (i 1).val; omega

/-- Block `t` of the degree column is rows `8000 t … 8000 t + 7999` of the column. -/
theorem deg_block_apply (c : Dev nD) (t : Fin cfg2.N) (y : S8000x1.Idx) (i : S280000x1.Idx)
    (h0 : (i 0).val = 8000 * t.val + (y 0).val) (h1 : (i 1).val = (y 1).val) :
    (iblk2 V c 1 t : Vec Ideal S8000x1 .f32) y = (V c main_v12 : S280000x1.Idx → Elt Ideal .f32) i := by
  obtain ⟨-, -, e0, e1, -⟩ := block_positions t
  unfold iblk2
  rw [View.read_apply]
  show V c main_v12 _ = V c main_v12 _
  congr 1
  funext a
  apply Fin.ext
  match a with
  | ⟨0, _⟩ => show win2_1.index t (0 : Fin 2) * 8000 + 1 * (y 0).val = (i 0).val; omega
  | ⟨1, _⟩ => show win2_1.index t (1 : Fin 2) * 1 + 1 * (y 1).val = (i 1).val; omega

/-- Block `t` of the node's own rows is rows `8000 t … 8000 t + 7999` of the array. -/
theorem own_block_apply (c : Dev nD) (t : Fin cfg2.N) (y : S8000x64.Idx) (i : S280000x64.Idx)
    (h0 : (i 0).val = 8000 * t.val + (y 0).val) (h1 : (i 1).val = (y 1).val) :
    (iblk2 V c 2 t : Vec Ideal S8000x64 .f32) y = (V c main_v23 : S280000x64.Idx → Elt Ideal .f32) i := by
  obtain ⟨-, -, -, -, e0, e1, -⟩ := block_positions t
  unfold iblk2
  rw [View.read_apply]
  show V c main_v23 _ = V c main_v23 _
  congr 1
  funext a
  apply Fin.ext
  match a with
  | ⟨0, _⟩ => show win2_2.index t (0 : Fin 2) * 8000 + 1 * (y 0).val = (i 0).val; omega
  | ⟨1, _⟩ => show win2_2.index t (1 : Fin 2) * 64 + 1 * (y 1).val = (i 1).val; omega

/-- The left weight's one block is the whole weight, at every point. -/
theorem left_weight_block_eq (c : Dev nD) (t : Fin cfg2.N) :
    (iblk2 V c 3 t : Vec Ideal S64x64 .f32) = (V c main_v15 : S64x64.Idx → Elt Ideal .f32) := by
  obtain ⟨-, -, -, -, -, -, e0, e1, -⟩ := block_positions t
  funext y
  unfold iblk2
  rw [View.read_apply]
  show V c main_v15 _ = V c main_v15 _
  congr 1
  funext a
  apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- The bias row's one block is the whole row, at every point. -/
theorem bias_block_eq (c : Dev nD) (t : Fin cfg2.N) :
    (iblk2 V c 4 t : Vec Ideal S1x64 .f32) = (V c main_v18 : S1x64.Idx → Elt Ideal .f32) := by
  obtain ⟨-, -, -, -, -, -, -, -, e0, e1, -⟩ := block_positions t
  funext y
  unfold iblk2
  rw [View.read_apply]
  show V c main_v18 _ = V c main_v18 _
  congr 1
  funext a
  apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- The right weight's one block is the whole weight, at every point. -/
theorem right_weight_block_eq (c : Dev nD) (t : Fin cfg2.N) :
    (iblk2 V c 5 t : Vec Ideal S64x64 .f32) = (V c main_v16 : S64x64.Idx → Elt Ideal .f32) := by
  obtain ⟨-, -, -, -, -, -, -, -, -, -, e0, e1, -⟩ := block_positions t
  funext y
  unfold iblk2
  rw [View.read_apply]
  show V c main_v16 _ = V c main_v16 _
  congr 1
  funext a
  apply Fin.ext
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- The body on blocks that are rows `8000 n …` of three arrays, with the whole weights and bias, stores at a block entry
    the layer's value at the array entry the block entry stands for: the body's term and the layer's are one term. -/
theorem block_value (agg : Mat 280000 64) (deg : Mat 280000 1) (x : Mat 280000 64) (wl : Mat 64 64) (bl : Mat 1 64) (wr : Mat 64 64)
    (d : Vec Ideal S8000x1 .f32) (a : Vec Ideal S8000x64 .f32) (xb : Vec Ideal S8000x64 .f32) (wlb : Vec Ideal S64x64 .f32)
    (wrb : Vec Ideal S64x64 .f32) (blb : Vec Ideal S1x64 .f32) (n : Nat)
    (hd : ∀ (y : S8000x1.Idx) (i : S280000x1.Idx), (i 0).val = 8000 * n + (y 0).val → (i 1).val = (y 1).val → d y = deg i)
    (ha : ∀ (y : S8000x64.Idx) (i : S280000x64.Idx), (i 0).val = 8000 * n + (y 0).val → (i 1).val = (y 1).val → a y = agg i)
    (hx : ∀ (y : S8000x64.Idx) (i : S280000x64.Idx), (i 0).val = 8000 * n + (y 0).val → (i 1).val = (y 1).val → xb y = x i)
    (hwl : wlb = wl) (hwr : wrb = wr) (hbl : blb = bl)
    (j : S8000x64.Idx) (i : S280000x64.Idx) (hi0 : (i 0).val = 8000 * n + (j 0).val) (hi1 : (i 1).val = (j 1).val) :
    k2_pay1 (F := Ideal) d a xb wlb wrb blb j = combine agg deg x wl bl wr i := by
  obtain ⟨p, q, rfl⟩ : ∃ (p : Fin 8000) (q : Fin 64), j = ix2 p q := ⟨j 0, j 1, eq_ix2 j⟩
  obtain ⟨r, s, rfl⟩ : ∃ (r : Fin 280000) (s : Fin 64), i = ix2 r s := ⟨i 0, i 1, eq_ix2 i⟩
  obtain rfl : s = q := Fin.ext hi1
  subst hwl hwr hbl
  have e1 : d (ix2 p (0 : Fin 1)) = deg (ix2 r (0 : Fin 1)) := hd _ _ hi0 rfl
  have e2 : ∀ k : Fin 64, a (ix2 p k) = agg (ix2 r k) := fun k => ha _ _ hi0 rfl
  have e3 : ∀ k : Fin 64, xb (ix2 p k) = x (ix2 r k) := fun k => hx _ _ hi0 rfl
  rw [payload_apply, combine_apply]
  unfold combineAt
  simp only [e1, e2, e3]

/-- What point `t` writes back is block `t` of the layer of the six arrays as the launch finds them. -/
theorem written_back_eq (c : Dev nD) (t : Fin cfg2.N) :
    (dat2 (F := Ideal) V c).flushed 6 t
      = ((cfg2.win 6).blk t).view.read (Elt Ideal)
          (combine (V c main_v27) (V c main_v12) (V c main_v23) (V c main_v15) (V c main_v18) (V c main_v16)) := by
  show (cfg2.win 6).cut (grid2.coords t) ((dat2 V c).after 6 t) = _
  rw [after2_6]
  unfold out2_6
  rw [View.canon_unit_zero zero_offsets]
  simp only [View.ld_unit_zero (S := S8000x64) zero_offsets, View.ld_unit_zero (S := S8000x1) zero_offsets,
    View.ld_unit_zero (S := S64x64) zero_offsets, View.ld_unit_zero (S := S1x64) zero_offsets]
  obtain ⟨-, -, -, -, -, -, -, -, -, -, -, -, e0, e1⟩ := block_positions t
  funext j
  show k2_pay1 (F := Ideal) (iblk2 V c 1 t) (iblk2 V c 0 t) (iblk2 V c 2 t) (iblk2 V c 3 t) (iblk2 V c 5 t) (iblk2 V c 4 t) j
      = combine (V c main_v27) (V c main_v12) (V c main_v23) (V c main_v15) (V c main_v18) (V c main_v16)
          (((cfg2.win 6).blk t).view.emb j)
  exact block_value (V c main_v27) (V c main_v12) (V c main_v23) (V c main_v15) (V c main_v18) (V c main_v16)
    (iblk2 V c 1 t) (iblk2 V c 0 t) (iblk2 V c 2 t) (iblk2 V c 3 t) (iblk2 V c 5 t) (iblk2 V c 4 t) t.val
    (fun y i h0 h1 => deg_block_apply V c t y i h0 h1) (fun y i h0 h1 => agg_block_apply V c t y i h0 h1)
    (fun y i h0 h1 => own_block_apply V c t y i h0 h1)
    (left_weight_block_eq V c t) (right_weight_block_eq V c t) (bias_block_eq V c t)
    j (((cfg2.win 6).blk t).view.emb j)
    (by show win2_6.index t (0 : Fin 2) * 8000 + 1 * (j 0).val = 8000 * t.val + (j 0).val; omega)
    (by show win2_6.index t (1 : Fin 2) * 64 + 1 * (j 1).val = (j 1).val; omega)

/-- An index of the array is in point `t`'s block iff each coordinate is in the block's range on its axis. -/
theorem mem_block (t : Fin cfg2.N) (i : S280000x64.Idx) :
    i ∈ ((cfg2.win 6).blk t).view.set ↔ ∀ a : Fin 2, win2_6.index t a * S8000x64.size a ≤ (i a).val ∧ (i a).val < win2_6.index t a * S8000x64.size a + S8000x64.size a := by
  show i ∈ ((View.whole main_v28).slice (win2_6.rect t)).set ↔ _
  rw [View.set_slice_whole, Rect.mem_set_unit]
  exact Iff.rfl

/-- Row `r` of the output lies in the block of point `r / 8000`, and every point writes its block back. -/
theorem every_row_covered (i : S280000x64.Idx) :
    ∃ t : Fin cfg2.N, (cfg2.win 6).flush t = true ∧ i ∈ ((cfg2.win 6).blk t).view.set := by
  have hi0 : (i 0).val < 280000 := (i 0).isLt
  have hi1 : (i 1).val < 64 := (i 1).isLt
  have hN : cfg2.N = 35 := N_2
  obtain ⟨t, ht⟩ : ∃ t : Fin cfg2.N, t.val = (i 0).val / 8000 := ⟨⟨(i 0).val / 8000, by rw [hN]; omega⟩, rfl⟩
  obtain ⟨-, -, -, -, -, -, -, -, -, -, -, -, e0, e1⟩ := block_positions t
  refine ⟨t, flush2_6 t, ?_⟩
  rw [mem_block]
  intro a
  match a with
  | ⟨0, _⟩ => show win2_6.index t (0 : Fin 2) * 8000 ≤ (i 0).val ∧ (i 0).val < win2_6.index t (0 : Fin 2) * 8000 + 8000; omega
  | ⟨1, _⟩ => show win2_6.index t (1 : Fin 2) * 64 ≤ (i 1).val ∧ (i 1).val < win2_6.index t (1 : Fin 2) * 64 + 64; omega

/-- The output array after the launch is the layer of the six input arrays as the launch finds them. -/
theorem final (c : Dev nD) :
    (dat2 (F := Ideal) V c).arrAt 6 cfg2.N
      = combine (V c main_v27) (V c main_v12) (V c main_v23) (V c main_v15) (V c main_v18) (V c main_v16) :=
  (dat2 (F := Ideal) V c).arrAt_eq_of_cover 6
    (combine (V c main_v27) (V c main_v12) (V c main_v23) (V c main_v15) (V c main_v18) (V c main_v16))
    (fun t _ => written_back_eq V c t) every_row_covered

end Cert.Sage.Layer2

end
-- ==== Proof.Score.lean ====
/- The edge-score launch: what one block's body stores, and the column the fifty blocks leave. -/
import proofs.«415384_j6571299963070_2_alg».proof.Proof.Gen.KernelIdeal.Frame
import proofs.«415384_j6571299963070_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.Score

open Idealize.ShloMosaic Idealize.ShloMosaic.TcCoe Idealize.ShloMosaic.ValueIdx Idealize.SL.Sem
open Cert.KernelIdeal Cert.KernelIdeal.Gen Cert.Sage

variable (V : (c : Dev nD) → (b : Ref sig .tc) → Buf (Elt Ideal) ((c : Thread nD τ).loc b))

/-- A vector of length `a` cast to a one-column matrix reads, at `(i, u)`, the vector at `i`: the two positions in
    row-major order are `i` and `i * 1 + u` with `u = 0`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a sum over the second axis of a 10000 × 64 block inserts at row `e` is `(e, k)`. -/
theorem lift_row (h : S10000x64.Reduces [1] S10000) (e : Fin 10000) (k : Fin 64) :
    h.lift (ix1 e) k = ix2 e k :=
  funext fun a => Fin.ext (match a with | ⟨0, _⟩ => rfl | ⟨1, _⟩ => rfl)

/-- The body's stored value at row `e` of a block: the inner product of the two rows. -/
theorem payload_apply (u v : Vec Ideal S10000x64 .f32) (e : Fin 10000) :
    k3_pay1 (F := Ideal) u v (ix2 e (0 : Fin 1)) = ∑ k : Fin 64, u (ix2 e k) * v (ix2 e k) := by
  unfold k3_pay1
  simp only [shapeCast_self]
  refine (shapeCast_column_apply _ _ e 0).trans ?_
  refine (Ideal.multiReduction_add_single _ _ _ _ _ (ix1 e)).trans ?_
  show ∑ k : Fin 64, _ = _
  refine Finset.sum_congr rfl fun k _ => ?_
  rw [lift_row]
  rfl

/-! ## From the fifty blocks to the column -/

theorem zero_offsets : (![0, 0] : Fin 2 → Nat) = fun _ => 0 := funext fun a => by fin_cases a <;> rfl

/-- The body's stored value at any index of a block, the row written out of the index's first coordinate. -/
theorem payload_at (x0 x1 : Vec Ideal S10000x64 .f32) (j : S10000x1.Idx) :
    k3_pay1 (F := Ideal) x0 x1 j
      = ∑ k : Fin 64, x0 (ix2 (⟨(j 0).val, (j 0).isLt⟩ : Fin 10000) k) * x1 (ix2 (⟨(j 0).val, (j 0).isLt⟩ : Fin 10000) k) := by
  obtain ⟨p, q, rfl⟩ : ∃ (p : Fin 10000) (q : Fin 1), j = ix2 p q := ⟨j 0, j 1, eq_ix2 j⟩
  obtain rfl : q = 0 := Subsingleton.elim _ _
  exact payload_apply x0 x1 p

/-- One point of one block: if the two staged blocks hold, along row `j 0`, the rows `i 0` of two arrays, the body stores
    at `j` the score of the arrays at `i`. -/
theorem block_point (A B : Mat 500000 64) (x0 x1 : Vec Ideal S10000x64 .f32) (j : S10000x1.Idx) (i : S500000x1.Idx)
    (h0 : ∀ k : Fin 64, x0 (ix2 (⟨(j 0).val, (j 0).isLt⟩ : Fin 10000) k) = A (ix2 (⟨(i 0).val, (i 0).isLt⟩ : Fin 500000) k))
    (h1 : ∀ k : Fin 64, x1 (ix2 (⟨(j 0).val, (j 0).isLt⟩ : Fin 10000) k) = B (ix2 (⟨(i 0).val, (i 0).isLt⟩ : Fin 500000) k)) :
    k3_pay1 (F := Ideal) x0 x1 j = scoreCol A B i := by
  rw [payload_at]
  show _ = ∑ k : Fin 64, A (ix2 (⟨(i 0).val, (i 0).isLt⟩ : Fin 500000) k) * B (ix2 (⟨(i 0).val, (i 0).isLt⟩ : Fin 500000) k)
  exact Finset.sum_congr rfl fun k _ => by rw [h0 k, h1 k]

/-- The printed index maps, decided over the fifty points: the three windows move together down the rows, one block a
    point, and none moves along the columns. -/
theorem index_facts : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (0 : Fin 2) ≤ 49
    ∧ win3_2.index t (1 : Fin 2) = 0 :=
  (by decide +kernel : ∀ t : Fin grid3.N, _)

/-- Every one of the fifty row blocks is some point's. -/
theorem index_onto : ∀ q : Fin 50, ∃ t : Fin cfg3.N, win3_2.index t = ![q.val, 0] :=
  (by decide +kernel : ∀ q : Fin 50, ∃ t : Fin grid3.N, win3_2.index t = ![q.val, 0])

/-- What point `t` writes back is block `t` of the score column of the two arrays as the launch finds them. -/
theorem flushed_eq (c : Dev nD) (t : Fin cfg3.N) :
    (dat3 (F := Ideal) V c).flushed 2 t
      = ((cfg3.win 2).blk t).view.read (Elt Ideal) (scoreCol (V c main_v33) (V c main_v36)) := by
  show (cfg3.win 2).cut (grid3.coords t) ((dat3 V c).after 2 t) = _
  rw [after3_2]
  unfold out3_2
  rw [View.canon_unit_zero zero_offsets]
  simp only [View.ld_unit_zero (S := S10000x64) zero_offsets]
  obtain ⟨e0, e1, e2, e3, e4, e5⟩ := index_facts t
  funext j
  show k3_pay1 (F := Ideal) (iblk3 V c 0 t) (iblk3 V c 1 t) j
    = scoreCol (V c main_v33) (V c main_v36) (((cfg3.win 2).blk t).view.emb j)
  refine block_point _ _ _ _ j _ (fun k => ?_) (fun k => ?_)
  · show V c main_v33 (((cfg3.win 0).blk t).view.emb (ix2 (⟨(j 0).val, (j 0).isLt⟩ : Fin 10000) k)) = _
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  · show V c main_v36 (((cfg3.win 1).blk t).view.emb (ix2 (⟨(j 0).val, (j 0).isLt⟩ : Fin 10000) k)) = _
    refine congrArg _ (funext fun a => Fin.ext ?_)
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * k.val = k.val; omega

/-- An index of the column is in point `t`'s block iff each coordinate is in the block's range on its axis. -/
theorem mem_block (t : Fin cfg3.N) (i : S500000x1.Idx) :
    i ∈ ((cfg3.win 2).blk t).view.set ↔ ∀ a : Fin 2, win3_2.index t a * S10000x1.size a ≤ (i a).val
      ∧ (i a).val < win3_2.index t a * S10000x1.size a + S10000x1.size a := by
  show i ∈ ((View.whole main_v37).slice (win3_2.rect t)).set ↔ _
  rw [View.set_slice_whole, Rect.mem_set_unit]
  exact Iff.rfl

/-- Row `r` of the column lies in block `r / 10000`, so the fifty blocks cover the column. -/
theorem cover (i : S500000x1.Idx) :
    ∃ t : Fin cfg3.N, (cfg3.win 2).flush t = true ∧ i ∈ ((cfg3.win 2).blk t).view.set := by
  have hi0 : (i 0).val < 500000 := (i 0).isLt
  have hi1 : (i 1).val < 1 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 1 ≤ (i 1).val ∧ (i 1).val < win3_2.index t (1 : Fin 2) * 1 + 1; omega

/-- The output column after the launch is the score of the two input arrays as the launch finds them. -/
theorem final (c : Dev nD) :
    (dat3 (F := Ideal) V c).arrAt 2 cfg3.N = scoreCol (V c main_v33) (V c main_v36) :=
  (dat3 V c).arrAt_eq_of_cover 2 (scoreCol (V c main_v33) (V c main_v36)) (fun t _ => flushed_eq V c t) cover

end Cert.Sage.Score

end
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.LibTypedRefEnds.lean ====
/-
  A typed reference's transport at the ends of a function's stretch of lines.

  Inside a module-local function a value written through a typed reference and read back through it is the value
  (the two transports cancel). At the ends of the function's lines one transport is left: where a line reads a buffer
  that was written outside the function, and where the function's result is read outside it. There the transport is
  along an equation between a buffer's own type and the type the reference carries, and whatever that equation's proof
  is, the transported value is the value it started from, as a heterogeneous equality. So a reading of a buffer
  through a typed reference equals any value that the buffer's contents equal heterogeneously, and likewise a writing.
-/
import Idealize.ShloMosaic.Lib.StableHlo

namespace Idealize.ShloMosaic.StableHlo

variable {sig : RefSig} {Val : EltTy → Type} {T : BufTy}

/-- Contents read through a typed reference are the buffer's contents. -/
theorem TRef.ofBuf_eq_of_heq (x : TRef sig T) (v : x.ref.ty.Contents Val) (w : T.Contents Val) (h : HEq v w) : x.ofBuf v = w :=
  eq_of_heq ((cast_heq _ _).trans h)

/-- Contents written through a typed reference are the value written. -/
theorem TRef.toBuf_eq_of_heq (x : TRef sig T) (v : T.Contents Val) (w : x.ref.ty.Contents Val) (h : HEq v w) : x.toBuf v = w :=
  eq_of_heq ((cast_heq _ _).trans h)

end Idealize.ShloMosaic.StableHlo
-- ==== Proof.ChainA.lean ====
/- The kernel's program read from the launch to the end of its second launch: the buffers' contents at each boundary
   between stretches of host operations and launches, as the arrays of KVal.lean of the launch memory's arguments. -/
import proofs.«415384_j6571299963070_2_alg».proof.Proof.Gen.KernelIdeal.Frame
import proofs.«415384_j6571299963070_2_alg».proof.Proof.KVal
import proofs.«415384_j6571299963070_2_alg».proof.Proof.Encode
import proofs.«415384_j6571299963070_2_alg».proof.Proof.Layer1
import proofs.«415384_j6571299963070_2_alg».proof.Proof.Layer2
import proofs.«415384_j6571299963070_2_alg».proof.Proof.Score
import proofs.«415384_j6571299963070_2_alg».proof.Proof.LibTypedRef
import proofs.«415384_j6571299963070_2_alg».proof.Proof.LibTypedRefEnds
import Idealize.ShloMosaic.Lib.StableHlo.Run
import Idealize.ShloMosaic.Lib.Pipeline.Value

set_option maxRecDepth 16384

noncomputable section

namespace Cert.Sage.Chain

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg)

/-! ## A buffer that a stretch of host operations does not write -/

/-- No operation of a literal stretch of host operations writes the buffer: the stretch's result buffers are listed
    and each is told apart from the buffer as a reference. -/
local macro "no_write " ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- Over the stretch before the first launch a buffer that stretch does not write holds the launch memory's. -/
theorem W1_of_no_write (c : Dev nD) (r : Ref sig .tc)
    (h : ∀ op ∈ (hostOps0 : List (HloOp τ sig (Elt Ideal))), (Proc.devRef .tc r : DevRef τ sig) ∉ op.writes) :
    W1 (F := Ideal) m ρ c (Proc.devRef .tc r) = m ((c : Thread nD τ).loc r) :=
  (StableHlo.after_of_forall_not_mem _ _ h).trans rfl

/-- Over the three stretches between the first and the second launch a buffer none of them writes after the first
    keeps what the first stretch left. -/
theorem W5_eq_W3 (c : Dev nD) (r : Ref sig .tc)
    (h2 : ∀ op ∈ (hostOps1_2 : List (HloOp τ sig (Elt Ideal))), (Proc.devRef .tc r : DevRef τ sig) ∉ op.writes)
    (h1 : ∀ op ∈ (hostOps1_1 : List (HloOp τ sig (Elt Ideal))), (Proc.devRef .tc r : DevRef τ sig) ∉ op.writes) :
    W5 (F := Ideal) m ρ c (Proc.devRef .tc r) = W3 m ρ c (Proc.devRef .tc r) :=
  (StableHlo.after_of_forall_not_mem _ _ h2).trans (StableHlo.after_of_forall_not_mem _ _ h1)

/-! ## Entering the first launch -/

theorem W1_arg0 (c : Dev nD) : W1 (F := Ideal) m ρ c (Proc.devRef .tc main_arg0) = m ((c : Thread nD τ).loc main_arg0) :=
  W1_of_no_write m ρ c main_arg0 (by no_write hostOps0)

theorem W1_arg2 (c : Dev nD) : W1 (F := Ideal) m ρ c (Proc.devRef .tc main_arg2) = m ((c : Thread nD τ).loc main_arg2) :=
  W1_of_no_write m ρ c main_arg2 (by no_write hostOps0)

/-- The transposed encoder weight. -/
theorem W1_v0 (c : Dev nD) : W1 (F := Ideal) m ρ c (Proc.devRef .tc main_v0)
    = transpose S20x64 [1, 0] (m ((c : Thread nD τ).loc main_arg3)) transposes_S64x20_S20x64_1_0 := by
  show StableHlo.after hostOps0 _ _ = _; after_results

/-- The encoder's bias row. -/
theorem W1_v1 (c : Dev nD) : W1 (F := Ideal) m ρ c (Proc.devRef .tc main_v1)
    = shapeCast S1x64 (m ((c : Thread nD τ).loc main_arg4)) shapeCasts_S64_S1x64 := by
  show StableHlo.after hostOps0 _ _ = _; after_results; rfl

/-! ## After the first launch: the arguments later stretches read, and the encoded movie rows -/

/-- Argument 1 is as launched after the first launch. -/
theorem W2_arg1 (c : Dev nD) :
    W2 (F := Ideal) m ρ c (Proc.devRef .tc main_arg1)
      = (m ((c : Thread nD τ).loc main_arg1)) :=
  (W2_of_ne m ρ c main_arg1 (by decide)).trans (W1_of_no_write m ρ c main_arg1 (by no_write hostOps0))

/-- Argument 5 is as launched after the first launch. -/
theorem W2_arg5 (c : Dev nD) :
    W2 (F := Ideal) m ρ c (Proc.devRef .tc main_arg5)
      = (m ((c : Thread nD τ).loc main_arg5)) :=
  (W2_of_ne m ρ c main_arg5 (by decide)).trans (W1_of_no_write m ρ c main_arg5 (by no_write hostOps0))

/-- Argument 6 is as launched after the first launch. -/
theorem W2_arg6 (c : Dev nD) :
    W2 (F := Ideal) m ρ c (Proc.devRef .tc main_arg6)
      = (m ((c : Thread nD τ).loc main_arg6)) :=
  (W2_of_ne m ρ c main_arg6 (by decide)).trans (W1_of_no_write m ρ c main_arg6 (by no_write hostOps0))

/-- Argument 7 is as launched after the first launch. -/
theorem W2_arg7 (c : Dev nD) :
    W2 (F := Ideal) m ρ c (Proc.devRef .tc main_arg7)
      = (m ((c : Thread nD τ).loc main_arg7)) :=
  (W2_of_ne m ρ c main_arg7 (by decide)).trans (W1_of_no_write m ρ c main_arg7 (by no_write hostOps0))

/-- Argument 8 is as launched after the first launch. -/
theorem W2_arg8 (c : Dev nD) :
    W2 (F := Ideal) m ρ c (Proc.devRef .tc main_arg8)
      = (m ((c : Thread nD τ).loc main_arg8)) :=
  (W2_of_ne m ρ c main_arg8 (by decide)).trans (W1_of_no_write m ρ c main_arg8 (by no_write hostOps0))

/-- Argument 9 is as launched after the first launch. -/
theorem W2_arg9 (c : Dev nD) :
    W2 (F := Ideal) m ρ c (Proc.devRef .tc main_arg9)
      = (m ((c : Thread nD τ).loc main_arg9)) :=
  (W2_of_ne m ρ c main_arg9 (by decide)).trans (W1_of_no_write m ρ c main_arg9 (by no_write hostOps0))

/-- Argument 10 is as launched after the first launch. -/
theorem W2_arg10 (c : Dev nD) :
    W2 (F := Ideal) m ρ c (Proc.devRef .tc main_arg10)
      = (m ((c : Thread nD τ).loc main_arg10)) :=
  (W2_of_ne m ρ c main_arg10 (by decide)).trans (W1_of_no_write m ρ c main_arg10 (by no_write hostOps0))

/-- Argument 11 is as launched after the first launch. -/
theorem W2_arg11 (c : Dev nD) :
    W2 (F := Ideal) m ρ c (Proc.devRef .tc main_arg11)
      = (m ((c : Thread nD τ).loc main_arg11)) :=
  (W2_of_ne m ρ c main_arg11 (by decide)).trans (W1_of_no_write m ρ c main_arg11 (by no_write hostOps0))

/-- Argument 12 is as launched after the first launch. -/
theorem W2_arg12 (c : Dev nD) :
    W2 (F := Ideal) m ρ c (Proc.devRef .tc main_arg12)
      = (m ((c : Thread nD τ).loc main_arg12)) :=
  (W2_of_ne m ρ c main_arg12 (by decide)).trans (W1_of_no_write m ρ c main_arg12 (by no_write hostOps0))

/-- The first launch leaves the encoded movie rows. -/
theorem W2_v2 (c : Dev nD) :
    W2 (F := Ideal) m ρ c (Proc.devRef .tc main_v2)
      = KVal.movie (m ((c : Thread nD τ).loc main_arg0)) (m ((c : Thread nD τ).loc main_arg2)) (m ((c : Thread nD τ).loc main_arg3)) (m ((c : Thread nD τ).loc main_arg4)) := by
  -- the launch's output window holds the launch's value at the contents it was entered with
  refine (W2_arr m ρ c 4).trans ((Encode.final (V1 m ρ) c).trans ?_)
  unfold KVal.movie
  rw [show V1 (F := Ideal) m ρ c main_arg0 = _ from W1_arg0 m ρ c, show V1 (F := Ideal) m ρ c main_arg2 = _ from W1_arg2 m ρ c,
    show V1 (F := Ideal) m ρ c main_v0 = _ from W1_v0 m ρ c, show V1 (F := Ideal) m ρ c main_v1 = _ from W1_v1 m ρ c]

/-! ## The stretches between the first and the second launch, from any contents

Each stretch is read once at contents `V` that are left a variable, so that what it computes is stated of the
buffers it reads and nothing earlier is unfolded. -/

section Stretches

variable (V : Valuation τ sig (Elt Ideal))

/-- The first stretch joins the users' rows and the encoded movie rows. -/
theorem stretch1_v3 :
    StableHlo.after hostOps1 V (Proc.devRef .tc main_v3)
      = concatenate S280000x64 0 [⟨S200000x64, V (Proc.devRef .tc main_arg1)⟩, ⟨S80000x64, V (Proc.devRef .tc main_v2)⟩] concatenates_S200000x64_S80000x64_S280000x64_d0 := by
  after_results

/-- The first stretch takes the source words off the edge table. -/
theorem stretch1_v5 :
    StableHlo.after hostOps1 V (Proc.devRef .tc main_v5) = KVal.src (V (Proc.devRef .tc main_arg11)) := by
  after_results; rfl

/-- The first stretch takes the destination words off the edge table. -/
theorem stretch1_v7 :
    StableHlo.after hostOps1 V (Proc.devRef .tc main_v7) = KVal.dst (V (Proc.devRef .tc main_arg11)) := by
  after_results; rfl

/-- The first stretch counts the in-degrees, as a column. -/
theorem stretch1_v12 :
    StableHlo.after hostOps1 V (Proc.devRef .tc main_v12) = KVal.degCol (V (Proc.devRef .tc main_arg11)) := by
  after_results; rfl

theorem stretch1_v13 :
    StableHlo.after hostOps1 V (Proc.devRef .tc main_v13)
      = transpose S64x64 [1, 0] (V (Proc.devRef .tc main_arg5)) transposes_S64x64_S64x64_1_0 := by
  after_results

theorem stretch1_v14 :
    StableHlo.after hostOps1 V (Proc.devRef .tc main_v14)
      = transpose S64x64 [1, 0] (V (Proc.devRef .tc main_arg7)) transposes_S64x64_S64x64_1_0 := by
  after_results

theorem stretch1_v15 :
    StableHlo.after hostOps1 V (Proc.devRef .tc main_v15)
      = transpose S64x64 [1, 0] (V (Proc.devRef .tc main_arg8)) transposes_S64x64_S64x64_1_0 := by
  after_results

theorem stretch1_v16 :
    StableHlo.after hostOps1 V (Proc.devRef .tc main_v16)
      = transpose S64x64 [1, 0] (V (Proc.devRef .tc main_arg10)) transposes_S64x64_S64x64_1_0 := by
  after_results

theorem stretch1_v17 :
    StableHlo.after hostOps1 V (Proc.devRef .tc main_v17)
      = shapeCast S1x64 (V (Proc.devRef .tc main_arg6)) shapeCasts_S64_S1x64 := by
  after_results; rfl

theorem stretch1_v18 :
    StableHlo.after hostOps1 V (Proc.devRef .tc main_v18)
      = shapeCast S1x64 (V (Proc.devRef .tc main_arg9)) shapeCasts_S64_S1x64 := by
  after_results; rfl

set_option maxHeartbeats 8000000 in
/-- The lookup's stretch: the rows of the node table at the source words, the fill word where a word is out of range.
    Inside the stretch every value written through a typed reference and read back is itself; at its two ends the
    transport is along an equation of one buffer type with itself. -/
theorem take0 :
    StableHlo.after hostOps1_1 V (Proc.devRef .tc main_v19)
      = KVal.takeNodes (V (Proc.devRef .tc main_v3)) (V (Proc.devRef .tc main_v5)) := by
  after_results_simp
  simp only [TRef.ofBuf_toBuf]
  simp only [TRef.ofBuf, TRef.toBuf, cast_eq]
  rfl

/-- The third stretch adds the looked-up rows up per destination word. -/
theorem stretch1_2_v22 :
    StableHlo.after hostOps1_2 V (Proc.devRef .tc main_v22)
      = Host.scatterAdd scatter_S280000x64_S1250000x1_S1250000x64_1_0_0_1
          (broadcastInDim S280000x64 ![] bcast_S_S280000x64 (constant (F := Ideal) S_ .f32 0x00000000#32))
          (broadcastInDim S1250000x1 ![0] bcast_S1250000_S1250000x1_0 (V (Proc.devRef .tc main_v7)))
          (V (Proc.devRef .tc main_v19)) := by
  after_results

end Stretches

/-! ## After the first stretch past the first launch -/

theorem W3_v3 (c : Dev nD) :
    W3 (F := Ideal) m ρ c (Proc.devRef .tc main_v3)
      = (KVal.nodes0 (m ((c : Thread nD τ).loc main_arg0)) (m ((c : Thread nD τ).loc main_arg1)) (m ((c : Thread nD τ).loc main_arg2)) (m ((c : Thread nD τ).loc main_arg3)) (m ((c : Thread nD τ).loc main_arg4))) := by
  refine (stretch1_v3 (W2 m ρ c)).trans ?_
  unfold KVal.nodes0
  rw [W2_arg1, W2_v2]

theorem W3_v5 (c : Dev nD) :
    W3 (F := Ideal) m ρ c (Proc.devRef .tc main_v5) = KVal.src (m ((c : Thread nD τ).loc main_arg11)) :=
  (stretch1_v5 (W2 m ρ c)).trans (congrArg KVal.src (W2_arg11 m ρ c))

theorem W3_v7 (c : Dev nD) :
    W3 (F := Ideal) m ρ c (Proc.devRef .tc main_v7) = KVal.dst (m ((c : Thread nD τ).loc main_arg11)) :=
  (stretch1_v7 (W2 m ρ c)).trans (congrArg KVal.dst (W2_arg11 m ρ c))

theorem W3_v12 (c : Dev nD) :
    W3 (F := Ideal) m ρ c (Proc.devRef .tc main_v12) = KVal.degCol (m ((c : Thread nD τ).loc main_arg11)) :=
  (stretch1_v12 (W2 m ρ c)).trans (congrArg KVal.degCol (W2_arg11 m ρ c))

theorem W3_v13 (c : Dev nD) :
    W3 (F := Ideal) m ρ c (Proc.devRef .tc main_v13)
      = transpose S64x64 [1, 0] (m ((c : Thread nD τ).loc main_arg5)) transposes_S64x64_S64x64_1_0 :=
  (stretch1_v13 (W2 m ρ c)).trans (congrArg (transpose S64x64 [1, 0] · transposes_S64x64_S64x64_1_0) (W2_arg5 m ρ c))

theorem W3_v14 (c : Dev nD) :
    W3 (F := Ideal) m ρ c (Proc.devRef .tc main_v14)
      = transpose S64x64 [1, 0] (m ((c : Thread nD τ).loc main_arg7)) transposes_S64x64_S64x64_1_0 :=
  (stretch1_v14 (W2 m ρ c)).trans (congrArg (transpose S64x64 [1, 0] · transposes_S64x64_S64x64_1_0) (W2_arg7 m ρ c))

theorem W3_v15 (c : Dev nD) :
    W3 (F := Ideal) m ρ c (Proc.devRef .tc main_v15)
      = transpose S64x64 [1, 0] (m ((c : Thread nD τ).loc main_arg8)) transposes_S64x64_S64x64_1_0 :=
  (stretch1_v15 (W2 m ρ c)).trans (congrArg (transpose S64x64 [1, 0] · transposes_S64x64_S64x64_1_0) (W2_arg8 m ρ c))

theorem W3_v16 (c : Dev nD) :
    W3 (F := Ideal) m ρ c (Proc.devRef .tc main_v16)
      = transpose S64x64 [1, 0] (m ((c : Thread nD τ).loc main_arg10)) transposes_S64x64_S64x64_1_0 :=
  (stretch1_v16 (W2 m ρ c)).trans (congrArg (transpose S64x64 [1, 0] · transposes_S64x64_S64x64_1_0) (W2_arg10 m ρ c))

theorem W3_v17 (c : Dev nD) :
    W3 (F := Ideal) m ρ c (Proc.devRef .tc main_v17)
      = shapeCast S1x64 (m ((c : Thread nD τ).loc main_arg6)) shapeCasts_S64_S1x64 :=
  (stretch1_v17 (W2 m ρ c)).trans (congrArg (shapeCast S1x64 · shapeCasts_S64_S1x64) (W2_arg6 m ρ c))

theorem W3_v18 (c : Dev nD) :
    W3 (F := Ideal) m ρ c (Proc.devRef .tc main_v18)
      = shapeCast S1x64 (m ((c : Thread nD τ).loc main_arg9)) shapeCasts_S64_S1x64 :=
  (stretch1_v18 (W2 m ρ c)).trans (congrArg (shapeCast S1x64 · shapeCasts_S64_S1x64) (W2_arg9 m ρ c))

theorem W3_arg12 (c : Dev nD) :
    W3 (F := Ideal) m ρ c (Proc.devRef .tc main_arg12) = m ((c : Thread nD τ).loc main_arg12) :=
  (StableHlo.after_of_forall_not_mem _ _ (by no_write hostOps1)).trans (W2_arg12 m ρ c)

/-! ## Entering the second launch -/

/-- The nodes' rows before the first layer. -/
theorem W5_v3 (c : Dev nD) :
    W5 (F := Ideal) m ρ c (Proc.devRef .tc main_v3)
      = (KVal.nodes0 (m ((c : Thread nD τ).loc main_arg0)) (m ((c : Thread nD τ).loc main_arg1)) (m ((c : Thread nD τ).loc main_arg2)) (m ((c : Thread nD τ).loc main_arg3)) (m ((c : Thread nD τ).loc main_arg4))) :=
  (W5_eq_W3 m ρ c main_v3 (by no_write hostOps1_2) (by no_write hostOps1_1)).trans (W3_v3 m ρ c)

/-- The degree column. -/
theorem W5_v12 (c : Dev nD) :
    W5 (F := Ideal) m ρ c (Proc.devRef .tc main_v12)
      = KVal.degCol (m ((c : Thread nD τ).loc main_arg11)) :=
  (W5_eq_W3 m ρ c main_v12 (by no_write hostOps1_2) (by no_write hostOps1_1)).trans (W3_v12 m ρ c)

/-- The looked-up source rows, after the lookup's stretch. -/
theorem W4_v19 (c : Dev nD) :
    W4 (F := Ideal) m ρ c (Proc.devRef .tc main_v19)
      = KVal.takeNodes (KVal.nodes0 (m ((c : Thread nD τ).loc main_arg0)) (m ((c : Thread nD τ).loc main_arg1)) (m ((c : Thread nD τ).loc main_arg2)) (m ((c : Thread nD τ).loc main_arg3)) (m ((c : Thread nD τ).loc main_arg4))) (KVal.src (m ((c : Thread nD τ).loc main_arg11))) := by
  refine (take0 (W3 m ρ c)).trans ?_
  rw [W3_v3, W3_v5]

/-- The destination words, after the lookup's stretch. -/
theorem W4_v7 (c : Dev nD) :
    W4 (F := Ideal) m ρ c (Proc.devRef .tc main_v7) = KVal.dst (m ((c : Thread nD τ).loc main_arg11)) :=
  (StableHlo.after_of_forall_not_mem _ _ (by no_write hostOps1_1)).trans (W3_v7 m ρ c)

/-- The looked-up source rows added up per destination node. -/
theorem W5_v22 (c : Dev nD) :
    W5 (F := Ideal) m ρ c (Proc.devRef .tc main_v22)
      = KVal.aggregate (KVal.takeNodes (KVal.nodes0 (m ((c : Thread nD τ).loc main_arg0)) (m ((c : Thread nD τ).loc main_arg1)) (m ((c : Thread nD τ).loc main_arg2)) (m ((c : Thread nD τ).loc main_arg3)) (m ((c : Thread nD τ).loc main_arg4))) (KVal.src (m ((c : Thread nD τ).loc main_arg11)))) (m ((c : Thread nD τ).loc main_arg11)) := by
  refine (stretch1_2_v22 (W4 m ρ c)).trans ?_
  unfold KVal.aggregate
  rw [W4_v7, W4_v19]

/-- The first layer's transposed left weight. -/
theorem W5_v13 (c : Dev nD) :
    W5 (F := Ideal) m ρ c (Proc.devRef .tc main_v13)
      = transpose S64x64 [1, 0] (m ((c : Thread nD τ).loc main_arg5)) transposes_S64x64_S64x64_1_0 :=
  (W5_eq_W3 m ρ c main_v13 (by no_write hostOps1_2) (by no_write hostOps1_1)).trans (W3_v13 m ρ c)

/-- The first layer's bias row. -/
theorem W5_v17 (c : Dev nD) :
    W5 (F := Ideal) m ρ c (Proc.devRef .tc main_v17)
      = shapeCast S1x64 (m ((c : Thread nD τ).loc main_arg6)) shapeCasts_S64_S1x64 :=
  (W5_eq_W3 m ρ c main_v17 (by no_write hostOps1_2) (by no_write hostOps1_1)).trans (W3_v17 m ρ c)

/-- The first layer's transposed right weight. -/
theorem W5_v14 (c : Dev nD) :
    W5 (F := Ideal) m ρ c (Proc.devRef .tc main_v14)
      = transpose S64x64 [1, 0] (m ((c : Thread nD τ).loc main_arg7)) transposes_S64x64_S64x64_1_0 :=
  (W5_eq_W3 m ρ c main_v14 (by no_write hostOps1_2) (by no_write hostOps1_1)).trans (W3_v14 m ρ c)

/-! ## After the second launch -/

/-- The second launch leaves the nodes' rows after the first layer. -/
theorem W6_v23 (c : Dev nD) :
    W6 (F := Ideal) m ρ c (Proc.devRef .tc main_v23)
      = (KVal.nodes1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11))) := by
  -- the launch's output window holds the launch's value at the contents it was entered with
  refine (W6_arr m ρ c 6).trans ((Layer1.final (V5 m ρ) c).trans ?_)
  unfold KVal.nodes1
  rw [show V5 (F := Ideal) m ρ c main_v22 = _ from W5_v22 m ρ c, show V5 (F := Ideal) m ρ c main_v12 = _ from W5_v12 m ρ c,
    show V5 (F := Ideal) m ρ c main_v3 = _ from W5_v3 m ρ c, show V5 (F := Ideal) m ρ c main_v13 = _ from W5_v13 m ρ c,
    show V5 (F := Ideal) m ρ c main_v17 = _ from W5_v17 m ρ c, show V5 (F := Ideal) m ρ c main_v14 = _ from W5_v14 m ρ c]

/-- The source words. -/
theorem W6_v5 (c : Dev nD) :
    W6 (F := Ideal) m ρ c (Proc.devRef .tc main_v5)
      = KVal.src (m ((c : Thread nD τ).loc main_arg11)) :=
  (W6_of_ne m ρ c main_v5 (by decide)).trans
    ((W5_eq_W3 m ρ c main_v5 (by no_write hostOps1_2) (by no_write hostOps1_1)).trans (W3_v5 m ρ c))

/-- The destination words. -/
theorem W6_v7 (c : Dev nD) :
    W6 (F := Ideal) m ρ c (Proc.devRef .tc main_v7)
      = KVal.dst (m ((c : Thread nD τ).loc main_arg11)) :=
  (W6_of_ne m ρ c main_v7 (by decide)).trans
    ((W5_eq_W3 m ρ c main_v7 (by no_write hostOps1_2) (by no_write hostOps1_1)).trans (W3_v7 m ρ c))

/-- The degree column, still. -/
theorem W6_v12 (c : Dev nD) :
    W6 (F := Ideal) m ρ c (Proc.devRef .tc main_v12)
      = KVal.degCol (m ((c : Thread nD τ).loc main_arg11)) :=
  -- an input window of the launch: its array keeps the contents the launch was entered with
  (W6_arr m ρ c 1).trans (((dat1 (V5 m ρ) c).arrAt_in 1 rfl _).trans ((A_eq1 (V5 m ρ) c 1).trans (W5_v12 m ρ c)))

/-- The second layer's transposed left weight. -/
theorem W6_v15 (c : Dev nD) :
    W6 (F := Ideal) m ρ c (Proc.devRef .tc main_v15)
      = transpose S64x64 [1, 0] (m ((c : Thread nD τ).loc main_arg8)) transposes_S64x64_S64x64_1_0 :=
  (W6_of_ne m ρ c main_v15 (by decide)).trans
    ((W5_eq_W3 m ρ c main_v15 (by no_write hostOps1_2) (by no_write hostOps1_1)).trans (W3_v15 m ρ c))

/-- The second layer's bias row. -/
theorem W6_v18 (c : Dev nD) :
    W6 (F := Ideal) m ρ c (Proc.devRef .tc main_v18)
      = shapeCast S1x64 (m ((c : Thread nD τ).loc main_arg9)) shapeCasts_S64_S1x64 :=
  (W6_of_ne m ρ c main_v18 (by decide)).trans
    ((W5_eq_W3 m ρ c main_v18 (by no_write hostOps1_2) (by no_write hostOps1_1)).trans (W3_v18 m ρ c))

/-- The second layer's transposed right weight. -/
theorem W6_v16 (c : Dev nD) :
    W6 (F := Ideal) m ρ c (Proc.devRef .tc main_v16)
      = transpose S64x64 [1, 0] (m ((c : Thread nD τ).loc main_arg10)) transposes_S64x64_S64x64_1_0 :=
  (W6_of_ne m ρ c main_v16 (by decide)).trans
    ((W5_eq_W3 m ρ c main_v16 (by no_write hostOps1_2) (by no_write hostOps1_1)).trans (W3_v16 m ρ c))

/-- The label table is as launched. -/
theorem W6_arg12 (c : Dev nD) :
    W6 (F := Ideal) m ρ c (Proc.devRef .tc main_arg12)
      = (m ((c : Thread nD τ).loc main_arg12)) :=
  (W6_of_ne m ρ c main_arg12 (by decide)).trans
    ((W5_eq_W3 m ρ c main_arg12 (by no_write hostOps1_2) (by no_write hostOps1_1)).trans (W3_arg12 m ρ c))

end Cert.Sage.Chain

end
-- ==== Proof.ChainB.lean ====
/- The kernel's program read from its second launch to the return: the result buffer's last contents are the scores
   of KVal.lean of the launch memory's arguments. -/
import proofs.«415384_j6571299963070_2_alg».proof.Proof.Gen.KernelIdeal.Frame
import proofs.«415384_j6571299963070_2_alg».proof.Proof.KVal
import proofs.«415384_j6571299963070_2_alg».proof.Proof.Encode
import proofs.«415384_j6571299963070_2_alg».proof.Proof.Layer1
import proofs.«415384_j6571299963070_2_alg».proof.Proof.Layer2
import proofs.«415384_j6571299963070_2_alg».proof.Proof.Score
import proofs.«415384_j6571299963070_2_alg».proof.Proof.LibTypedRef
import proofs.«415384_j6571299963070_2_alg».proof.Proof.LibTypedRefEnds
import proofs.«415384_j6571299963070_2_alg».proof.Proof.ChainA
import Idealize.ShloMosaic.Lib.StableHlo.Run
import Idealize.ShloMosaic.Lib.Pipeline.Value

set_option maxRecDepth 16384

noncomputable section

namespace Cert.Sage.Chain

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg)

/-! ## What a stretch of host operations leaves in one buffer, from any contents

Each stretch is read once, from arbitrary contents `X`: the buffer it ends in holds the named array of the buffers it
starts from. -/

section Stretches

variable (X : Valuation τ sig (Elt Ideal))

/-- The lookup of the source rows in the nodes' rows after the first layer. -/
theorem takeNodes_stretch :
    StableHlo.after (hostOps2 (F := Ideal)) X (Proc.devRef .tc main_v24)
      = KVal.takeNodes (X (Proc.devRef .tc main_v23)) (X (Proc.devRef .tc main_v5)) := by
  have e5 : (.of main_v5 : TRef sig ⟨S1250000, .i32⟩).ofBuf (Val := Elt Ideal) (X (Proc.devRef .tc main_v5)) = X (Proc.devRef .tc main_v5) :=
    TRef.ofBuf_eq_of_heq _ _ _ HEq.rfl
  have e23 : (.of main_v23 : TRef sig ⟨S280000x64, .f32⟩).ofBuf (Val := Elt Ideal) (X (Proc.devRef .tc main_v23)) = X (Proc.devRef .tc main_v23) :=
    TRef.ofBuf_eq_of_heq _ _ _ HEq.rfl
  set_option maxHeartbeats 8000000 in
  after_results_simp
  simp only [TRef.ofBuf_toBuf]
  rw [e5, e23]
  refine TRef.toBuf_eq_of_heq _ _ _ (heq_of_eq ?_)
  unfold KVal.takeNodes KVal.wrap280000
  rfl

/-- The looked-up rows added up per destination word. -/
theorem aggregate_stretch (a11 : IVec S2x1250000 32) (h7 : X (Proc.devRef .tc main_v7) = KVal.dst a11) :
    StableHlo.after (hostOps2_1 (F := Ideal)) X (Proc.devRef .tc main_v27)
      = KVal.aggregate (X (Proc.devRef .tc main_v24)) a11 := by
  after_results
  rw [h7]
  rfl

/-- The user rows of the nodes' rows. -/
theorem users_stretch :
    StableHlo.after (hostOps3 (F := Ideal)) X (Proc.devRef .tc main_v29)
      = extractStridedSlice S200000x64 ![0, 0] (X (Proc.devRef .tc main_v28)) slices_S280000x64_S200000x64_0_0 := by
  after_results

/-- The movie rows of the nodes' rows. -/
theorem movies_stretch :
    StableHlo.after (hostOps3 (F := Ideal)) X (Proc.devRef .tc main_v30)
      = extractStridedSlice S80000x64 ![200000, 0] (X (Proc.devRef .tc main_v28)) slices_S280000x64_S80000x64_200000_0 := by
  after_results

/-- The label edges' user words. -/
theorem lab0_stretch :
    StableHlo.after (hostOps3 (F := Ideal)) X (Proc.devRef .tc main_v32) = KVal.lab0 (X (Proc.devRef .tc main_arg12)) := by
  after_results
  rfl

/-- The label edges' movie words. -/
theorem lab1_stretch :
    StableHlo.after (hostOps3_2 (F := Ideal)) X (Proc.devRef .tc main_v35) = KVal.lab1 (X (Proc.devRef .tc main_arg12)) := by
  after_results
  rfl

/-- The lookup of the user rows. -/
theorem takeUsers_stretch :
    StableHlo.after (hostOps3_1 (F := Ideal)) X (Proc.devRef .tc main_v33)
      = KVal.takeUsers (X (Proc.devRef .tc main_v29)) (X (Proc.devRef .tc main_v32)) := by
  have e32 : (.of main_v32 : TRef sig ⟨S500000, .i32⟩).ofBuf (Val := Elt Ideal) (X (Proc.devRef .tc main_v32)) = X (Proc.devRef .tc main_v32) :=
    TRef.ofBuf_eq_of_heq _ _ _ HEq.rfl
  have e29 : (.of main_v29 : TRef sig ⟨S200000x64, .f32⟩).ofBuf (Val := Elt Ideal) (X (Proc.devRef .tc main_v29)) = X (Proc.devRef .tc main_v29) :=
    TRef.ofBuf_eq_of_heq _ _ _ HEq.rfl
  set_option maxHeartbeats 8000000 in
  after_results_simp
  simp only [TRef.ofBuf_toBuf]
  rw [e32, e29]
  refine TRef.toBuf_eq_of_heq _ _ _ (heq_of_eq ?_)
  unfold KVal.takeUsers KVal.wrap200000
  rfl

/-- The lookup of the movie rows. -/
theorem takeMovies_stretch :
    StableHlo.after (hostOps3_3 (F := Ideal)) X (Proc.devRef .tc main_v36)
      = KVal.takeMovies (X (Proc.devRef .tc main_v30)) (X (Proc.devRef .tc main_v35)) := by
  have e35 : (.of main_v35 : TRef sig ⟨S500000, .i32⟩).ofBuf (Val := Elt Ideal) (X (Proc.devRef .tc main_v35)) = X (Proc.devRef .tc main_v35) :=
    TRef.ofBuf_eq_of_heq _ _ _ HEq.rfl
  have e30 : (.of main_v30 : TRef sig ⟨S80000x64, .f32⟩).ofBuf (Val := Elt Ideal) (X (Proc.devRef .tc main_v30)) = X (Proc.devRef .tc main_v30) :=
    TRef.ofBuf_eq_of_heq _ _ _ HEq.rfl
  set_option maxHeartbeats 8000000 in
  after_results_simp
  simp only [TRef.ofBuf_toBuf]
  rw [e35, e30]
  refine TRef.toBuf_eq_of_heq _ _ _ (heq_of_eq ?_)
  unfold KVal.takeMovies KVal.wrap80000
  rfl

/-- The score column as a vector. -/
theorem return_stretch :
    StableHlo.after (hostOps4 (F := Ideal)) X (Proc.devRef .tc main_v38)
      = shapeCast S500000 (X (Proc.devRef .tc main_v37)) shapeCasts_S500000x1_S500000 := by
  after_results
  rfl

end Stretches

/-! ## A buffer a stretch does not write -/

/-- Closes `after ops V b = V b` for a literal stretch `ops` none of whose operations writes the buffer `b`: every
    operation writes one buffer, and that buffer is another reference than `b`. -/
macro "stretch_keeps " ops:ident b:ident : tactic =>
  `(tactic| (refine StableHlo.after_of_forall_not_mem (b := Proc.devRef .tc $b) _ _ (List.forall_iff_forall_mem.mp ?_)
             simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
             repeat' apply And.intro
             all_goals exact StableHlo.devRef_ne_of_ne (by decide)))

/-! ## Entering the third launch -/

/-- The looked-up source rows of the first layer's output added up per destination node. -/
theorem W8_v27 (c : Dev nD) :
    W8 (F := Ideal) m ρ c (Proc.devRef .tc main_v27)
      = KVal.aggregate (KVal.takeNodes (KVal.nodes1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11))) (KVal.src (m ((c : Thread nD τ).loc main_arg11)))) (m ((c : Thread nD τ).loc main_arg11)) := by
  -- the destination words pass the lookup's stretch untouched
  have h7 : W7 (F := Ideal) m ρ c (Proc.devRef .tc main_v7) = KVal.dst (m ((c : Thread nD τ).loc main_arg11)) :=
    (by stretch_keeps hostOps2 main_v7 : W7 (F := Ideal) m ρ c (Proc.devRef .tc main_v7) = W6 (F := Ideal) m ρ c (Proc.devRef .tc main_v7)).trans (W6_v7 m ρ c)
  -- the lookup reads the first layer's rows at the source words
  have h24 : W7 (F := Ideal) m ρ c (Proc.devRef .tc main_v24) = KVal.takeNodes (KVal.nodes1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11))) (KVal.src (m ((c : Thread nD τ).loc main_arg11))) := by
    refine (takeNodes_stretch (W6 (F := Ideal) m ρ c)).trans ?_
    rw [W6_v23 m ρ c, W6_v5 m ρ c]
  exact (aggregate_stretch (W7 (F := Ideal) m ρ c) (m ((c : Thread nD τ).loc main_arg11)) h7).trans (congrArg (fun z => KVal.aggregate z (m ((c : Thread nD τ).loc main_arg11))) h24)

/-- The degree column. -/
theorem W8_v12 (c : Dev nD) :
    W8 (F := Ideal) m ρ c (Proc.devRef .tc main_v12)
      = KVal.degCol (m ((c : Thread nD τ).loc main_arg11)) :=
  calc W8 (F := Ideal) m ρ c (Proc.devRef .tc main_v12)
    _ = W7 (F := Ideal) m ρ c (Proc.devRef .tc main_v12) := by stretch_keeps hostOps2_1 main_v12
    _ = W6 (F := Ideal) m ρ c (Proc.devRef .tc main_v12) := by stretch_keeps hostOps2 main_v12
    _ = _ := W6_v12 m ρ c

/-- The nodes' rows after the first layer. -/
theorem W8_v23 (c : Dev nD) :
    W8 (F := Ideal) m ρ c (Proc.devRef .tc main_v23)
      = (KVal.nodes1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11))) :=
  calc W8 (F := Ideal) m ρ c (Proc.devRef .tc main_v23)
    _ = W7 (F := Ideal) m ρ c (Proc.devRef .tc main_v23) := by stretch_keeps hostOps2_1 main_v23
    _ = W6 (F := Ideal) m ρ c (Proc.devRef .tc main_v23) := by stretch_keeps hostOps2 main_v23
    _ = _ := W6_v23 m ρ c

/-- The second layer's transposed left weight. -/
theorem W8_v15 (c : Dev nD) :
    W8 (F := Ideal) m ρ c (Proc.devRef .tc main_v15)
      = transpose S64x64 [1, 0] (m ((c : Thread nD τ).loc main_arg8)) transposes_S64x64_S64x64_1_0 :=
  calc W8 (F := Ideal) m ρ c (Proc.devRef .tc main_v15)
    _ = W7 (F := Ideal) m ρ c (Proc.devRef .tc main_v15) := by stretch_keeps hostOps2_1 main_v15
    _ = W6 (F := Ideal) m ρ c (Proc.devRef .tc main_v15) := by stretch_keeps hostOps2 main_v15
    _ = _ := W6_v15 m ρ c

/-- The second layer's bias row. -/
theorem W8_v18 (c : Dev nD) :
    W8 (F := Ideal) m ρ c (Proc.devRef .tc main_v18)
      = shapeCast S1x64 (m ((c : Thread nD τ).loc main_arg9)) shapeCasts_S64_S1x64 :=
  calc W8 (F := Ideal) m ρ c (Proc.devRef .tc main_v18)
    _ = W7 (F := Ideal) m ρ c (Proc.devRef .tc main_v18) := by stretch_keeps hostOps2_1 main_v18
    _ = W6 (F := Ideal) m ρ c (Proc.devRef .tc main_v18) := by stretch_keeps hostOps2 main_v18
    _ = _ := W6_v18 m ρ c

/-- The second layer's transposed right weight. -/
theorem W8_v16 (c : Dev nD) :
    W8 (F := Ideal) m ρ c (Proc.devRef .tc main_v16)
      = transpose S64x64 [1, 0] (m ((c : Thread nD τ).loc main_arg10)) transposes_S64x64_S64x64_1_0 :=
  calc W8 (F := Ideal) m ρ c (Proc.devRef .tc main_v16)
    _ = W7 (F := Ideal) m ρ c (Proc.devRef .tc main_v16) := by stretch_keeps hostOps2_1 main_v16
    _ = W6 (F := Ideal) m ρ c (Proc.devRef .tc main_v16) := by stretch_keeps hostOps2 main_v16
    _ = _ := W6_v16 m ρ c

/-! ## After the third launch -/

/-- The third launch leaves the nodes' rows after the second layer. -/
theorem W9_v28 (c : Dev nD) :
    W9 (F := Ideal) m ρ c (Proc.devRef .tc main_v28)
      = KVal.nodes2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  -- the launch's output array is the layer of its six input arrays as it finds them
  have hk := Layer2.final (V8 (F := Ideal) m ρ) c
  rw [show V8 (F := Ideal) m ρ c main_v27 = _ from W8_v27 m ρ c, show V8 (F := Ideal) m ρ c main_v12 = _ from W8_v12 m ρ c,
    show V8 (F := Ideal) m ρ c main_v23 = _ from W8_v23 m ρ c, show V8 (F := Ideal) m ρ c main_v15 = _ from W8_v15 m ρ c,
    show V8 (F := Ideal) m ρ c main_v18 = _ from W8_v18 m ρ c, show V8 (F := Ideal) m ρ c main_v16 = _ from W8_v16 m ρ c] at hk
  unfold KVal.nodes2
  exact (W9_arr m ρ c 6).trans hk

/-- The label table is as launched. -/
theorem W9_arg12 (c : Dev nD) :
    W9 (F := Ideal) m ρ c (Proc.devRef .tc main_arg12)
      = (m ((c : Thread nD τ).loc main_arg12)) :=
  calc W9 (F := Ideal) m ρ c (Proc.devRef .tc main_arg12)
    _ = W8 (F := Ideal) m ρ c (Proc.devRef .tc main_arg12) := W9_of_ne m ρ c main_arg12 (by decide)
    _ = W7 (F := Ideal) m ρ c (Proc.devRef .tc main_arg12) := by stretch_keeps hostOps2_1 main_arg12
    _ = W6 (F := Ideal) m ρ c (Proc.devRef .tc main_arg12) := by stretch_keeps hostOps2 main_arg12
    _ = _ := W6_arg12 m ρ c

/-! ## Entering the fourth launch -/

/-- The looked-up user rows. -/
theorem W13_v33 (c : Dev nD) :
    W13 (F := Ideal) m ρ c (Proc.devRef .tc main_v33)
      = KVal.takeUsers (KVal.users (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (KVal.lab0 (m ((c : Thread nD τ).loc main_arg12))) := by
  -- the user rows are the first 200000 of the nodes' rows after the second layer
  have h29 : W10 (F := Ideal) m ρ c (Proc.devRef .tc main_v29) = (KVal.users (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
    refine (users_stretch (W9 (F := Ideal) m ρ c)).trans ?_
    unfold KVal.users
    rw [W9_v28 m ρ c]
  -- the user words are row 0 of the label table
  have h32 : W10 (F := Ideal) m ρ c (Proc.devRef .tc main_v32) = KVal.lab0 (m ((c : Thread nD τ).loc main_arg12)) := by
    refine (lab0_stretch (W9 (F := Ideal) m ρ c)).trans ?_
    rw [W9_arg12 m ρ c]
  have h33 : W11 (F := Ideal) m ρ c (Proc.devRef .tc main_v33) = KVal.takeUsers (KVal.users (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (KVal.lab0 (m ((c : Thread nD τ).loc main_arg12))) := by
    refine (takeUsers_stretch (W10 (F := Ideal) m ρ c)).trans ?_
    rw [h29, h32]
  calc W13 (F := Ideal) m ρ c (Proc.devRef .tc main_v33)
    _ = W12 (F := Ideal) m ρ c (Proc.devRef .tc main_v33) := by stretch_keeps hostOps3_3 main_v33
    _ = W11 (F := Ideal) m ρ c (Proc.devRef .tc main_v33) := by stretch_keeps hostOps3_2 main_v33
    _ = _ := h33

/-- The looked-up movie rows. -/
theorem W13_v36 (c : Dev nD) :
    W13 (F := Ideal) m ρ c (Proc.devRef .tc main_v36)
      = KVal.takeMovies (KVal.movies (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (KVal.lab1 (m ((c : Thread nD τ).loc main_arg12))) := by
  -- the movie rows are the last 80000 of the nodes' rows after the second layer, untouched by the two stretches between
  have h30 : W12 (F := Ideal) m ρ c (Proc.devRef .tc main_v30) = (KVal.movies (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
    calc W12 (F := Ideal) m ρ c (Proc.devRef .tc main_v30)
      _ = W11 (F := Ideal) m ρ c (Proc.devRef .tc main_v30) := by stretch_keeps hostOps3_2 main_v30
      _ = W10 (F := Ideal) m ρ c (Proc.devRef .tc main_v30) := by stretch_keeps hostOps3_1 main_v30
      _ = _ := by
        refine (movies_stretch (W9 (F := Ideal) m ρ c)).trans ?_
        unfold KVal.movies
        rw [W9_v28 m ρ c]
  -- the label table is still as launched, and the movie words are its row 1
  have h12 : W11 (F := Ideal) m ρ c (Proc.devRef .tc main_arg12) = (m ((c : Thread nD τ).loc main_arg12)) :=
    calc W11 (F := Ideal) m ρ c (Proc.devRef .tc main_arg12)
      _ = W10 (F := Ideal) m ρ c (Proc.devRef .tc main_arg12) := by stretch_keeps hostOps3_1 main_arg12
      _ = W9 (F := Ideal) m ρ c (Proc.devRef .tc main_arg12) := by stretch_keeps hostOps3 main_arg12
      _ = _ := W9_arg12 m ρ c
  have h35 : W12 (F := Ideal) m ρ c (Proc.devRef .tc main_v35) = KVal.lab1 (m ((c : Thread nD τ).loc main_arg12)) := by
    refine (lab1_stretch (W11 (F := Ideal) m ρ c)).trans ?_
    rw [h12]
  refine (takeMovies_stretch (W12 (F := Ideal) m ρ c)).trans ?_
  rw [h30, h35]

/-! ## After the fourth launch, and the return -/

/-- The fourth launch leaves the score column. -/
theorem W14_v37 (c : Dev nD) :
    W14 (F := Ideal) m ρ c (Proc.devRef .tc main_v37)
      = scoreCol (KVal.takeUsers (KVal.users (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (KVal.lab0 (m ((c : Thread nD τ).loc main_arg12)))) (KVal.takeMovies (KVal.movies (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (KVal.lab1 (m ((c : Thread nD τ).loc main_arg12)))) := by
  -- the launch's output column is the score of its two input arrays as it finds them
  have hk := Score.final (V13 (F := Ideal) m ρ) c
  rw [show V13 (F := Ideal) m ρ c main_v33 = _ from W13_v33 m ρ c, show V13 (F := Ideal) m ρ c main_v36 = _ from W13_v36 m ρ c] at hk
  exact (W14_arr m ρ c 2).trans hk

/-- THE RESULT: the result buffer's last contents are the scores. -/
theorem result (c : Dev nD) :
    W15 (F := Ideal) m ρ c (Proc.devRef .tc main_v38)
      = KVal.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (return_stretch (W14 (F := Ideal) m ρ c)).trans ?_
  unfold KVal.out
  rw [W14_v37 m ρ c]

end Cert.Sage.Chain

end
-- ==== Proof.PreRange.lean ====
/-
  The precondition read: besides the finiteness of the float arguments it says that every source word of the edge table
  lies in `[0, 280000)`, every user word of the label table in `[0, 200000)` and every movie word in `[0, 80000)`.
  Only these three conjuncts are opened; the finiteness conjuncts are not used.
-/
import proofs.«415384_j6571299963070_2_alg».proof.Defs
import proofs.«415384_j6571299963070_2_alg».proof.Proof.Gen.Pre_finite_inputs
import proofs.«415384_j6571299963070_2_alg».proof.Proof.Gen.KernelIdeal
import proofs.«415384_j6571299963070_2_alg».proof.Proof.KVal
import Idealize.ShloMosaic.Lib.ReduceAll
import Idealize.ShloMosaic.Lib.StableHlo.Predicate
import Idealize.ShloMosaic.Lib.ValueIdx

set_option maxRecDepth 16384

noncomputable section

namespace Cert.Sage.PreRange

open Idealize.ShloMosaic Idealize.ShloMosaic.ValueIdx Idealize.SL.Sem
open Cert.KernelIdeal Cert.Sage

/-- The scalar shape has exactly one index. -/
instance scalarIdx : Subsingleton (⟨0, ![]⟩ : Shape).Idx := ⟨fun _ _ => funext fun d => d.elim0⟩

/-- A word that compares `≥ 0` and `< n` as signed words has its signed value in `[0, N)`, `N` being the signed value of `n`. -/
theorem word_range {w n : BitVec 32} {N : ℤ} (hN : n.toInt = N)
    (h0 : IntOp.cmpi .sge w 0#32 = 1#1) (h1 : IntOp.cmpi .slt w n = 1#1) : 0 ≤ w.toInt ∧ w.toInt < N := by
  have a := IntOp.cmpi_sge.1 h0
  have b := IntOp.cmpi_slt.1 h1
  have z : (0#32 : BitVec 32).toInt = 0 := by decide
  rw [z] at a
  rw [hN] at b
  exact ⟨a, b⟩

/-- The conjunction over all positions of `(x ≥ zero) ∧ (x < bound)`, where `zero` is 0 everywhere and `bound` is `n`
    everywhere, being one says that every word of `x` has its signed value in `[0, N)`. -/
theorem row_range {s u : Shape} {axes : List (Fin s.rank)} (x zero bound : IVec s 32) (n : BitVec 32) (N : ℤ) (hN : n.toInt = N)
    (hz : ∀ i, zero i = 0#32) (hb : ∀ i, bound i = n) (init : IVec u 1)
    (hr : s.ReducesTo axes (⟨0, ![]⟩ : Shape)) (hu : 0 < u.numel)
    (e : Host.reduce IntOp.andi (andi (cmpi .sge x zero) (cmpi .slt x bound)) init hr hu ix0 = 1#1) (i : s.Idx) :
    0 ≤ (x i).toInt ∧ (x i).toInt < N := by
  have hi := Host.reduce_andi_all _ init hr hu ix0 e i
  change IntOp.andi (IntOp.cmpi .sge (x i) (zero i)) (IntOp.cmpi .slt (x i) (bound i)) = 1#1 at hi
  rw [hz i, hb i] at hi
  obtain ⟨h0, h1⟩ := IntOp.andi_eq_one.1 hi
  exact word_range hN h0 h1

/-- Under the precondition the three index rows are in range, on every device. -/
theorem ranges [hPre : Cert.Pre_finite_inputs.Facts] (m : (ℓ : Loc nD τ sig) → Buf (Elt Ideal) ℓ) (h : Cert.Pre_KernelIdeal m) (c : Dev nD) :
    (∀ i : S1250000.Idx, 0 ≤ (KVal.src (m ((c.tc : Thread nD τ).loc main_arg11)) i).toInt
        ∧ (KVal.src (m ((c.tc : Thread nD τ).loc main_arg11)) i).toInt < 280000)
    ∧ (∀ i : S500000.Idx, 0 ≤ (KVal.lab0 (m ((c.tc : Thread nD τ).loc main_arg12)) i).toInt
        ∧ (KVal.lab0 (m ((c.tc : Thread nD τ).loc main_arg12)) i).toInt < 200000)
    ∧ (∀ i : S500000.Idx, 0 ≤ (KVal.lab1 (m ((c.tc : Thread nD τ).loc main_arg12)) i).toInt
        ∧ (KVal.lab1 (m ((c.tc : Thread nD τ).loc main_arg12)) i).toInt < 80000) := by
  -- the predicate's one word, on this device: a conjunction of fourteen words, joined from the left
  have e := congrFun (h c) ix0
  obtain ⟨e, hlab1⟩ := IntOp.andi_eq_one.1 e
  obtain ⟨e, hlab0⟩ := IntOp.andi_eq_one.1 e
  obtain ⟨-, hsrc⟩ := IntOp.andi_eq_one.1 e
  refine ⟨fun i => ?_, fun i => ?_, fun i => ?_⟩
  · exact row_range (KVal.src _) _ _ 280000#32 280000 (by decide) (fun _ => rfl) (fun _ => rfl) _ _ _ hsrc i
  · exact row_range (KVal.lab0 _) _ _ 200000#32 200000 (by decide) (fun _ => rfl) (fun _ => rfl) _ _ _ hlab0 i
  · exact row_range (KVal.lab1 _) _ _ 80000#32 80000 (by decide) (fun _ => rfl) (fun _ => rfl) _ _ _ hlab1 i

end Cert.Sage.PreRange

end
-- ==== Proof.RefStages.lean ====
/-
  The reference program's stages, read index by index, are the arrays of Spec.lean: the encoded movie rows, each layer
  of the nodes' rows, and the scores. Each statement takes the reference's own operands (its stages of the argument
  arrays) and, for a bias row or the degree column, any array that reads as the reference's vector does.
-/
import proofs.«415384_j6571299963070_2_alg».proof.Proof.Gen.ReferenceIdeal.Read
import proofs.«415384_j6571299963070_2_alg».proof.Proof.Spec
import Idealize.ShloMosaic.Lib.ValueIdx
import Idealize.ShloMosaic.PureOps.Ideal.Laws
import Idealize.ShloMosaic.Lib.IdealHost

set_option maxRecDepth 16384

noncomputable section

namespace Cert.Sage.Ref

open Idealize.ShloMosaic Idealize.ShloMosaic.ValueIdx
open Cert.ReferenceIdeal Cert.ReferenceIdeal.Read Cert.Sage

variable (x0 : FVec Ideal S80000x20 .f32) (x1 : FVec Ideal S200000x64 .f32) (x2 : FVec Ideal S80000x64 .f32) (x3 : FVec Ideal S64x20 .f32)
  (x4 : FVec Ideal S64 .f32) (x5 : FVec Ideal S64x64 .f32) (x6 : FVec Ideal S64 .f32) (x7 : FVec Ideal S64x64 .f32) (x8 : FVec Ideal S64x64 .f32)
  (x9 : FVec Ideal S64 .f32) (x10 : FVec Ideal S64x64 .f32) (x11 : IVec S2x1250000 32) (x12 : IVec S2x500000 32)

/-! ### Where each stage reads its operands

The index functions the generated stages compose, at an index given by its coordinates, are again indices given by
coordinates: a product's left operand is read at (row, k), its right operand at (k, column); a vector broadcast along the
rows is read at the column, a column broadcast along the columns at the row. -/

/-- The encoder's product reads the movie features at (p, k). -/
theorem enc_left (p : Fin 80000) (q : Fin 64) (k : Fin 20) : lidx_main_v1 (ix2 p q) k = ix2 p k :=
  funext fun a => Fin.ext (by match a with | ⟨0, _⟩ => rfl | ⟨1, _⟩ => rfl)

/-- The encoder's product reads the transposed weight at (k, q). -/
theorem enc_right (p : Fin 80000) (q : Fin 64) (k : Fin 20) : ridx_main_v1 (ix2 p q) k = ix2 k q :=
  funext fun a => Fin.ext (by match a with | ⟨0, _⟩ => rfl | ⟨1, _⟩ => rfl)

/-- The encoder's bias, broadcast to a row and then along the rows, is read at the column. -/
theorem enc_bias (p : Fin 80000) (q : Fin 64) : idx_main_v2 (idx_main_v3 (ix2 p q)) = ix1 q :=
  funext fun a => Fin.ext (by match a with | ⟨0, _⟩ => rfl)

/-- The encoder of the movie features, the transposed weight, a bias row that reads as the bias vector, and the movie
    embedding is the reference's encoded movie rows. -/
theorem encode_eq (b2 : Mat 1 64) (hb : ∀ q : Fin 64, b2 (ix2 (0 : Fin 1) q) = x4 (ix1 q)) :
    encodeRows x0 (val_main_v0 (F := Ideal) x3) b2 x2 = val_main_v5 (F := Ideal) x0 x2 x3 x4 := by
  funext i
  obtain ⟨p, q, rfl⟩ : ∃ (p : Fin 80000) (q : Fin 64), i = ix2 p q := ⟨i 0, i 1, eq_ix2 i⟩
  rw [encodeRows_apply, val_main_v5_apply, val_main_v4_apply, val_main_v1_apply, val_main_v3_apply, val_main_v2_apply]
  simp only [enc_left, enc_right, enc_bias, Ideal.addf_def]
  unfold encodeAt
  rw [hb]

/-- The first layer's neighbour product reads the mean rows at (p, k). -/
theorem l1_left (p : Fin 280000) (q k : Fin 64) : lidx_main_v31 (ix2 p q) k = ix2 p k :=
  funext fun a => Fin.ext (by match a with | ⟨0, _⟩ => rfl | ⟨1, _⟩ => rfl)

/-- The first layer's neighbour product reads its transposed weight at (k, q). -/
theorem l1_right (p : Fin 280000) (q k : Fin 64) : ridx_main_v31 (ix2 p q) k = ix2 k q :=
  funext fun a => Fin.ext (by match a with | ⟨0, _⟩ => rfl | ⟨1, _⟩ => rfl)

/-- The first layer's divisor, a vector made a column and then broadcast along the columns, is read at the row. -/
theorem l1_deg (p : Fin 280000) (k : Fin 64) : idx_main_v27 (idx_main_v28 (ix2 p k)) = ix1 p :=
  funext fun a => Fin.ext (by match a with | ⟨0, _⟩ => rfl)

/-- The first layer's bias, broadcast to a row and then along the rows, is read at the column. -/
theorem l1_bias (p : Fin 280000) (q : Fin 64) : idx_main_v32 (idx_main_v33 (ix2 p q)) = ix1 q :=
  funext fun a => Fin.ext (by match a with | ⟨0, _⟩ => rfl)

/-- The first layer's own-row product reads the nodes at (p, k). -/
theorem l1_self_left (p : Fin 280000) (q k : Fin 64) : lidx_main_v36 (ix2 p q) k = ix2 p k :=
  funext fun a => Fin.ext (by match a with | ⟨0, _⟩ => rfl | ⟨1, _⟩ => rfl)

/-- The first layer's own-row product reads its transposed weight at (k, q). -/
theorem l1_self_right (p : Fin 280000) (q k : Fin 64) : ridx_main_v36 (ix2 p q) k = ix2 k q :=
  funext fun a => Fin.ext (by match a with | ⟨0, _⟩ => rfl | ⟨1, _⟩ => rfl)

/-- The first layer's mean row at (p, k): the aggregated entry over the larger of the in-degree of p and one. -/
theorem mean1_at (p : Fin 280000) (k : Fin 64) :
    val_main_v29 (F := Ideal) x0 x1 x2 x3 x4 x11 (ix2 p k)
      = Ideal.div (val_main_v20 (F := Ideal) x0 x1 x2 x3 x4 x11 (ix2 p k))
          (max (val_main_v24 (F := Ideal) x11 (ix1 p)) (Ideal.ofBits .f32 0x3F800000#32)) := by
  rw [val_main_v29_apply, val_main_v28_apply, val_main_v27_apply, val_main_v26_apply, val_main_v25_apply, val_main_cst_3_apply,
    l1_deg]
  rfl

/-- The first layer's neighbour product at (p, q), as a sum over the contracted axis. -/
theorem left1_at (p : Fin 280000) (q : Fin 64) :
    val_main_v31 (F := Ideal) x0 x1 x2 x3 x4 x5 x11 (ix2 p q)
      = ∑ k : Fin 64, Ideal.div (val_main_v20 (F := Ideal) x0 x1 x2 x3 x4 x11 (ix2 p k))
          (max (val_main_v24 (F := Ideal) x11 (ix1 p)) (Ideal.ofBits .f32 0x3F800000#32)) * val_main_v30 (F := Ideal) x5 (ix2 k q) := by
  rw [val_main_v31_apply]
  exact Finset.sum_congr rfl fun k _ => by rw [l1_left, l1_right, mean1_at]

/-- The first layer's own-row product at (p, q), as a sum over the contracted axis. -/
theorem self1_at (p : Fin 280000) (q : Fin 64) :
    val_main_v36 (F := Ideal) x0 x1 x2 x3 x4 x7 (ix2 p q)
      = ∑ k : Fin 64, val_main_v6 (F := Ideal) x0 x1 x2 x3 x4 (ix2 p k) * val_main_v35 (F := Ideal) x7 (ix2 k q) := by
  rw [val_main_v36_apply]
  exact Finset.sum_congr rfl fun k _ => by rw [l1_self_left, l1_self_right]

/-- The first layer's broadcast bias at (p, q) is the bias vector at q. -/
theorem bias1_at (p : Fin 280000) (q : Fin 64) : val_main_v33 (F := Ideal) x6 (ix2 p q) = x6 (ix1 q) := by
  rw [val_main_v33_apply, val_main_v32_apply, l1_bias]

/-- The first layer of the reference's own aggregated rows, a degree column that reads as its in-degrees, its nodes' rows,
    the transposed weights and a bias row that reads as the bias vector is the reference's nodes' rows after its first layer. -/
theorem layer1_eq (deg2 : Mat 280000 1) (b2 : Mat 1 64)
    (hd : ∀ p : Fin 280000, deg2 (ix2 p (0 : Fin 1)) = val_main_v24 (F := Ideal) x11 (ix1 p))
    (hb : ∀ q : Fin 64, b2 (ix2 (0 : Fin 1) q) = x6 (ix1 q)) :
    combineRelu (val_main_v20 (F := Ideal) x0 x1 x2 x3 x4 x11) deg2 (val_main_v6 (F := Ideal) x0 x1 x2 x3 x4)
        (val_main_v30 (F := Ideal) x5) b2 (val_main_v35 (F := Ideal) x7)
      = val_main_v38 (F := Ideal) x0 x1 x2 x3 x4 x5 x6 x7 x11 := by
  funext i
  obtain ⟨p, q, rfl⟩ : ∃ (p : Fin 280000) (q : Fin 64), i = ix2 p q := ⟨i 0, i 1, eq_ix2 i⟩
  rw [combineRelu_apply, val_main_v38_apply, val_main_v37_apply, val_main_v34_apply, left1_at, bias1_at, self1_at,
    val_main_call0_v0_apply, val_main_call0_cst_apply]
  unfold combineAt
  rw [hd, hb]
  rfl

/-- The second layer's neighbour product reads the mean rows at (p, k). -/
theorem l2_left (p : Fin 280000) (q k : Fin 64) : lidx_main_v59 (ix2 p q) k = ix2 p k :=
  funext fun a => Fin.ext (by match a with | ⟨0, _⟩ => rfl | ⟨1, _⟩ => rfl)

/-- The second layer's neighbour product reads its transposed weight at (k, q). -/
theorem l2_right (p : Fin 280000) (q k : Fin 64) : ridx_main_v59 (ix2 p q) k = ix2 k q :=
  funext fun a => Fin.ext (by match a with | ⟨0, _⟩ => rfl | ⟨1, _⟩ => rfl)

/-- The second layer's divisor, a vector made a column and then broadcast along the columns, is read at the row. -/
theorem l2_deg (p : Fin 280000) (k : Fin 64) : idx_main_v55 (idx_main_v56 (ix2 p k)) = ix1 p :=
  funext fun a => Fin.ext (by match a with | ⟨0, _⟩ => rfl)

/-- The second layer's bias, broadcast to a row and then along the rows, is read at the column. -/
theorem l2_bias (p : Fin 280000) (q : Fin 64) : idx_main_v60 (idx_main_v61 (ix2 p q)) = ix1 q :=
  funext fun a => Fin.ext (by match a with | ⟨0, _⟩ => rfl)

/-- The second layer's own-row product reads the nodes at (p, k). -/
theorem l2_self_left (p : Fin 280000) (q k : Fin 64) : lidx_main_v64 (ix2 p q) k = ix2 p k :=
  funext fun a => Fin.ext (by match a with | ⟨0, _⟩ => rfl | ⟨1, _⟩ => rfl)

/-- The second layer's own-row product reads its transposed weight at (k, q). -/
theorem l2_self_right (p : Fin 280000) (q k : Fin 64) : ridx_main_v64 (ix2 p q) k = ix2 k q :=
  funext fun a => Fin.ext (by match a with | ⟨0, _⟩ => rfl | ⟨1, _⟩ => rfl)

/-- The second layer's mean row at (p, k): the aggregated entry over the larger of the in-degree of p and one. -/
theorem mean2_at (p : Fin 280000) (k : Fin 64) :
    val_main_v57 (F := Ideal) x0 x1 x2 x3 x4 x5 x6 x7 x11 (ix2 p k)
      = Ideal.div (val_main_v48 (F := Ideal) x0 x1 x2 x3 x4 x5 x6 x7 x11 (ix2 p k))
          (max (val_main_v52 (F := Ideal) x11 (ix1 p)) (Ideal.ofBits .f32 0x3F800000#32)) := by
  rw [val_main_v57_apply, val_main_v56_apply, val_main_v55_apply, val_main_v54_apply, val_main_v53_apply, val_main_cst_9_apply,
    l2_deg]
  rfl

/-- The second layer's neighbour product at (p, q), as a sum over the contracted axis. -/
theorem left2_at (p : Fin 280000) (q : Fin 64) :
    val_main_v59 (F := Ideal) x0 x1 x2 x3 x4 x5 x6 x7 x8 x11 (ix2 p q)
      = ∑ k : Fin 64, Ideal.div (val_main_v48 (F := Ideal) x0 x1 x2 x3 x4 x5 x6 x7 x11 (ix2 p k))
          (max (val_main_v52 (F := Ideal) x11 (ix1 p)) (Ideal.ofBits .f32 0x3F800000#32)) * val_main_v58 (F := Ideal) x8 (ix2 k q) := by
  rw [val_main_v59_apply]
  exact Finset.sum_congr rfl fun k _ => by rw [l2_left, l2_right, mean2_at]

/-- The second layer's own-row product at (p, q), as a sum over the contracted axis. -/
theorem self2_at (p : Fin 280000) (q : Fin 64) :
    val_main_v64 (F := Ideal) x0 x1 x2 x3 x4 x5 x6 x7 x10 x11 (ix2 p q)
      = ∑ k : Fin 64, val_main_v38 (F := Ideal) x0 x1 x2 x3 x4 x5 x6 x7 x11 (ix2 p k) * val_main_v63 (F := Ideal) x10 (ix2 k q) := by
  rw [val_main_v64_apply]
  exact Finset.sum_congr rfl fun k _ => by rw [l2_self_left, l2_self_right]

/-- The second layer's broadcast bias at (p, q) is the bias vector at q. -/
theorem bias2_at (p : Fin 280000) (q : Fin 64) : val_main_v61 (F := Ideal) x9 (ix2 p q) = x9 (ix1 q) := by
  rw [val_main_v61_apply, val_main_v60_apply, l2_bias]

/-- Likewise the second layer, with no activation. -/
theorem layer2_eq (deg2 : Mat 280000 1) (b2 : Mat 1 64)
    (hd : ∀ p : Fin 280000, deg2 (ix2 p (0 : Fin 1)) = val_main_v52 (F := Ideal) x11 (ix1 p))
    (hb : ∀ q : Fin 64, b2 (ix2 (0 : Fin 1) q) = x9 (ix1 q)) :
    combine (val_main_v48 (F := Ideal) x0 x1 x2 x3 x4 x5 x6 x7 x11) deg2 (val_main_v38 (F := Ideal) x0 x1 x2 x3 x4 x5 x6 x7 x11)
        (val_main_v58 (F := Ideal) x8) b2 (val_main_v63 (F := Ideal) x10)
      = val_main_v65 (F := Ideal) x0 x1 x2 x3 x4 x5 x6 x7 x8 x9 x10 x11 := by
  funext i
  obtain ⟨p, q, rfl⟩ : ∃ (p : Fin 280000) (q : Fin 64), i = ix2 p q := ⟨i 0, i 1, eq_ix2 i⟩
  rw [combine_apply, val_main_v65_apply, val_main_v62_apply, left2_at, bias2_at, self2_at]
  unfold combineAt
  rw [hd, hb]
  rfl

/-- The reference adds the in-degrees up twice, once per layer, from the same words: one array. -/
theorem degree_again : val_main_v52 (F := Ideal) x11 = val_main_v24 (F := Ideal) x11 := by
  -- the two sums have the same three operands under different names: the zeros they start from, the destination
  -- words laid out as a column, and the ones they add
  have h0 : val_main_v50 (F := Ideal) = val_main_v22 (F := Ideal) := by
    unfold val_main_v50 val_main_v22 val_main_cst_8 val_main_cst_2
    rfl
  have h1 : val_main_v49 (F := Ideal) = val_main_v21 (F := Ideal) := by
    unfold val_main_v49 val_main_v21 val_main_cst_7 val_main_cst_1
    rfl
  have hd : val_main_v51 (F := Ideal) x11 = val_main_v23 (F := Ideal) x11 := by
    unfold val_main_v51 val_main_v23
    rfl
  unfold val_main_v52 val_main_v24
  rw [h0, h1, hd]

/-- The reference's row sum at edge e reads the products at (e, k). -/
theorem score_read (e : Fin 500000) (k : Fin 64) : idx_main_v87 (ix1 e) k = ix2 e k :=
  funext fun a => Fin.ext (by match a with | ⟨0, _⟩ => rfl | ⟨1, _⟩ => rfl)

/-- The score column of the reference's two looked-up arrays, read at `(e, 0)`, is the reference's score at `e`. -/
theorem score_eq (e : Fin 500000) :
    scoreCol (val_main_v76 (F := Ideal) x0 x1 x2 x3 x4 x5 x6 x7 x8 x9 x10 x11 x12) (val_main_v85 (F := Ideal) x0 x1 x2 x3 x4 x5 x6 x7 x8 x9 x10 x11 x12)
        (ix2 e (0 : Fin 1))
      = val_main_v87 (F := Ideal) x0 x1 x2 x3 x4 x5 x6 x7 x8 x9 x10 x11 x12 (ix1 e) := by
  rw [scoreCol_apply, val_main_v87_apply, val_main_cst_14_apply]
  unfold scoreAt
  -- the reference's sum starts from the word of zero, which is the zero of the extended reals
  refine ((zero_add _).symm.trans (congrArg (· + _) Ideal.ofBits_zero_f32.symm)).trans ?_
  refine congrArg (_ + ·) (Finset.sum_congr rfl fun k _ => ?_)
  rw [score_read, val_main_v86_apply]
  rfl

end Cert.Sage.Ref

end
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.Take.lean ====
/-
  A table's rows looked up at in-range words. The kernel's program looks rows up through a guard: where the (wrapped) word
  lies outside the table it writes a fill word instead of a row. For words in `[0, N)` the wrap leaves the word alone,
  the guard holds on every row, and the guarded lookup is the plain lookup at the wrapped words.
-/
import proofs.«415384_j6571299963070_2_alg».proof.Proof.KVal
import proofs.«415384_j6571299963070_2_alg».proof.Proof.LibReduceAnd
import Idealize.ShloMosaic.Lib.StableHlo.Predicate
import Idealize.ShloMosaic.Lib.ValueIdx
import Idealize.ShloMosaic.Lib.Pipeline.Value

set_option maxRecDepth 16384

noncomputable section

namespace Cert.Sage.Take

open Idealize.ShloMosaic Idealize.ShloMosaic.ValueIdx
open Cert.KernelIdeal Cert.KernelIdeal.Gen Cert.Sage Cert.Sage.KVal

/-- One word under the guard. A word `w` with `0 ≤ w ≤ hi` (read signed) is left alone by the wrap "add `add` when negative",
    and the wrapped word passes both tests, "not below 0" and "not above `hi`": the "and" of the two test bits is 1. -/
theorem guard_word (w add hi : BitVec 32) (h0 : 0 ≤ w.toInt) (h1 : w.toInt ≤ hi.toInt) :
    IntOp.andi
      (IntOp.cmpi .sge (Scalar.select (IntOp.cmpi .slt w 0#32) (IntOp.addi w add) w) 0#32)
      (IntOp.cmpi .sle (Scalar.select (IntOp.cmpi .slt w 0#32) (IntOp.addi w add) w) hi) = 1#1 := by
  -- the wrap takes its second branch: `w` is not negative
  have hw : Scalar.select (IntOp.cmpi .slt w 0#32) (IntOp.addi w add) w = w := by
    have hlt : w.slt 0#32 = false := by
      simp only [BitVec.slt, BitVec.toInt_zero, decide_eq_false_iff_not, Int.not_lt]
      exact h0
    show (if BitVec.ofBool (w.slt 0#32) = 1 then _ else _) = _
    rw [hlt]
    rfl
  rw [hw, IntOp.andi_eq_one]
  constructor
  · show BitVec.ofBool ((0#32 : BitVec 32).sle w) = 1#1
    rw [StableHlo.Predicate.ofBool_eq_one_iff]
    simp only [BitVec.sle, BitVec.toInt_zero, decide_eq_true_eq]
    exact h0
  · show BitVec.ofBool (w.sle hi) = 1#1
    rw [StableHlo.Predicate.ofBool_eq_one_iff]
    simp only [BitVec.sle, decide_eq_true_eq]
    exact h1

/-- The guarded lookup at any extents. The words `s` are laid out as a column `T1` (by any broadcast), the column is
    tested entry by entry against `[0, hi]`, the test bits are reduced by "and" back to one bit per word, and that bit,
    laid over the rectangle `T`, chooses between the looked-up rows `a` and the fill `b`. When every word lies in
    `[0, hi]` every test bit is 1, so every reduced bit is 1 and the choice is `a` everywhere. -/
theorem guarded_eq {S T1 T : Shape} {α : Type} (add hi : BitVec 32) (s : IVec S 32)
    (hs : ∀ i : S.Idx, 0 ≤ (s i).toInt ∧ (s i).toInt ≤ hi.toInt)
    {d1 : Fin S.rank → Fin T1.rank} {d4 : Fin S1x1.rank → Fin T1.rank} {d5 : Fin S.rank → Fin T.rank}
    (b0 : S_.BroadcastsInDim S ![]) (b1 : S.BroadcastsInDim T1 d1) (b2 : S_.BroadcastsInDim T1 ![])
    (b3 : S1.BroadcastsInDim S1x1 ![1]) (b4 : S1x1.BroadcastsInDim T1 d4)
    {axes : List (Fin T1.rank)} (hr : T1.ReducesTo axes S) (hu : 0 < S_.numel) (b5 : S.BroadcastsInDim T d5)
    (a b : T.Idx → α) :
    select
      (broadcastInDim T d5 b5
        (Host.reduce IntOp.andi
          (andi
            (cmpi .sge
              (broadcastInDim T1 d1 b1
                (select (cmpi .slt s (broadcastInDim S ![] b0 (constantI S_ 32 0#32)))
                  (addi s (broadcastInDim S ![] b0 (constantI S_ 32 add))) s))
              (broadcastInDim T1 ![] b2 (constantI S_ 32 0#32)))
            (cmpi .sle
              (broadcastInDim T1 d1 b1
                (select (cmpi .slt s (broadcastInDim S ![] b0 (constantI S_ 32 0#32)))
                  (addi s (broadcastInDim S ![] b0 (constantI S_ 32 add))) s))
              (broadcastInDim T1 d4 b4 (broadcastInDim S1x1 ![1] b3 (constantI S1 32 hi)))))
          (constantI S_ 1 1#1) hr hu))
      a b = a := by
  -- every reduced bit is 1: each entry that reduces into it is the pair of tests of one wrapped word of `s`
  have hbit : ∀ j : S.Idx,
      (Host.reduce IntOp.andi
        (andi
          (cmpi .sge
            (broadcastInDim T1 d1 b1
              (select (cmpi .slt s (broadcastInDim S ![] b0 (constantI S_ 32 0#32)))
                (addi s (broadcastInDim S ![] b0 (constantI S_ 32 add))) s))
            (broadcastInDim T1 ![] b2 (constantI S_ 32 0#32)))
          (cmpi .sle
            (broadcastInDim T1 d1 b1
              (select (cmpi .slt s (broadcastInDim S ![] b0 (constantI S_ 32 0#32)))
                (addi s (broadcastInDim S ![] b0 (constantI S_ 32 add))) s))
            (broadcastInDim T1 d4 b4 (broadcastInDim S1x1 ![1] b3 (constantI S1 32 hi)))))
        (constantI S_ 1 1#1) hr hu) j = 1#1 := by
    intro j
    refine Host.reduce_andi_of_forall _ _ hr hu j rfl (fun k _ => ?_)
    exact guard_word (s _) add hi (hs _).1 (hs _).2
  funext i
  rw [select_apply]
  -- the bit at `i` is the reduced bit of the word its position keeps
  have hm : broadcastInDim T d5 b5
      (Host.reduce IntOp.andi
        (andi
          (cmpi .sge
            (broadcastInDim T1 d1 b1
              (select (cmpi .slt s (broadcastInDim S ![] b0 (constantI S_ 32 0#32)))
                (addi s (broadcastInDim S ![] b0 (constantI S_ 32 add))) s))
            (broadcastInDim T1 ![] b2 (constantI S_ 32 0#32)))
          (cmpi .sle
            (broadcastInDim T1 d1 b1
              (select (cmpi .slt s (broadcastInDim S ![] b0 (constantI S_ 32 0#32)))
                (addi s (broadcastInDim S ![] b0 (constantI S_ 32 add))) s))
            (broadcastInDim T1 d4 b4 (broadcastInDim S1x1 ![1] b3 (constantI S1 32 hi)))))
        (constantI S_ 1 1#1) hr hu) i = 1#1 := hbit _
  rw [hm, select_one]

/-- Source words in `[0, 280000)`: the guarded lookup of node rows is the plain lookup. -/
theorem takeNodes_eq (x : FVec Ideal S280000x64 .f32) (s : IVec S1250000 32)
    (hs : ∀ i : S1250000.Idx, 0 ≤ (s i).toInt ∧ (s i).toInt < 280000) :
    takeNodes x s = Host.gather gather_S280000x64_S1250000x1_S1250000x64_1_0_n_n_0_1_164 x (wrap280000 s) := by
  refine guarded_eq 280000#32 279999#32 s (fun i => ⟨(hs i).1, ?_⟩) _ _ _ _ _ _ _ _ _ _
  have e : (279999#32 : BitVec 32).toInt = 279999 := by decide
  have := (hs i).2
  omega

/-- User words in `[0, 200000)`: the guarded lookup of user rows is the plain lookup. -/
theorem takeUsers_eq (x : FVec Ideal S200000x64 .f32) (s : IVec S500000 32)
    (hs : ∀ i : S500000.Idx, 0 ≤ (s i).toInt ∧ (s i).toInt < 200000) :
    takeUsers x s = Host.gather gather_S200000x64_S500000x1_S500000x64_1_0_n_n_0_1_164 x (wrap200000 s) := by
  refine guarded_eq 200000#32 199999#32 s (fun i => ⟨(hs i).1, ?_⟩) _ _ _ _ _ _ _ _ _ _
  have e : (199999#32 : BitVec 32).toInt = 199999 := by decide
  have := (hs i).2
  omega

/-- Movie words in `[0, 80000)`: the guarded lookup of movie rows is the plain lookup. -/
theorem takeMovies_eq (x : FVec Ideal S80000x64 .f32) (s : IVec S500000 32)
    (hs : ∀ i : S500000.Idx, 0 ≤ (s i).toInt ∧ (s i).toInt < 80000) :
    takeMovies x s = Host.gather gather_S80000x64_S500000x1_S500000x64_1_0_n_n_0_1_164 x (wrap80000 s) := by
  refine guarded_eq 80000#32 79999#32 s (fun i => ⟨(hs i).1, ?_⟩) _ _ _ _ _ _ _ _ _ _
  have e : (79999#32 : BitVec 32).toInt = 79999 := by decide
  have := (hs i).2
  omega

end Cert.Sage.Take

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.Bridge.lean ====
/-
  The kernel's scores are the reference's: with every source, user and movie word in range, the values of KVal.lean are,
  stage by stage, the reference's stages of the same arguments — the encoded movie rows, the nodes' rows before and after
  each layer (a guarded lookup at in-range words being the plain lookup), the looked-up user and movie rows, the scores.

  The two programs were printed apart, so each names its shapes and operation records for itself; the records are the
  same literal data, and a stage of one program that applies the same operation to the same operands as a stage of the
  other is the same term. Only three kinds of step say more than that: a guarded lookup at in-range words is the plain
  lookup; a dense stage of Spec.lean is the reference's stage; a vector reshaped to a row or a column (and a column
  reshaped to a vector) keeps its entries.
-/
import proofs.«415384_j6571299963070_2_alg».proof.Proof.KVal
import proofs.«415384_j6571299963070_2_alg».proof.Proof.RefStages
import proofs.«415384_j6571299963070_2_alg».proof.Proof.Take
import proofs.«415384_j6571299963070_2_alg».proof.Proof.LibReshape
import proofs.«415384_j6571299963070_2_alg».proof.Proof.Gen.ReferenceIdeal.Read
import Idealize.ShloMosaic.Lib.ValueIdx
import Idealize.ShloMosaic.Lib.Pipeline.Value

set_option maxRecDepth 16384

noncomputable section

namespace Cert.Sage.Bridge

open Idealize.ShloMosaic Idealize.ShloMosaic.ValueIdx
open Cert.Sage Cert.ReferenceIdeal.Read

/-- A column reshaped to a vector, read at `i`, is the column's entry `(i, 0)`: both row-major positions are `i`. -/
theorem vec_of_col_apply {α : Type} {n : Nat} (v : (⟨2, ![n, 1]⟩ : Shape).Idx → α)
    (h : (⟨2, ![n, 1]⟩ : Shape).ShapeCasts ⟨1, ![n]⟩) (i : Fin n) :
    shapeCast ⟨1, ![n]⟩ v h (ix1 i) = v (ix2 i (0 : Fin 1)) :=
  shapeCast_apply v h (ix1 i) (ix2 i (0 : Fin 1)) (by
    rw [Shape.rowMajor_val_one, Shape.rowMajor_val_two]
    show i.val * 1 + 0 = i.val
    omega)

variable (a0 : FVec Ideal Cert.KernelIdeal.S80000x20 .f32) (a1 : FVec Ideal Cert.KernelIdeal.S200000x64 .f32) (a2 : FVec Ideal Cert.KernelIdeal.S80000x64 .f32)
  (a3 : FVec Ideal Cert.KernelIdeal.S64x20 .f32) (a4 : FVec Ideal Cert.KernelIdeal.S64 .f32) (a5 : FVec Ideal Cert.KernelIdeal.S64x64 .f32)
  (a6 : FVec Ideal Cert.KernelIdeal.S64 .f32) (a7 : FVec Ideal Cert.KernelIdeal.S64x64 .f32) (a8 : FVec Ideal Cert.KernelIdeal.S64x64 .f32)
  (a9 : FVec Ideal Cert.KernelIdeal.S64 .f32) (a10 : FVec Ideal Cert.KernelIdeal.S64x64 .f32) (a11 : IVec Cert.KernelIdeal.S2x1250000 32)
  (a12 : IVec Cert.KernelIdeal.S2x500000 32)

/-! ## The index words and the in-degrees: the same operations on the same words -/

theorem degree_first : KVal.degree a11 = val_main_v24 (F := Ideal) a11 := rfl

theorem degree_second : KVal.degree a11 = val_main_v52 (F := Ideal) a11 := rfl

/-- The degree column reads as the reference's in-degrees of its first layer. -/
theorem degCol_first (p : Fin 280000) : KVal.degCol a11 (ix2 p (0 : Fin 1)) = val_main_v24 (F := Ideal) a11 (ix1 p) :=
  (Cert.Rgcn.Lib.col_of_vec_apply (KVal.degree a11) _ p).trans (congrFun (degree_first a11) _)

/-- The degree column reads as the reference's in-degrees of its second layer. -/
theorem degCol_second (p : Fin 280000) : KVal.degCol a11 (ix2 p (0 : Fin 1)) = val_main_v52 (F := Ideal) a11 (ix1 p) :=
  (Cert.Rgcn.Lib.col_of_vec_apply (KVal.degree a11) _ p).trans (congrFun (degree_second a11) _)

/-! ## The nodes' rows before the first layer -/

theorem movie_eq : KVal.movie a0 a2 a3 a4 = val_main_v5 (F := Ideal) a0 a2 a3 a4 :=
  Ref.encode_eq a0 a2 a3 a4 _ (fun q => Cert.Rgcn.Lib.row_of_vec_apply a4 _ q)

theorem nodes0_eq : KVal.nodes0 a0 a1 a2 a3 a4 = val_main_v6 (F := Ideal) a0 a1 a2 a3 a4 := by
  unfold KVal.nodes0
  rw [movie_eq]
  rfl

/-! ## The first layer -/

section
variable (hsrc : ∀ i : Cert.KernelIdeal.S1250000.Idx, 0 ≤ (KVal.src a11 i).toInt ∧ (KVal.src a11 i).toInt < 280000)
include hsrc

theorem lookup1_eq :
    KVal.takeNodes (KVal.nodes0 a0 a1 a2 a3 a4) (KVal.src a11) = val_main_v17 (F := Ideal) a0 a1 a2 a3 a4 a11 := by
  rw [Take.takeNodes_eq _ _ hsrc, nodes0_eq]
  rfl

theorem agg1_eq :
    KVal.aggregate (KVal.takeNodes (KVal.nodes0 a0 a1 a2 a3 a4) (KVal.src a11)) a11 = val_main_v20 (F := Ideal) a0 a1 a2 a3 a4 a11 := by
  rw [lookup1_eq a0 a1 a2 a3 a4 a11 hsrc]
  rfl

theorem nodes1_eq : KVal.nodes1 a0 a1 a2 a3 a4 a5 a6 a7 a11 = val_main_v38 (F := Ideal) a0 a1 a2 a3 a4 a5 a6 a7 a11 := by
  unfold KVal.nodes1
  rw [agg1_eq a0 a1 a2 a3 a4 a11 hsrc, nodes0_eq]
  exact Ref.layer1_eq a0 a1 a2 a3 a4 a5 a6 a7 a11 _ _ (degCol_first a11) (fun q => Cert.Rgcn.Lib.row_of_vec_apply a6 _ q)

/-! ## The second layer -/

theorem lookup2_eq :
    KVal.takeNodes (KVal.nodes1 a0 a1 a2 a3 a4 a5 a6 a7 a11) (KVal.src a11) = val_main_v45 (F := Ideal) a0 a1 a2 a3 a4 a5 a6 a7 a11 := by
  rw [Take.takeNodes_eq _ _ hsrc, nodes1_eq a0 a1 a2 a3 a4 a5 a6 a7 a11 hsrc]
  rfl

theorem agg2_eq :
    KVal.aggregate (KVal.takeNodes (KVal.nodes1 a0 a1 a2 a3 a4 a5 a6 a7 a11) (KVal.src a11)) a11
      = val_main_v48 (F := Ideal) a0 a1 a2 a3 a4 a5 a6 a7 a11 := by
  rw [lookup2_eq a0 a1 a2 a3 a4 a5 a6 a7 a11 hsrc]
  rfl

theorem nodes2_eq :
    KVal.nodes2 a0 a1 a2 a3 a4 a5 a6 a7 a8 a9 a10 a11 = val_main_v65 (F := Ideal) a0 a1 a2 a3 a4 a5 a6 a7 a8 a9 a10 a11 := by
  unfold KVal.nodes2
  rw [agg2_eq a0 a1 a2 a3 a4 a5 a6 a7 a11 hsrc, nodes1_eq a0 a1 a2 a3 a4 a5 a6 a7 a11 hsrc]
  exact Ref.layer2_eq a0 a1 a2 a3 a4 a5 a6 a7 a8 a9 a10 a11 _ _ (degCol_second a11) (fun q => Cert.Rgcn.Lib.row_of_vec_apply a9 _ q)

/-! ## The user rows, the movie rows, their lookups and the scores -/

theorem users_eq :
    KVal.users a0 a1 a2 a3 a4 a5 a6 a7 a8 a9 a10 a11 = val_main_v66 (F := Ideal) a0 a1 a2 a3 a4 a5 a6 a7 a8 a9 a10 a11 := by
  unfold KVal.users
  rw [nodes2_eq a0 a1 a2 a3 a4 a5 a6 a7 a8 a9 a10 a11 hsrc]
  rfl

theorem movies_eq :
    KVal.movies a0 a1 a2 a3 a4 a5 a6 a7 a8 a9 a10 a11 = val_main_v67 (F := Ideal) a0 a1 a2 a3 a4 a5 a6 a7 a8 a9 a10 a11 := by
  unfold KVal.movies
  rw [nodes2_eq a0 a1 a2 a3 a4 a5 a6 a7 a8 a9 a10 a11 hsrc]
  rfl

theorem lookupUsers_eq (hlab0 : ∀ i : Cert.KernelIdeal.S500000.Idx, 0 ≤ (KVal.lab0 a12 i).toInt ∧ (KVal.lab0 a12 i).toInt < 200000) :
    KVal.takeUsers (KVal.users a0 a1 a2 a3 a4 a5 a6 a7 a8 a9 a10 a11) (KVal.lab0 a12)
      = val_main_v76 (F := Ideal) a0 a1 a2 a3 a4 a5 a6 a7 a8 a9 a10 a11 a12 := by
  rw [Take.takeUsers_eq _ _ hlab0, users_eq a0 a1 a2 a3 a4 a5 a6 a7 a8 a9 a10 a11 hsrc]
  rfl

theorem lookupMovies_eq (hlab1 : ∀ i : Cert.KernelIdeal.S500000.Idx, 0 ≤ (KVal.lab1 a12 i).toInt ∧ (KVal.lab1 a12 i).toInt < 80000) :
    KVal.takeMovies (KVal.movies a0 a1 a2 a3 a4 a5 a6 a7 a8 a9 a10 a11) (KVal.lab1 a12)
      = val_main_v85 (F := Ideal) a0 a1 a2 a3 a4 a5 a6 a7 a8 a9 a10 a11 a12 := by
  rw [Take.takeMovies_eq _ _ hlab1, movies_eq a0 a1 a2 a3 a4 a5 a6 a7 a8 a9 a10 a11 hsrc]
  rfl

/-- With the three index rows in range the kernel's scores are the reference's last stage of the same arguments. -/
theorem out_eq
    (hlab0 : ∀ i : Cert.KernelIdeal.S500000.Idx, 0 ≤ (KVal.lab0 a12 i).toInt ∧ (KVal.lab0 a12 i).toInt < 200000)
    (hlab1 : ∀ i : Cert.KernelIdeal.S500000.Idx, 0 ≤ (KVal.lab1 a12 i).toInt ∧ (KVal.lab1 a12 i).toInt < 80000) :
    KVal.out a0 a1 a2 a3 a4 a5 a6 a7 a8 a9 a10 a11 a12
      = Cert.ReferenceIdeal.Read.val_main_v87 (F := Ideal) a0 a1 a2 a3 a4 a5 a6 a7 a8 a9 a10 a11 a12 := by
  unfold KVal.out
  rw [lookupUsers_eq a0 a1 a2 a3 a4 a5 a6 a7 a8 a9 a10 a11 a12 hsrc hlab0, lookupMovies_eq a0 a1 a2 a3 a4 a5 a6 a7 a8 a9 a10 a11 a12 hsrc hlab1]
  funext i
  obtain ⟨e, rfl⟩ : ∃ e : Fin 500000, i = ix1 e := ⟨⟨(i 0).val, (i 0).isLt⟩, eq_ix1 i⟩
  exact (vec_of_col_apply _ _ e).trans (Ref.score_eq a0 a1 a2 a3 a4 a5 a6 a7 a8 a9 a10 a11 a12 e)

end

end Cert.Sage.Bridge

end
-- ==== Proof.lean ====
/-
  The certificate of the two-layer neighbourhood-mean network: the kernel's program (a movie encoder, two layers that
  combine each node's row with the mean of its in-neighbours' rows, and an inner-product score per label edge, the four
  dense stages as launches among host operations) against the plain reference.

  The frames of the two kernel programs are the generated ones; the reference's frame is its run with the result dropped.
  The idealization changes no operation. For the equality of results: the kernel's run ends with its result buffer at the
  last boundary's contents (the launch theorem called with one more conjunct); read back boundary by boundary these are
  the scores as a function of the thirteen argument arrays; under the precondition every source, user and movie word is
  in range, so every guarded row lookup is the plain lookup and the scores are, stage by stage, the reference's last
  stage of the same arrays; and the two memories agree on the arguments. No law of arithmetic on the extended reals is
  used, and of the precondition only the three range conjuncts.
-/
import proofs.«415384_j6571299963070_2_alg».proof.Defs
import proofs.«415384_j6571299963070_2_alg».proof.Proof.Gen.Kernel
import proofs.«415384_j6571299963070_2_alg».proof.Proof.Gen.Kernel.Skeleton
import proofs.«415384_j6571299963070_2_alg».proof.Proof.Gen.Kernel.Launch
import proofs.«415384_j6571299963070_2_alg».proof.Proof.Gen.Kernel.Points
import proofs.«415384_j6571299963070_2_alg».proof.Proof.Gen.Kernel.Frame
import proofs.«415384_j6571299963070_2_alg».proof.Proof.Gen.KernelIdeal
import proofs.«415384_j6571299963070_2_alg».proof.Proof.Gen.KernelIdeal.Skeleton
import proofs.«415384_j6571299963070_2_alg».proof.Proof.Gen.KernelIdeal.Launch
import proofs.«415384_j6571299963070_2_alg».proof.Proof.Gen.KernelIdeal.Points
import proofs.«415384_j6571299963070_2_alg».proof.Proof.Gen.KernelIdeal.Frame
import proofs.«415384_j6571299963070_2_alg».proof.Proof.Gen.ReferenceIdeal
import proofs.«415384_j6571299963070_2_alg».proof.Proof.Gen.ReferenceIdeal.Run
import proofs.«415384_j6571299963070_2_alg».proof.Proof.Gen.ReferenceIdeal.Read
import proofs.«415384_j6571299963070_2_alg».proof.Proof.Gen.Pre_finite_inputs
import proofs.«415384_j6571299963070_2_alg».proof.Proof.RunValue
import proofs.«415384_j6571299963070_2_alg».proof.Proof.ChainB
import proofs.«415384_j6571299963070_2_alg».proof.Proof.PreRange
import proofs.«415384_j6571299963070_2_alg».proof.Proof.Bridge
import Idealize.ShloMosaic.Adequacy
import Idealize.ShloMosaic.Init

set_option maxRecDepth 16384

noncomputable section

namespace Cert.Proof

open Idealize.ShloMosaic Idealize.SL.Sem

/-- The kernel's result buffer at its last boundary is the reference's last stage of the reference memory's arguments:
    the boundary's contents are the scores of the kernel memory's arguments, these are the reference's last stage of the
    same arrays once the three index rows are in range, and the two memories agree on every argument. -/
theorem kernel_scores (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (c : Dev Cert.KernelIdeal.nD) :
    Cert.KernelIdeal.Gen.W15 (F := Ideal) m ρ c (Proc.devRef .tc Cert.KernelIdeal.main_v38)
      = Cert.ReferenceIdeal.Read.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) := by
  obtain ⟨h0, h1, h2, h3, h4, h5, h6, h7, h8, h9, h10, h11, h12⟩ := hagree c
  obtain ⟨hs, hl0, hl1⟩ := Cert.Sage.PreRange.ranges m hpre c
  refine (Cert.Sage.Chain.result m ρ c).trans ?_
  refine (Cert.Sage.Bridge.out_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) hs hl0 hl1).trans ?_
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.ReferenceIdeal.Read.val_main_v87 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)),
     (θ_run Cert.KernelIdeal.defs _ _).mono (fun _ h c => ⟨(h c).1.trans (kernel_scores m ρ m' hpre hagree c), (h c).2⟩)
       (Cert.Sage.Run.run_result (F := Ideal) m ρ),
     (θ_run Cert.ReferenceIdeal.defs _ _).mono (fun _ h c => ⟨(h c).1.trans (Cert.ReferenceIdeal.Read.val_main_v87_eq m' c), (h c).2⟩)
       (Cert.ReferenceIdeal.Value.run (F := Ideal) m' ρ')⟩⟩

end Cert.Proof

end
